-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S100000 : Shape := ⟨1, ![100000]⟩
abbrev S512x128 : Shape := ⟨2, ![512, 128]⟩
abbrev S128x64 : Shape := ⟨2, ![128, 64]⟩
abbrev S64x32 : Shape := ⟨2, ![64, 32]⟩
abbrev S32x5 : Shape := ⟨2, ![32, 5]⟩
abbrev S5 : Shape := ⟨1, ![5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v33 : IVec S1600000 1) : IVec S_ 1 :=
  let main_c_12 : IVec S_ 1 := constantI S_ 1 1#1
  let main_v34 : IVec S_ 1 := (fun x v => Host.reduce IntOp.andi x v reducesTo_S1600000_S_d0 h_S_) main_v33 main_c_12
  let main_v35 : IVec S_ 1 := andi main_v28 main_v34
  main_v35

def fn_part1 {F : FTy → Type} [FloatOps F] (main_arg1 : IVec S1600000 32) (main_arg7 : FVec F S32x5 .f32) (main_arg8 : FVec F S5 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32x5 .f32 := Host.absf main_arg7
  let main_cst_6 : FVec F S_ .f32 := constant S_ .f32 0x7F800000#32
  let main_v20 : FVec F S32x5 .f32 := broadcastInDim S32x5 ![] bcast_S_S32x5 main_cst_6
  let main_v21 : IVec S32x5 1 := cmpf .olt main_v19 main_v20
  let main_c_7 : IVec S_ 1 := constantI S_ 1 1#1
  let main_v22 : IVec S_ 1 := (fun x v => Host.reduce IntOp.andi x v reducesTo_S32x5_S_d0_1 h_S_) main_v21 main_c_7
  let main_v23 : IVec S_ 1 := andi main_v18 main_v22
  let main_v24 : FVec F S5 .f32 := Host.absf main_arg8
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  let main_c_10 : IVec S_ 32 := constantI S_ 32 0#32
  let main_v29 : IVec S1600000 32 := broadcastInDim S1600000 ![] bcast_S_S1600000 main_c_10
  let main_v30 : IVec S1600000 1 := cmpi .sge main_arg1 main_v29
  let main_c_11 : IVec S_ 32 := constantI S_ 32 100000#32
  let main_v31 : IVec S1600000 32 := broadcastInDim S1600000 ![] bcast_S_S1600000 main_c_11
  let main_v32 : IVec S1600000 1 := cmpi .slt main_arg1 main_v31
  let main_v33 : IVec S1600000 1 := andi main_v30 main_v32
  fn_part2 (F := F) main_v28 main_v33

def fn {F : FTy → Type} [FloatOps F] (main_arg0 : FVec F S100000x512 .f32) (main_arg1 : IVec S1600000 32) (main_arg2 : IVec S1600000 32) (main_arg3 : IVec S100000 32) (main_arg4 : FVec F S512x128 .f32) (main_arg5 : FVec F S128x64 .f32) (main_arg6 : FVec F S64x32 .f32) (main_arg7 : FVec F S32x5 .f32) (main_arg8 : FVec F S5 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg6
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg7 main_arg8 main_v13 main_v16
-- ==== Kernel.lean ====
abbrev S100000x512 : Shape := ⟨2, ![100000, 512]⟩
abbrev S1600000 : Shape := ⟨1, ![1600000]⟩
abbrev S100000 : Shape := ⟨1, ![100000]⟩
abbrev S512x128 : Shape := ⟨2, ![512, 128]⟩
abbrev S128x64 : Shape := ⟨2, ![128, 64]⟩
abbrev S64x32 : Shape := ⟨2, ![64, 32]⟩
abbrev S32x5 : Shape := ⟨2, ![32, 5]⟩
abbrev S5 : Shape := ⟨1, ![5]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S2000x512 : Shape := ⟨2, ![2000, 512]⟩
abbrev S2000x1 : Shape := ⟨2, ![2000, 1]⟩
abbrev S2000x128 : Shape := ⟨2, ![2000, 128]⟩
abbrev S1 : Shape := ⟨1, ![1]⟩
abbrev S1x1 : Shape := ⟨2, ![1, 1]⟩
abbrev S1600000x128 : Shape := ⟨2, ![1600000, 128]⟩
abbrev S100000x64 : Shape := ⟨2, ![100000, 64]⟩
abbrev S2000x64 : Shape := ⟨2, ![2000, 64]⟩
abbrev S1600000x64 : Shape := ⟨2, ![1600000, 64]⟩
abbrev S100000x32 : Shape := ⟨2, ![100000, 32]⟩
abbrev S2000x32 : Shape := ⟨2, ![2000, 32]⟩
abbrev S1600000x32 : Shape := ⟨2, ![1600000, 32]⟩
abbrev S1x64 : Shape := ⟨2, ![1, 64]⟩
abbrev S64 : Shape := ⟨1, ![64]⟩
abbrev S64x2000 : Shape := ⟨2, ![64, 2000]⟩
abbrev S64x1 : Shape := ⟨2, ![64, 1]⟩
abbrev S64x5 : Shape := ⟨2, ![64, 5]⟩
abbrev S1x5 : Shape := ⟨2, ![1, 5]⟩

abbrev nBuf : Space → Nat
  | .hbm => 138
  | .vmem => 44
  | .smem => 0
  | _ => 0

abbrev hbmTy0_0 (i : Nat) : BufTy := match i % 128 with
  | 0 => ⟨S100000x512, .f32⟩
  | 1 => ⟨S1600000, .i32⟩
  | 2 => ⟨S1600000, .i32⟩
  | 3 => ⟨S100000, .i32⟩
  | 4 => ⟨S512x128, .f32⟩
  | 5 => ⟨S128x64, .f32⟩
  | 6 => ⟨S64x32, .f32⟩
  | 7 => ⟨S32x5, .f32⟩
  | 8 => ⟨S5, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S100000x1, .f32⟩
  | 25 => ⟨S_, .f32⟩
  | 26 => ⟨S_, .f32⟩
  | 27 => ⟨S100000, .f32⟩
  | 28 => ⟨S100000, .f32⟩
  | 29 => ⟨S100000, .f32⟩
  | 30 => ⟨S100000x1, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1, .i32⟩
  | 41 => ⟨S_, .i32⟩
  | 42 => ⟨S1600000x1, .i32⟩
  | 43 => ⟨S1600000x1, .i1⟩
  | 44 => ⟨S1x1, .i32⟩
  | 45 => ⟨S1600000x1, .i32⟩
  | 46 => ⟨S1600000x1, .i1⟩
  | 47 => ⟨S1600000x1, .i1⟩
  | 48 => ⟨S_, .i1⟩
  | 49 => ⟨S1600000, .i1⟩
  | 50 => ⟨S1600000x128, .f32⟩
  | 51 => ⟨S1600000x128, .i1⟩
  | 52 => ⟨S_, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000x128, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1, .i32⟩
  | 70 => ⟨S_, .i32⟩
  | 71 => ⟨S1600000x1, .i32⟩
  | 72 => ⟨S1600000x1, .i1⟩
  | 73 => ⟨S1x1, .i32⟩
  | 74 => ⟨S1600000x1, .i32⟩
  | 75 => ⟨S1600000x1, .i1⟩
  | 76 => ⟨S1600000x1, .i1⟩
  | 77 => ⟨S_, .i1⟩
  | 78 => ⟨S1600000, .i1⟩
  | 79 => ⟨S1600000x64, .f32⟩
  | 80 => ⟨S1600000x64, .i1⟩
  | 81 => ⟨S_, .f32⟩
  | 82 => ⟨S1600000x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S100000x32, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1, .i32⟩
  | 99 => ⟨S_, .i32⟩
  | 100 => ⟨S1600000x1, .i32⟩
  | 101 => ⟨S1600000x1, .i1⟩
  | 102 => ⟨S1x1, .i32⟩
  | 103 => ⟨S1600000x1, .i32⟩
  | 104 => ⟨S1600000x1, .i1⟩
  | 105 => ⟨S1600000x1, .i1⟩
  | 106 => ⟨S_, .i1⟩
  | 107 => ⟨S1600000, .i1⟩
  | 108 => ⟨S1600000x32, .f32⟩
  | 109 => ⟨S1600000x32, .i1⟩
  | 110 => ⟨S_, .f32⟩
  | 111 => ⟨S1600000x32, .f32⟩
  | 112 => ⟨S1600000x32, .f32⟩
  | 113 => ⟨S_, .f32⟩
  | 114 => ⟨S100000x32, .f32⟩
  | 115 => ⟨S1600000x1, .i32⟩
  | 116 => ⟨S100000x32, .f32⟩
  | 117 => ⟨S100000x32, .f32⟩
  | 118 => ⟨S100000x1, .i32⟩
  | 119 => ⟨S1x64, .i32⟩
  | 120 => ⟨S100000x64, .i32⟩
  | 121 => ⟨S100000x64, .i32⟩
  | 122 => ⟨S100000x64, .i1⟩
  | 123 => ⟨S100000x64, .f32⟩
  | 124 => ⟨S_, .f32⟩
  | 125 => ⟨S64, .f32⟩
  | 126 => ⟨S64x32, .f32⟩
  | 127 => ⟨S_, .f32⟩
  | _ => ⟨S100000x512, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x32, .f32⟩
  | 5 => ⟨S64x32, .f32⟩
  | 6 => ⟨S64x5, .f32⟩
  | 7 => ⟨S1x5, .f32⟩
  | 8 => ⟨S64x5, .f32⟩
  | 9 => ⟨S64x5, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x64, .f32⟩
  | .local _ .vmem, ⟨16, _⟩ => ⟨S2000x1, .f32⟩
  | .local _ .vmem, ⟨17, _⟩ => ⟨S2000x1, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x32, .f32⟩
  | .local _ .vmem, ⟨29, _⟩ => ⟨S2000x1, .f32⟩
  | .local _ .vmem, ⟨30, _⟩ => ⟨S2000x1, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S2000x32, .f32⟩
  | .local _ .vmem, ⟨35, _⟩ => ⟨S2000x1, .f32⟩
  | .local _ .vmem, ⟨36, _⟩ => ⟨S2000x1, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S2000x64, .f32⟩
  | .local _ .vmem, ⟨42, _⟩ => ⟨S2000x64, .f32⟩
  | .local _ .vmem, ⟨43, _⟩ => ⟨S64x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v14 : Ref sig .tc := ⟨.hbm, 54, rfl⟩
abbrev main_cst_4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_call3_cst : Ref sig .tc := ⟨.hbm, 81, rfl⟩
abbrev main_call3_v15 : Ref sig .tc := ⟨.hbm, 82, rfl⟩
abbrev main_v20 : Ref sig .tc := ⟨.hbm, 83, rfl⟩
abbrev main_cst_5 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_call4_cst : Ref sig .tc := ⟨.hbm, 110, rfl⟩
abbrev main_call4_v15 : Ref sig .tc := ⟨.hbm, 111, rfl⟩
abbrev main_v26 : Ref sig .tc := ⟨.hbm, 112, rfl⟩
abbrev main_cst_6 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v31 : Ref sig .tc := ⟨.hbm, 123, rfl⟩
abbrev main_cst_7 : Ref sig .tc := ⟨.hbm, 124, rfl⟩
abbrev main_v32 : Ref sig .tc := ⟨.hbm, 125, rfl⟩
abbrev main_v33 : Ref sig .tc := ⟨.hbm, 126, rfl⟩
abbrev main_cst_8 : Ref sig .tc := ⟨.hbm, 127, rfl⟩
abbrev main_call6_v0 : Ref sig .tc := ⟨.hbm, 128, rfl⟩
abbrev main_call6_v1 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_v41 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S2000x128_S2000x128 : S2000x128.ShapeCasts S2000x128
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S2000x64_S2000x64 : S2000x64.ShapeCasts S2000x64
  broadcasts_S2000x1_S2000x64 : S2000x1.Broadcasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  shapeCasts_S2000x32_S2000x32 : S2000x32.ShapeCasts S2000x32
  broadcasts_S2000x1_S2000x32 : S2000x1.Broadcasts S2000x32
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  reducesTo_S100000x64_S64_d0 : S100000x64.ReducesTo [0] S64
  shapeCasts_S64x32_S64x32 : S64x32.ShapeCasts S64x32
  transposes_S2000x64_p1_0_S64x2000 : S2000x64.Transposes [1, 0] S64x2000
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S1600000x1_S1600000_n_0_0_1_wf : ScatterDims.WF S100000 S1600000x1 S1600000 [] [0] [0] 1
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x32_S2000x32_1_0_0_1_n_n_wf : DotDims.WF S2000x64 S64x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S64x2000_S2000x32_S64x32_1_0_0_1_n_n_wf : DotDims.WF S64x2000 S2000x32 S64x32 [1] [0] [0] [1] [] []
  dot_S64x32_S32x5_S64x5_1_0_0_1_n_n_wf : DotDims.WF S64x32 S32x5 S64x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S100000x32.size a
  hwx4_3 : ∀ i : grid4.Coords, EltTy.bits .f32 = 32 ∨ (Rect.block (s := S100000x32) S2000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S64x2000_S2000x32_S64x32_1_0_0_1_n_n : DotDims S64x2000 S2000x32 S64x32 where
  lhsContracting := [1]
  rhsContracting := [0]
  lhsNonContracting := [0]
  rhsNonContracting := [1]
  lhsBatch := []
  rhsBatch := []
  wf := dot_S64x2000_S2000x32_S64x32_1_0_0_1_n_n_wf
def dot_S64x32_S32x5_S64x5_1_0_0_1_n_n : DotDims S64x32 S32x5 S64x5 where
  lhsContracting := [1]
  rhsContracting := [0]
  lhsNonContracting := [0]
  rhsNonContracting := [1]
  lhsBatch := []
  rhsBatch := []
  wf := dot_S64x32_S32x5_S64x5_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v24) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v25) S2000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v30) S2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v30) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v33) S64x32.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x512 : Shape := ⟨2, ![100000, 512]⟩
abbrev S1600000 : Shape := ⟨1, ![1600000]⟩
abbrev S100000 : Shape := ⟨1, ![100000]⟩
abbrev S512x128 : Shape := ⟨2, ![512, 128]⟩
abbrev S128x64 : Shape := ⟨2, ![128, 64]⟩
abbrev S64x32 : Shape := ⟨2, ![64, 32]⟩
abbrev S32x5 : Shape := ⟨2, ![32, 5]⟩
abbrev S5 : Shape := ⟨1, ![5]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S100000x64 : Shape := ⟨2, ![100000, 64]⟩
abbrev S1600000x64 : Shape := ⟨2, ![1600000, 64]⟩
abbrev S100000x32 : Shape := ⟨2, ![100000, 32]⟩
abbrev S1600000x32 : Shape := ⟨2, ![1600000, 32]⟩
abbrev S64 : Shape := ⟨1, ![64]⟩
abbrev S64x1 : Shape := ⟨2, ![64, 1]⟩
abbrev S64x5 : Shape := ⟨2, ![64, 5]⟩
abbrev S1x5 : Shape := ⟨2, ![1, 5]⟩

abbrev nBuf : Space → Nat
  | .hbm => 134
  | .vmem => 0
  | .smem => 0
  | _ => 0

abbrev hbmTy0_0 (i : Nat) : BufTy := match i % 128 with
  | 0 => ⟨S100000x512, .f32⟩
  | 1 => ⟨S1600000, .i32⟩
  | 2 => ⟨S1600000, .i32⟩
  | 3 => ⟨S100000, .i32⟩
  | 4 => ⟨S512x128, .f32⟩
  | 5 => ⟨S128x64, .f32⟩
  | 6 => ⟨S64x32, .f32⟩
  | 7 => ⟨S32x5, .f32⟩
  | 8 => ⟨S5, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x512, .f32⟩
  | 31 => ⟨S100000x512, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S100000x1, .f32⟩
  | 47 => ⟨S100000x128, .f32⟩
  | 48 => ⟨S100000x128, .f32⟩
  | 49 => ⟨S_, .f32⟩
  | 50 => ⟨S_, .f32⟩
  | 51 => ⟨S100000x128, .f32⟩
  | 52 => ⟨S100000x128, .i1⟩
  | 53 => ⟨S_, .f32⟩
  | 54 => ⟨S100000x128, .f32⟩
  | 55 => ⟨S100000x128, .f32⟩
  | 56 => ⟨S100000x128, .f32⟩
  | 57 => ⟨S100000x1, .f32⟩
  | 58 => ⟨S100000x128, .f32⟩
  | 59 => ⟨S100000x128, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x1, .f32⟩
  | 75 => ⟨S100000x64, .f32⟩
  | 76 => ⟨S100000x64, .f32⟩
  | 77 => ⟨S_, .f32⟩
  | 78 => ⟨S_, .f32⟩
  | 79 => ⟨S100000x64, .f32⟩
  | 80 => ⟨S100000x64, .i1⟩
  | 81 => ⟨S_, .f32⟩
  | 82 => ⟨S100000x64, .f32⟩
  | 83 => ⟨S100000x64, .f32⟩
  | 84 => ⟨S100000x64, .f32⟩
  | 85 => ⟨S100000x1, .f32⟩
  | 86 => ⟨S100000x64, .f32⟩
  | 87 => ⟨S100000x64, .f32⟩
  | 88 => ⟨S100000x32, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S_, .f32⟩
  | 99 => ⟨S100000x32, .f32⟩
  | 100 => ⟨S1600000x1, .i32⟩
  | 101 => ⟨S100000x32, .f32⟩
  | 102 => ⟨S100000x1, .f32⟩
  | 103 => ⟨S100000x32, .f32⟩
  | 104 => ⟨S100000x32, .f32⟩
  | 105 => ⟨S_, .f32⟩
  | 106 => ⟨S_, .f32⟩
  | 107 => ⟨S100000x32, .f32⟩
  | 108 => ⟨S100000x32, .i1⟩
  | 109 => ⟨S_, .f32⟩
  | 110 => ⟨S100000x32, .f32⟩
  | 111 => ⟨S100000x32, .f32⟩
  | 112 => ⟨S100000x32, .f32⟩
  | 113 => ⟨S_, .f32⟩
  | 114 => ⟨S100000, .f32⟩
  | 115 => ⟨S_, .f32⟩
  | 116 => ⟨S64, .f32⟩
  | 117 => ⟨S100000x1, .i32⟩
  | 118 => ⟨S64, .f32⟩
  | 119 => ⟨S_, .f32⟩
  | 120 => ⟨S64x32, .f32⟩
  | 121 => ⟨S100000x1, .i32⟩
  | 122 => ⟨S64x32, .f32⟩
  | 123 => ⟨S_, .f32⟩
  | 124 => ⟨S_, .f32⟩
  | 125 => ⟨S64, .f32⟩
  | 126 => ⟨S64, .f32⟩
  | 127 => ⟨S64x1, .f32⟩
  | _ => ⟨S100000x512, .f32⟩

abbrev hbmTy0_1 (i : Nat) : BufTy := match i % 128 with
  | 0 => ⟨S64x32, .f32⟩
  | 1 => ⟨S64x32, .f32⟩
  | 2 => ⟨S64x5, .f32⟩
  | 3 => ⟨S1x5, .f32⟩
  | 4 => ⟨S64x5, .f32⟩
  | 5 => ⟨S64x5, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_call3_cst : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_c_11 : Ref sig .tc := ⟨.hbm, 89, rfl⟩
abbrev main_v51 : Ref sig .tc := ⟨.hbm, 90, rfl⟩
abbrev main_v52 : Ref sig .tc := ⟨.hbm, 91, rfl⟩
abbrev main_c_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_14 : Ref sig .tc := ⟨.hbm, 105, rfl⟩
abbrev main_call4_cst : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_v64 : Ref sig .tc := ⟨.hbm, 112, rfl⟩
abbrev main_cst_15 : Ref sig .tc := ⟨.hbm, 113, rfl⟩
abbrev main_v65 : Ref sig .tc := ⟨.hbm, 114, rfl⟩
abbrev main_cst_16 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_17 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_18 : Ref sig .tc := ⟨.hbm, 123, rfl⟩
abbrev main_call5_v0 : Ref sig .tc := ⟨.hbm, 124, rfl⟩
abbrev main_call5_v1 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S_S64 : S_.BroadcastsInDim S64 (![] : Fin 0 → Fin S64.rank)
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S5_S1x5_1 : S5.BroadcastsInDim S1x5 (![1] : Fin 1 → Fin S1x5.rank)
  bcast_S1x5_S64x5_0_1 : S1x5.BroadcastsInDim S64x5 (![0, 1] : Fin 2 → Fin S64x5.rank)
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S64_S100000x1_S100000_n_0_0_1_wf : ScatterDims.WF S64 S100000x1 S100000 [] [0] [0] 1
  scatter_S64x32_S100000x1_S100000x32_1_0_0_1_wf : ScatterDims.WF S64x32 S100000x1 S100000x32 [1] [0] [0] 1
  dot_S64x32_S32x5_S64x5_1_0_0_1_n_n_wf : DotDims.WF S64x32 S32x5 S64x5 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def dot_S64x32_S32x5_S64x5_1_0_0_1_n_n : DotDims S64x32 S32x5 S64x5 where
  lhsContracting := [1]
  rhsContracting := [0]
  lhsNonContracting := [0]
  rhsNonContracting := [1]
  lhsBatch := []
  rhsBatch := []
  wf := dot_S64x32_S32x5_S64x5_1_0_0_1_n_n_wf

class Facts : Prop extends Facts₀ where

variable [Facts]
-- ==== Proof.RefSpecBase.lean ====
/-
  The reference network's node normalisers and index columns.

  A graph convolution with symmetric normalisation uses, for every node v, the number deg_out(v) of edges leaving v
  and the number deg_in(v) of edges entering it, each clipped below at 1, and scales by one over their square roots.
  The definitions below are those quantities, written with the host operations of the reference program: a degree is a
  1 added at the listed node, edge by edge; the normaliser is the reciprocal square root of the clipped degree; a
  per-node vector or an edge list is laid as a column where an operation wants one; and a source id below zero is
  counted from the end, as array indexing does.
-/
import proofs.«430338_j52458730553357_1_alg».proof.ReferenceIdeal

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The value 1 on every edge. -/
def onesE : FVec F S1600000 .f32 := broadcastInDim S1600000 ![] bcast_S_S1600000 (constant S_ .f32 0x3F800000#32)

/-- An edge list's node ids as a column of start indices. -/
def colIdx (idx : IVec S1600000 32) : IVec S1600000x1 32 := broadcastInDim S1600000x1 ![0] bcast_S1600000_S1600000x1_0 idx

/-- The number of edges whose listed end is each node: 1 added at the listed node, edge by edge. -/
def degree (idx : IVec S1600000 32) : FVec F S100000 .f32 :=
  Host.scatterAdd scatter_S100000_S1600000x1_S1600000_n_0_0_1
    (broadcastInDim S100000 ![] bcast_S_S100000 (constant S_ .f32 0x00000000#32)) (colIdx idx) onesE

/-- A degree clipped below at 1. -/
def clipOne (x : FVec F S100000 .f32) : FVec F S100000 .f32 :=
  maximumf (broadcastInDim S100000 ![] bcast_S_S100000 (id (constant S_ .f32 0x3F800000#32))) x

/-- The normaliser of a node: one over the square root of its clipped degree. -/
def norm (idx : IVec S1600000 32) : FVec F S100000 .f32 := Host.rsqrt (clipOne (degree idx))

/-- A per-node vector as a column. -/
def col (n : FVec F S100000 .f32) : FVec F S100000x1 .f32 := broadcastInDim S100000x1 ![0] bcast_S100000_S100000x1_0 n

/-- The source ids as start indices, a negative id counted from the end (s + 100000). -/
def wrap (src : IVec S1600000 32) : IVec S1600000x1 32 :=
  colIdx (select (cmpi .slt src (broadcastInDim S1600000 ![] bcast_S_S1600000 (constantI S_ 32 0#32)))
    (addi src (broadcastInDim S1600000 ![] bcast_S_S1600000 (constantI S_ 32 100000#32))) src)

end Cert.RefSpec

end
-- ==== Proof.RefSpecL1.lean ====
/-
  The reference network's first graph-convolution layer (512 → 128), stage by stage:
  h ↦ leaky( D_in^{-1/2} · A · ((D_out^{-1/2} · h) · W) ), where A adds, for every edge (s, d), the row of s into the
  row of d. Each definition is one stage, written with the host operations of the reference program.
-/
import proofs.«430338_j52458730553357_1_alg».proof.Proof.RefSpecBase

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The projection: every node's feature row scaled by its source normaliser, then multiplied by the layer's weights. -/
def proj1 (h : FVec F S100000x512 .f32) (W : FVec F S512x128 .f32) (nS : FVec F S100000 .f32) : FVec F S100000x128 .f32 :=
  Host.dotGeneral dot_S100000x512_S512x128_S100000x128_1_0_0_1_n_n none
    (mulf h (broadcastInDim S100000x512 ![0, 1] bcast_S100000x1_S100000x512_0_1 (col nS))) W

/-- The messages: for every edge, the projected row of its source node. -/
def gath1 (p : FVec F S100000x128 .f32) (src : IVec S1600000 32) : FVec F S1600000x128 .f32 :=
  Host.gather gather_S100000x128_S1600000x1_S1600000x128_1_0_n_n_0_1_1128 p (wrap src)

/-- The aggregation: every node's row is the sum of the messages of the edges that end at it. -/
def agg1 (g : FVec F S1600000x128 .f32) (dst : IVec S1600000 32) : FVec F S100000x128 .f32 :=
  Host.scatterAdd scatter_S100000x128_S1600000x1_S1600000x128_1_0_0_1
    (broadcastInDim S100000x128 ![] bcast_S_S100000x128 (constant S_ .f32 0x00000000#32)) (colIdx dst) g

/-- The aggregated rows scaled by the destination normaliser. -/
def scaled1 (mm : FVec F S100000x128 .f32) (nD : FVec F S100000 .f32) : FVec F S100000x128 .f32 :=
  mulf mm (broadcastInDim S100000x128 ![0, 1] bcast_S100000x1_S100000x128_0_1 (col nD))

/-- The leaky rectifier with slope 0.01: v where v ≥ 0, else 0.01 · v. -/
def leaky1 (v : FVec F S100000x128 .f32) : FVec F S100000x128 .f32 :=
  select (cmpf .oge v (broadcastInDim S100000x128 ![] bcast_S_S100000x128 (constant S_ .f32 0x00000000#32))) v
    (mulf (broadcastInDim S100000x128 ![] bcast_S_S100000x128 (id (constant S_ .f32 0x3C23D70A#32))) v)

/-- The whole layer. -/
def layer1 (h : FVec F S100000x512 .f32) (W : FVec F S512x128 .f32) (src dst : IVec S1600000 32) : FVec F S100000x128 .f32 :=
  leaky1 (scaled1 (agg1 (gath1 (proj1 h W (norm src)) src) dst) (norm dst))

end Cert.RefSpec

end
-- ==== Proof.RefSpecL2.lean ====
/-
  The reference network's second graph-convolution layer (128 → 64), stage by stage:
  h ↦ leaky( D_in^{-1/2} · A · ((D_out^{-1/2} · h) · W) ), where A adds, for every edge (s, d), the row of s into the
  row of d. Each definition is one stage, written with the host operations of the reference program.
-/
import proofs.«430338_j52458730553357_1_alg».proof.Proof.RefSpecBase

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The projection: every node's feature row scaled by its source normaliser, then multiplied by the layer's weights. -/
def proj2 (h : FVec F S100000x128 .f32) (W : FVec F S128x64 .f32) (nS : FVec F S100000 .f32) : FVec F S100000x64 .f32 :=
  Host.dotGeneral dot_S100000x128_S128x64_S100000x64_1_0_0_1_n_n none
    (mulf h (broadcastInDim S100000x128 ![0, 1] bcast_S100000x1_S100000x128_0_1 (col nS))) W

/-- The messages: for every edge, the projected row of its source node. -/
def gath2 (p : FVec F S100000x64 .f32) (src : IVec S1600000 32) : FVec F S1600000x64 .f32 :=
  Host.gather gather_S100000x64_S1600000x1_S1600000x64_1_0_n_n_0_1_164 p (wrap src)

/-- The aggregation: every node's row is the sum of the messages of the edges that end at it. -/
def agg2 (g : FVec F S1600000x64 .f32) (dst : IVec S1600000 32) : FVec F S100000x64 .f32 :=
  Host.scatterAdd scatter_S100000x64_S1600000x1_S1600000x64_1_0_0_1
    (broadcastInDim S100000x64 ![] bcast_S_S100000x64 (constant S_ .f32 0x00000000#32)) (colIdx dst) g

/-- The aggregated rows scaled by the destination normaliser. -/
def scaled2 (mm : FVec F S100000x64 .f32) (nD : FVec F S100000 .f32) : FVec F S100000x64 .f32 :=
  mulf mm (broadcastInDim S100000x64 ![0, 1] bcast_S100000x1_S100000x64_0_1 (col nD))

/-- The leaky rectifier with slope 0.01: v where v ≥ 0, else 0.01 · v. -/
def leaky2 (v : FVec F S100000x64 .f32) : FVec F S100000x64 .f32 :=
  select (cmpf .oge v (broadcastInDim S100000x64 ![] bcast_S_S100000x64 (constant S_ .f32 0x00000000#32))) v
    (mulf (broadcastInDim S100000x64 ![] bcast_S_S100000x64 (id (constant S_ .f32 0x3C23D70A#32))) v)

/-- The whole layer. -/
def layer2 (h : FVec F S100000x128 .f32) (W : FVec F S128x64 .f32) (src dst : IVec S1600000 32) : FVec F S100000x64 .f32 :=
  leaky2 (scaled2 (agg2 (gath2 (proj2 h W (norm src)) src) dst) (norm dst))

end Cert.RefSpec

end
-- ==== Proof.RefSpecL3.lean ====
/-
  The reference network's third graph-convolution layer (64 → 32), stage by stage:
  h ↦ leaky( D_in^{-1/2} · A · ((D_out^{-1/2} · h) · W) ), where A adds, for every edge (s, d), the row of s into the
  row of d. Each definition is one stage, written with the host operations of the reference program.
-/
import proofs.«430338_j52458730553357_1_alg».proof.Proof.RefSpecBase

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The projection: every node's feature row scaled by its source normaliser, then multiplied by the layer's weights. -/
def proj3 (h : FVec F S100000x64 .f32) (W : FVec F S64x32 .f32) (nS : FVec F S100000 .f32) : FVec F S100000x32 .f32 :=
  Host.dotGeneral dot_S100000x64_S64x32_S100000x32_1_0_0_1_n_n none
    (mulf h (broadcastInDim S100000x64 ![0, 1] bcast_S100000x1_S100000x64_0_1 (col nS))) W

/-- The messages: for every edge, the projected row of its source node. -/
def gath3 (p : FVec F S100000x32 .f32) (src : IVec S1600000 32) : FVec F S1600000x32 .f32 :=
  Host.gather gather_S100000x32_S1600000x1_S1600000x32_1_0_n_n_0_1_132 p (wrap src)

/-- The aggregation: every node's row is the sum of the messages of the edges that end at it. -/
def agg3 (g : FVec F S1600000x32 .f32) (dst : IVec S1600000 32) : FVec F S100000x32 .f32 :=
  Host.scatterAdd scatter_S100000x32_S1600000x1_S1600000x32_1_0_0_1
    (broadcastInDim S100000x32 ![] bcast_S_S100000x32 (constant S_ .f32 0x00000000#32)) (colIdx dst) g

/-- The aggregated rows scaled by the destination normaliser. -/
def scaled3 (mm : FVec F S100000x32 .f32) (nD : FVec F S100000 .f32) : FVec F S100000x32 .f32 :=
  mulf mm (broadcastInDim S100000x32 ![0, 1] bcast_S100000x1_S100000x32_0_1 (col nD))

/-- The leaky rectifier with slope 0.01: v where v ≥ 0, else 0.01 · v. -/
def leaky3 (v : FVec F S100000x32 .f32) : FVec F S100000x32 .f32 :=
  select (cmpf .oge v (broadcastInDim S100000x32 ![] bcast_S_S100000x32 (constant S_ .f32 0x00000000#32))) v
    (mulf (broadcastInDim S100000x32 ![] bcast_S_S100000x32 (id (constant S_ .f32 0x3C23D70A#32))) v)

/-- The whole layer. -/
def layer3 (h : FVec F S100000x64 .f32) (W : FVec F S64x32 .f32) (src dst : IVec S1600000 32) : FVec F S100000x32 .f32 :=
  leaky3 (scaled3 (agg3 (gath3 (proj3 h W (norm src)) src) dst) (norm dst))

end Cert.RefSpec

end
-- ==== Proof.RefSpec.lean ====
/-
  The reference network as one function of its inputs.

  Three graph-convolution layers (512 → 128 → 64 → 32; the layer modules), then the mean of the node rows of each of
  the 64 graphs — a sum over the nodes carrying the graph's id divided by their number, the number clipped below at
  1 —, a last product with a 32 × 5 matrix and a bias. Each definition is one stage, written with the host operations
  of the reference program, so that the reference's run is these functions composed and the kernel's program is
  compared with them stage by stage.
-/
import proofs.«430338_j52458730553357_1_alg».proof.Proof.RefSpecL1
import proofs.«430338_j52458730553357_1_alg».proof.Proof.RefSpecL2
import proofs.«430338_j52458730553357_1_alg».proof.Proof.RefSpecL3

noncomputable section

namespace Cert.RefSpec

open Idealize.ShloMosaic Cert.ReferenceIdeal

variable {F : FTy → Type} [FloatOps F] [Cert.ReferenceIdeal.Facts]
open Cert.ReferenceIdeal.Facts₀ Cert.ReferenceIdeal.Facts

/-- The number of nodes of each graph: 1 added at the node's graph id, node by node. -/
def counts (gid : IVec S100000 32) : FVec F S64 .f32 :=
  Host.scatterAdd scatter_S64_S100000x1_S100000_n_0_0_1
    (broadcastInDim S64 ![] bcast_S_S64 (constant S_ .f32 0x00000000#32))
    (broadcastInDim S100000x1 ![0] bcast_S100000_S100000x1_0 gid)
    (broadcastInDim S100000 ![] bcast_S_S100000 (constant S_ .f32 0x3F800000#32))

/-- The sum of the node rows of each graph: a node's row added at the node's graph id. -/
def pooled (h : FVec F S100000x32 .f32) (gid : IVec S100000 32) : FVec F S64x32 .f32 :=
  Host.scatterAdd scatter_S64x32_S100000x1_S100000x32_1_0_0_1
    (broadcastInDim S64x32 ![] bcast_S_S64x32 (constant S_ .f32 0x00000000#32))
    (broadcastInDim S100000x1 ![0] bcast_S100000_S100000x1_0 gid) h

/-- The head: each graph's summed row divided by its clipped node count, times the 32 × 5 matrix, plus the bias. -/
def head (pool : FVec F S64x32 .f32) (cnt : FVec F S64 .f32) (Wc : FVec F S32x5 .f32) (bc : FVec F S5 .f32) : FVec F S64x5 .f32 :=
  addf
    (Host.dotGeneral dot_S64x32_S32x5_S64x5_1_0_0_1_n_n none
      (Host.divf pool (broadcastInDim S64x32 ![0, 1] bcast_S64x1_S64x32_0_1 (broadcastInDim S64x1 ![0] bcast_S64_S64x1_0
        (maximumf (broadcastInDim S64 ![] bcast_S_S64 (id (constant S_ .f32 0x3F800000#32))) cnt)))) Wc)
    (broadcastInDim S64x5 ![0, 1] bcast_S1x5_S64x5_0_1 (broadcastInDim S1x5 ![1] bcast_S5_S1x5_1 bc))

/-- The whole network. -/
def out (x : FVec F S100000x512 .f32) (src dst : IVec S1600000 32) (gid : IVec S100000 32) (W1 : FVec F S512x128 .f32)
    (W2 : FVec F S128x64 .f32) (W3 : FVec F S64x32 .f32) (Wc : FVec F S32x5 .f32) (bc : FVec F S5 .f32) : FVec F S64x5 .f32 :=
  head (pooled (layer3 (layer2 (layer1 x W1 src dst) W2 src dst) W3 src dst) gid) (counts gid) Wc bc

end Cert.RefSpec

end
-- ==== Proof.RefRun.lean ====
/-
  The reference program's run: every weakly fair execution of its @main terminates, nothing faulting, with the result
  buffer at the network function of the argument arrays (the stages composed) and the argument arrays unchanged.

  @main is a straight line of host operations once its six calls (two clips of a degree, three leaky rectifiers — each
  of which calls a select —, the clip of the node counts) are replaced by the callee's operations over that call's
  buffers. The line is written in two stretches, as the program prints it; the buffers after the whole line are the
  buffers after the second stretch started from those after the first. What the result buffer then holds is the
  operations' functions composed, which is the network function stage by stage.
-/
import proofs.«430338_j52458730553357_1_alg».proof.Proof.Gen.ReferenceIdeal
import proofs.«430338_j52458730553357_1_alg».proof.Proof.RefSpec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's first stretch (statements 1 … 60): its host operations in order, each call's callee operations in the
    call's place over the call's own buffers. -/
abbrev ops0 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    TRef.unary (.of main_cst_2 : TRef sig ⟨S_, .f32⟩) (.of main_call0_v0 : TRef sig ⟨S_, .f32⟩) id,
    TRef.unary (.of main_call0_v0 : TRef sig ⟨S_, .f32⟩) (.of main_call0_v1 : TRef sig ⟨S100000, .f32⟩) (broadcastInDim S100000 ![] bcast_S_S100000),
    TRef.binary (.of main_call0_v1 : TRef sig ⟨S100000, .f32⟩) (.of main_v3 : TRef sig ⟨S100000, .f32⟩) (.of main_v7 : TRef sig ⟨S100000, .f32⟩) maximumf,
    unary main_v7 main_v8 (Host.rsqrt : (⟨S100000, .f32⟩ : BufTy).Contents (Elt F) → (⟨S100000, .f32⟩ : BufTy).Contents (Elt F)),
    nullary main_cst_3 (constant S_ .f32 0x3F800000#32),
    TRef.unary (.of main_cst_3 : TRef sig ⟨S_, .f32⟩) (.of main_call1_v0 : TRef sig ⟨S_, .f32⟩) id,
    TRef.unary (.of main_call1_v0 : TRef sig ⟨S_, .f32⟩) (.of main_call1_v1 : TRef sig ⟨S100000, .f32⟩) (broadcastInDim S100000 ![] bcast_S_S100000),
    TRef.binary (.of main_call1_v1 : TRef sig ⟨S100000, .f32⟩) (.of main_v6 : TRef sig ⟨S100000, .f32⟩) (.of main_v9 : TRef sig ⟨S100000, .f32⟩) maximumf,
    unary main_v9 main_v10 (Host.rsqrt : (⟨S100000, .f32⟩ : BufTy).Contents (Elt F) → (⟨S100000, .f32⟩ : BufTy).Contents (Elt F)),
    unary main_v8 main_v11 (broadcastInDim S100000x1 ![0] bcast_S100000_S100000x1_0 : (⟨S100000, .f32⟩ : BufTy).Contents (Elt F) → (⟨S100000x1, .f32⟩ : BufTy).Contents (Elt F)),
    unary main_v11 main_v12 (broadcastInDim S100000x512 ![0, 1] bcast_S100000x1_S100000x512_0_1 : (⟨S100000x1, .f32⟩ : BufTy).Contents (Elt F) → (⟨S100000x512, .f32⟩ : BufTy).Contents (Elt F)),
    binary main_arg0 main_v12 main_v13 (mulf : (⟨S100000x512, .f32⟩ : BufTy).Contents (Elt F) → (⟨S100000x512, .f32⟩ : BufTy).Contents (Elt F) → (⟨S100000x512, .f32⟩ : BufTy).Contents (Elt F)),
    binary main_v13 main_arg4 main_v14 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_arg1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v17 (broadcastInDim S1600000 ![] bcast_S_S1600000 : (⟨S_, .i32⟩ : BufTy).Contents (Elt F) → (⟨S1600000, .i32⟩ : BufTy).Contents (Elt F)),
    binary main_arg1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_arg1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_5 (constant S_ .f32 0x00000000#32),
    unary main_cst_5 main_v22 (broadcastInDim S100000x128 ![] bcast_S_S100000x128 : (⟨S_, .f32⟩ : BufTy).Contents (Elt F) → (⟨S100000x128, .f32⟩ : BufTy).Contents (Elt F)),
    unary main_arg2 main_v23 (broadcastInDim S1600000x1 ![0] bcast_S1600000_S1600000x1_0 : (⟨S1600000, .i32⟩ : BufTy).Contents (Elt F) → (⟨S1600000x1, .i32⟩ : BufTy).Contents (Elt F)),
    ternary main_v22 main_v23 main_v21 main_v24 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v10 main_v25 (broadcastInDim S100000x1 ![0] bcast_S100000_S100000x1_0 : (⟨S100000, .f32⟩ : BufTy).Contents (Elt F) → (⟨S100000x1, .f32⟩ : BufTy).Contents (Elt F)),
    unary main_v25 main_v26 (broadcastInDim S100000x128 ![0, 1] bcast_S100000x1_S100000x128_0_1 : (⟨S100000x1, .f32⟩ : BufTy).Contents (Elt F) → (⟨S100000x128, .f32⟩ : BufTy).Contents (Elt F)),
    binary main_v24 main_v26 main_v27 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3C23D70A#32),
    TRef.nullary (.of main_call2_cst : TRef sig ⟨S_, .f32⟩) (constant S_ .f32 0x00000000#32),
    TRef.unary (.of main_call2_cst : TRef sig ⟨S_, .f32⟩) (.of main_call2_v0 : TRef sig ⟨S100000x128, .f32⟩) (broadcastInDim S100000x128 ![] bcast_S_S100000x128),
    TRef.binary (.of main_v27 : TRef sig ⟨S100000x128, .f32⟩) (.of main_call2_v0 : TRef sig ⟨S100000x128, .f32⟩) (.of main_call2_v1 : TRef sig ⟨S100000x128, .i1⟩) (cmpf .oge),
    TRef.unary (.of main_cst_6 : TRef sig ⟨S_, .f32⟩) (.of main_call2_v2 : TRef sig ⟨S_, .f32⟩) id,
    TRef.unary (.of main_call2_v2 : TRef sig ⟨S_, .f32⟩) (.of main_call2_v3 : TRef sig ⟨S100000x128, .f32⟩) (broadcastInDim S100000x128 ![] bcast_S_S100000x128),
    TRef.binary (.of main_call2_v3 : TRef sig ⟨S100000x128, .f32⟩) (.of main_v27 : TRef sig ⟨S100000x128, .f32⟩) (.of main_call2_v4 : TRef sig ⟨S100000x128, .f32⟩) mulf,
    TRef.ternary (.of main_call2_v1 : TRef sig ⟨S100000x128, .i1⟩) (.of main_v27 : TRef sig ⟨S100000x128, .f32⟩) (.of main_call2_v4 : TRef sig ⟨S100000x128, .f32⟩) (.of main_v28 : TRef sig ⟨S100000x128, .f32⟩) select,
    unary main_v8 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x128 ![0, 1] bcast_S100000x1_S100000x128_0_1 : (⟨S100000x1, .f32⟩ : BufTy).Contents (Elt F) → (⟨S100000x128, .f32⟩ : BufTy).Contents (Elt F)),
    binary main_v28 main_v30 main_v31 (mulf : (⟨S100000x128, .f32⟩ : BufTy).Contents (Elt F) → (⟨S100000x128, .f32⟩ : BufTy).Contents (Elt F) → (⟨S100000x128, .f32⟩ : BufTy).Contents (Elt F)),
    binary main_v31 main_arg5 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_arg1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_arg1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_arg1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_v32 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_9 (constant S_ .f32 0x00000000#32),
    unary main_cst_9 main_v40 (broadcastInDim S100000x64 ![] bcast_S_S100000x64 : (⟨S_, .f32⟩ : BufTy).Contents (Elt F) → (⟨S100000x64, .f32⟩ : BufTy).Contents (Elt F)),
    unary main_arg2 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v10 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v42 main_v44 main_v45 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3C23D70A#32),
    TRef.nullary (.of main_call3_cst : TRef sig ⟨S_, .f32⟩) (constant S_ .f32 0x00000000#32),
    TRef.unary (.of main_call3_cst : TRef sig ⟨S_, .f32⟩) (.of main_call3_v0 : TRef sig ⟨S100000x64, .f32⟩) (broadcastInDim S100000x64 ![] bcast_S_S100000x64),
    TRef.binary (.of main_v45 : TRef sig ⟨S100000x64, .f32⟩) (.of main_call3_v0 : TRef sig ⟨S100000x64, .f32⟩) (.of main_call3_v1 : TRef sig ⟨S100000x64, .i1⟩) (cmpf .oge),
    TRef.unary (.of main_cst_10 : TRef sig ⟨S_, .f32⟩) (.of main_call3_v2 : TRef sig ⟨S_, .f32⟩) id,
    TRef.unary (.of main_call3_v2 : TRef sig ⟨S_, .f32⟩) (.of main_call3_v3 : TRef sig ⟨S100000x64, .f32⟩) (broadcastInDim S100000x64 ![] bcast_S_S100000x64),
    TRef.binary (.of main_call3_v3 : TRef sig ⟨S100000x64, .f32⟩) (.of main_v45 : TRef sig ⟨S100000x64, .f32⟩) (.of main_call3_v4 : TRef sig ⟨S100000x64, .f32⟩) mulf,
    TRef.ternary (.of main_call3_v1 : TRef sig ⟨S100000x64, .i1⟩) (.of main_v45 : TRef sig ⟨S100000x64, .f32⟩) (.of main_call3_v4 : TRef sig ⟨S100000x64, .f32⟩) (.of main_v46 : TRef sig ⟨S100000x64, .f32⟩) select ]

/-- @main's second stretch (statements 61 … 102), likewise. -/
abbrev ops1 : List (HloOp τ sig (Elt F)) :=
  [ unary main_v8 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x64 ![0, 1] bcast_S100000x1_S100000x64_0_1 : (⟨S100000x1, .f32⟩ : BufTy).Contents (Elt F) → (⟨S100000x64, .f32⟩ : BufTy).Contents (Elt F)),
    binary main_v46 main_v48 main_v49 (mulf : (⟨S100000x64, .f32⟩ : BufTy).Contents (Elt F) → (⟨S100000x64, .f32⟩ : BufTy).Contents (Elt F) → (⟨S100000x64, .f32⟩ : BufTy).Contents (Elt F)),
    binary main_v49 main_arg6 main_v50 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    nullary main_c_11 (constantI S_ 32 0#32),
    unary main_c_11 main_v51 (broadcastInDim S1600000 ![] bcast_S_S1600000 : (⟨S_, .i32⟩ : BufTy).Contents (Elt F) → (⟨S1600000, .i32⟩ : BufTy).Contents (Elt F)),
    binary main_arg1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v53 (broadcastInDim S1600000 ![] bcast_S_S1600000 : (⟨S_, .i32⟩ : BufTy).Contents (Elt F) → (⟨S1600000, .i32⟩ : BufTy).Contents (Elt F)),
    binary main_arg1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_arg1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_13 (constant S_ .f32 0x00000000#32),
    unary main_cst_13 main_v58 (broadcastInDim S100000x32 ![] bcast_S_S100000x32 : (⟨S_, .f32⟩ : BufTy).Contents (Elt F) → (⟨S100000x32, .f32⟩ : BufTy).Contents (Elt F)),
    unary main_arg2 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_v10 main_v61 (broadcastInDim S100000x1 ![0] bcast_S100000_S100000x1_0 : (⟨S100000, .f32⟩ : BufTy).Contents (Elt F) → (⟨S100000x1, .f32⟩ : BufTy).Contents (Elt F)),
    unary main_v61 main_v62 (broadcastInDim S100000x32 ![0, 1] bcast_S100000x1_S100000x32_0_1 : (⟨S100000x1, .f32⟩ : BufTy).Contents (Elt F) → (⟨S100000x32, .f32⟩ : BufTy).Contents (Elt F)),
    binary main_v60 main_v62 main_v63 (mulf : (⟨S100000x32, .f32⟩ : BufTy).Contents (Elt F) → (⟨S100000x32, .f32⟩ : BufTy).Contents (Elt F) → (⟨S100000x32, .f32⟩ : BufTy).Contents (Elt F)),
    nullary main_cst_14 (constant S_ .f32 0x3C23D70A#32),
    TRef.nullary (.of main_call4_cst : TRef sig ⟨S_, .f32⟩) (constant S_ .f32 0x00000000#32),
    TRef.unary (.of main_call4_cst : TRef sig ⟨S_, .f32⟩) (.of main_call4_v0 : TRef sig ⟨S100000x32, .f32⟩) (broadcastInDim S100000x32 ![] bcast_S_S100000x32),
    TRef.binary (.of main_v63 : TRef sig ⟨S100000x32, .f32⟩) (.of main_call4_v0 : TRef sig ⟨S100000x32, .f32⟩) (.of main_call4_v1 : TRef sig ⟨S100000x32, .i1⟩) (cmpf .oge),
    TRef.unary (.of main_cst_14 : TRef sig ⟨S_, .f32⟩) (.of main_call4_v2 : TRef sig ⟨S_, .f32⟩) id,
    TRef.unary (.of main_call4_v2 : TRef sig ⟨S_, .f32⟩) (.of main_call4_v3 : TRef sig ⟨S100000x32, .f32⟩) (broadcastInDim S100000x32 ![] bcast_S_S100000x32),
    TRef.binary (.of main_call4_v3 : TRef sig ⟨S100000x32, .f32⟩) (.of main_v63 : TRef sig ⟨S100000x32, .f32⟩) (.of main_call4_v4 : TRef sig ⟨S100000x32, .f32⟩) mulf,
    TRef.ternary (.of main_call4_v1 : TRef sig ⟨S100000x32, .i1⟩) (.of main_v63 : TRef sig ⟨S100000x32, .f32⟩) (.of main_call4_v4 : TRef sig ⟨S100000x32, .f32⟩) (.of main_v64 : TRef sig ⟨S100000x32, .f32⟩) select,
    nullary main_cst_15 (constant S_ .f32 0x3F800000#32),
    unary main_cst_15 main_v65 (broadcastInDim S100000 ![] bcast_S_S100000 : (⟨S_, .f32⟩ : BufTy).Contents (Elt F) → (⟨S100000, .f32⟩ : BufTy).Contents (Elt F)),
    nullary main_cst_16 (constant S_ .f32 0x00000000#32),
    unary main_cst_16 main_v66 (broadcastInDim S64 ![] bcast_S_S64 : (⟨S_, .f32⟩ : BufTy).Contents (Elt F) → (⟨S64, .f32⟩ : BufTy).Contents (Elt F)),
    unary main_arg3 main_v67 (broadcastInDim S100000x1 ![0] bcast_S100000_S100000x1_0 : (⟨S100000, .i32⟩ : BufTy).Contents (Elt F) → (⟨S100000x1, .i32⟩ : BufTy).Contents (Elt F)),
    ternary main_v66 main_v67 main_v65 main_v68 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_17 (constant S_ .f32 0x00000000#32),
    unary main_cst_17 main_v69 (broadcastInDim S64x32 ![] bcast_S_S64x32 : (⟨S_, .f32⟩ : BufTy).Contents (Elt F) → (⟨S64x32, .f32⟩ : BufTy).Contents (Elt F)),
    unary main_arg3 main_v70 (broadcastInDim S100000x1 ![0] bcast_S100000_S100000x1_0 : (⟨S100000, .i32⟩ : BufTy).Contents (Elt F) → (⟨S100000x1, .i32⟩ : BufTy).Contents (Elt F)),
    ternary main_v69 main_v70 main_v64 main_v71 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    nullary main_cst_18 (constant S_ .f32 0x3F800000#32),
    TRef.unary (.of main_cst_18 : TRef sig ⟨S_, .f32⟩) (.of main_call5_v0 : TRef sig ⟨S_, .f32⟩) id,
    TRef.unary (.of main_call5_v0 : TRef sig ⟨S_, .f32⟩) (.of main_call5_v1 : TRef sig ⟨S64, .f32⟩) (broadcastInDim S64 ![] bcast_S_S64),
    TRef.binary (.of main_call5_v1 : TRef sig ⟨S64, .f32⟩) (.of main_v68 : TRef sig ⟨S64, .f32⟩) (.of main_v72 : TRef sig ⟨S64, .f32⟩) maximumf,
    unary main_v72 main_v73 (broadcastInDim S64x1 ![0] bcast_S64_S64x1_0 : (⟨S64, .f32⟩ : BufTy).Contents (Elt F) → (⟨S64x1, .f32⟩ : BufTy).Contents (Elt F)),
    unary main_v73 main_v74 (broadcastInDim S64x32 ![0, 1] bcast_S64x1_S64x32_0_1 : (⟨S64x1, .f32⟩ : BufTy).Contents (Elt F) → (⟨S64x32, .f32⟩ : BufTy).Contents (Elt F)),
    binary main_v71 main_v74 main_v75 (Host.divf : (⟨S64x32, .f32⟩ : BufTy).Contents (Elt F) → (⟨S64x32, .f32⟩ : BufTy).Contents (Elt F) → (⟨S64x32, .f32⟩ : BufTy).Contents (Elt F)),
    binary main_v75 main_arg7 main_v76 ((fun l r => Host.dotGeneral dot_S64x32_S32x5_S64x5_1_0_0_1_n_n none l r) : (⟨S64x32, .f32⟩ : BufTy).Contents (Elt F) → (⟨S32x5, .f32⟩ : BufTy).Contents (Elt F) → (⟨S64x5, .f32⟩ : BufTy).Contents (Elt F)),
    unary main_arg8 main_v77 (broadcastInDim S1x5 ![1] bcast_S5_S1x5_1 : (⟨S5, .f32⟩ : BufTy).Contents (Elt F) → (⟨S1x5, .f32⟩ : BufTy).Contents (Elt F)),
    unary main_v77 main_v78 (broadcastInDim S64x5 ![0, 1] bcast_S1x5_S64x5_0_1 : (⟨S1x5, .f32⟩ : BufTy).Contents (Elt F) → (⟨S64x5, .f32⟩ : BufTy).Contents (Elt F)),
    binary main_v76 main_v78 main_v79 (addf : (⟨S64x5, .f32⟩ : BufTy).Contents (Elt F) → (⟨S64x5, .f32⟩ : BufTy).Contents (Elt F) → (⟨S64x5, .f32⟩ : BufTy).Contents (Elt F)) ]

/-- The buffers after two lines run one after the other: those after the second, from those after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 4096 in
/-- The first stretch is its line: the callees' definitions unfolded at their calls, sequencing reassociated. -/
theorem part0_eq (c : Dev nD) : main_part0 (F := F) c = seq ops0 := by
  simp only [main_part0, fn_clip.body, fn_leaky_relu.body, fn_where.body, fn_leaky_relu_0.body, fn_where_1.body,
    seq, bind_assoc, pure_bind]

set_option maxRecDepth 4096 in
/-- The second stretch is its line. -/
theorem part1_eq (c : Dev nD) : main_part1 (F := F) c = seq ops1 := by
  simp only [main_part1, fn_leaky_relu_2.body, fn_where_3.body, fn_clip_4.body, seq, bind_assoc, pure_bind]

/-- @main is the two lines run one after the other, which is their concatenation run as one. -/
theorem main_eq (c : Dev nD) : main (F := F) c = seq (ops0 ++ ops1) := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    unary_bufs_sub .., binary_bufs_sub .., unary_bufs_sub .., nullary_bufs_sub .., unary_bufs_sub .., unary_bufs_sub ..,
    binary_bufs_sub .., unary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub ..⟩

theorem ops1_sub : (ops1 : List (HloOp τ sig (Elt F))).Forall fun op => op.bufs ⊆ tcRefs τ sig :=
  ⟨unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    nullary_bufs_sub .., unary_bufs_sub .., unary_bufs_sub .., ternary_bufs_sub .., nullary_bufs_sub .., unary_bufs_sub ..,
    unary_bufs_sub .., ternary_bufs_sub .., nullary_bufs_sub .., unary_bufs_sub .., unary_bufs_sub .., binary_bufs_sub ..,
    unary_bufs_sub .., unary_bufs_sub .., binary_bufs_sub .., binary_bufs_sub .., unary_bufs_sub .., unary_bufs_sub ..,
    binary_bufs_sub ..⟩

theorem ops_sub : (ops0 ++ ops1 : List (HloOp τ sig (Elt F))).Forall fun op => op.bufs ⊆ tcRefs τ sig :=
  List.forall_append.mpr ⟨ops0_sub, ops1_sub⟩

/-- Every operation of the two lines determines its result. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops_fresh : ∀ op ∈ (ops0 ++ ops1 : List (HloOp τ sig (Elt F))), op.fresh = ∅ := fun op h =>
  (List.mem_append.mp h).elim (ops0_fresh op) (ops1_fresh op)

/-! ## What the first stretch leaves

The two normalisers and the second layer's output are what the second stretch reads of the first (besides the
arguments): each is the stage functions composed. -/

set_option maxHeartbeats 4000000 in
/-- After the first stretch %8 holds the source normaliser. -/
theorem first_v8 (V : Valuation τ sig (Elt F)) :
    after ops0 V (Proc.devRef .tc main_v8) = Cert.RefSpec.norm (F := F) (V (Proc.devRef .tc main_arg1)) := by
  after_results_simp
  rfl

set_option maxHeartbeats 4000000 in
/-- After the first stretch %10 holds the destination normaliser. -/
theorem first_v10 (V : Valuation τ sig (Elt F)) :
    after ops0 V (Proc.devRef .tc main_v10) = Cert.RefSpec.norm (F := F) (V (Proc.devRef .tc main_arg2)) := by
  after_results_simp
  rfl

set_option maxHeartbeats 4000000 in
/-- After the first stretch %46 holds the second layer's output. -/
theorem first_v46 (V : Valuation τ sig (Elt F)) :
    after ops0 V (Proc.devRef .tc main_v46)
      = Cert.RefSpec.layer2 (F := F) (Cert.RefSpec.layer1 (V (Proc.devRef .tc main_arg0)) (V (Proc.devRef .tc main_arg4)) (V (Proc.devRef .tc main_arg1)) (V (Proc.devRef .tc main_arg2))) (V (Proc.devRef .tc main_arg5)) (V (Proc.devRef .tc main_arg1)) (V (Proc.devRef .tc main_arg2)) := by
  after_results_simp
  rfl

theorem first_arg1 (V : Valuation τ sig (Elt F)) :
    after ops0 V (Proc.devRef .tc main_arg1) = V (Proc.devRef .tc main_arg1) := by
  after_results_simp

theorem first_arg2 (V : Valuation τ sig (Elt F)) :
    after ops0 V (Proc.devRef .tc main_arg2) = V (Proc.devRef .tc main_arg2) := by
  after_results_simp

theorem first_arg3 (V : Valuation τ sig (Elt F)) :
    after ops0 V (Proc.devRef .tc main_arg3) = V (Proc.devRef .tc main_arg3) := by
  after_results_simp

theorem first_arg6 (V : Valuation τ sig (Elt F)) :
    after ops0 V (Proc.devRef .tc main_arg6) = V (Proc.devRef .tc main_arg6) := by
  after_results_simp

theorem first_arg7 (V : Valuation τ sig (Elt F)) :
    after ops0 V (Proc.devRef .tc main_arg7) = V (Proc.devRef .tc main_arg7) := by
  after_results_simp

theorem first_arg8 (V : Valuation τ sig (Elt F)) :
    after ops0 V (Proc.devRef .tc main_arg8) = V (Proc.devRef .tc main_arg8) := by
  after_results_simp

/-! ## What the second stretch computes from that -/

set_option maxHeartbeats 4000000 in
/-- After the second stretch the result buffer holds the third layer, the pooling and the head, of what %46, %8
    and %10 and the arguments held before it. -/
theorem second_v79 (V : Valuation τ sig (Elt F)) :
    after ops1 V (Proc.devRef .tc main_v79)
      = Cert.RefSpec.head (F := F)
          (Cert.RefSpec.pooled
            (Cert.RefSpec.leaky3 (Cert.RefSpec.scaled3 (Cert.RefSpec.agg3 (Cert.RefSpec.gath3
              (Cert.RefSpec.proj3 (V (Proc.devRef .tc main_v46)) (V (Proc.devRef .tc main_arg6)) (V (Proc.devRef .tc main_v8))) (V (Proc.devRef .tc main_arg1))) (V (Proc.devRef .tc main_arg2))) (V (Proc.devRef .tc main_v10))))
            (V (Proc.devRef .tc main_arg3)))
          (Cert.RefSpec.counts (V (Proc.devRef .tc main_arg3))) (V (Proc.devRef .tc main_arg7)) (V (Proc.devRef .tc main_arg8)) := by
  after_results_simp
  rfl

/-! ## The whole line -/

/-- After the whole line the result buffer holds the network function of the arguments: the second stretch's
    reading of what the first left, and the third layer with the normalisers in their places is the layer. -/
theorem out_eq (V : Valuation τ sig (Elt F)) :
    after (ops0 ++ ops1) V (Proc.devRef .tc main_v79) = Cert.RefSpec.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_append, second_v79, first_v46, first_v8, first_v10, first_arg1, first_arg2, first_arg3, first_arg6,
    first_arg7, first_arg8]
  rfl

/-- No operation of the line writes argument 0's buffer. -/
theorem arg0_eq (V : Valuation τ sig (Elt F)) :
    after (ops0 ++ ops1) V (Proc.devRef .tc main_arg0) = V (Proc.devRef .tc main_arg0) := by
  rw [after_append]; after_results_simp

/-- No operation of the line writes argument 1's buffer. -/
theorem arg1_eq (V : Valuation τ sig (Elt F)) :
    after (ops0 ++ ops1) V (Proc.devRef .tc main_arg1) = V (Proc.devRef .tc main_arg1) := by
  rw [after_append]; after_results_simp

/-- No operation of the line writes argument 2's buffer. -/
theorem arg2_eq (V : Valuation τ sig (Elt F)) :
    after (ops0 ++ ops1) V (Proc.devRef .tc main_arg2) = V (Proc.devRef .tc main_arg2) := by
  rw [after_append]; after_results_simp

/-- No operation of the line writes argument 3's buffer. -/
theorem arg3_eq (V : Valuation τ sig (Elt F)) :
    after (ops0 ++ ops1) V (Proc.devRef .tc main_arg3) = V (Proc.devRef .tc main_arg3) := by
  rw [after_append]; after_results_simp

/-- No operation of the line writes argument 4's buffer. -/
theorem arg4_eq (V : Valuation τ sig (Elt F)) :
    after (ops0 ++ ops1) V (Proc.devRef .tc main_arg4) = V (Proc.devRef .tc main_arg4) := by
  rw [after_append]; after_results_simp

/-- No operation of the line writes argument 5's buffer. -/
theorem arg5_eq (V : Valuation τ sig (Elt F)) :
    after (ops0 ++ ops1) V (Proc.devRef .tc main_arg5) = V (Proc.devRef .tc main_arg5) := by
  rw [after_append]; after_results_simp

/-- No operation of the line writes argument 6's buffer. -/
theorem arg6_eq (V : Valuation τ sig (Elt F)) :
    after (ops0 ++ ops1) V (Proc.devRef .tc main_arg6) = V (Proc.devRef .tc main_arg6) := by
  rw [after_append]; after_results_simp

/-- No operation of the line writes argument 7's buffer. -/
theorem arg7_eq (V : Valuation τ sig (Elt F)) :
    after (ops0 ++ ops1) V (Proc.devRef .tc main_arg7) = V (Proc.devRef .tc main_arg7) := by
  rw [after_append]; after_results_simp

/-- No operation of the line writes argument 8's buffer. -/
theorem arg8_eq (V : Valuation τ sig (Elt F)) :
    after (ops0 ++ ops1) V (Proc.devRef .tc main_arg8) = V (Proc.devRef .tc main_arg8) := by
  rw [after_append]; after_results_simp

/-- On every device, for any float values, from any memory with zero counters: every weakly fair execution of @main
    terminates with the result at the network function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = Cert.RefSpec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v79).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops0 ++ ops1) main_eq (fun _ => ops_sub) m ρ
      (fun _ => ops_fresh))

end Cert.ReferenceIdeal.HandRun

end
-- ==== Proof.KSpec.lean ====
/-
  The stages of the kernel's program that the reference does not have in the same form.

  The kernel's program lays a per-node normaliser as a column by a reshape (the reference broadcasts it); it tests
  the start indices of the edges' source rows for range (the reference gathers without a test; the take itself is in
  the layer modules); and it pools the node rows of each graph by multiplying with a 0/1 table that
  has a 1 at (node, graph id of the node), counting the nodes of each graph as the column sums of that table (the
  reference adds each row, and a 1, at the node's graph id). Each definition is one of these stages, written with
  the host operations of the kernel's program over the reference's index column and gather.
-/
import proofs.«430338_j52458730553357_1_alg».proof.KernelIdeal
import proofs.«430338_j52458730553357_1_alg».proof.Proof.RefSpec

noncomputable section

namespace Cert.KSpec

open Idealize.ShloMosaic Cert.KernelIdeal

variable {F : FTy → Type} [FloatOps F] [Cert.KernelIdeal.Facts] [Cert.ReferenceIdeal.Facts]
open Cert.KernelIdeal.Facts₀ Cert.KernelIdeal.Facts

/-- A per-node vector reshaped into a column. -/
def colOf (n : FVec F S100000 .f32) : FVec F S100000x1 .f32 := shapeCast S100000x1 n shapeCasts_S100000_S100000x1

/-- The range test on a column of start indices: 1 where 0 ≤ index ≤ 99999 (signed), per edge. -/
def inRange (I : IVec S1600000x1 32) : IVec S1600000 1 :=
  Host.reduce IntOp.andi
    (andi (cmpi .sge I (broadcastInDim S1600000x1 ![] bcast_S_S1600000x1 (constantI S_ 32 0#32)))
      (cmpi .sle I (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The 0/1 table of the graph ids: 1 at (node, g) where the node's graph id is g. -/
def onehot (gid : IVec S100000 32) : FVec F S100000x64 .f32 :=
  uitofp .f32 (cmpi .eq
    (broadcastInDim S100000x64 ![0, 1] bcast_S100000x1_S100000x64_0_1 (broadcastInDim S100000x1 ![0] bcast_S100000_S100000x1_0 gid))
    (broadcastInDim S100000x64 ![0, 1] bcast_S1x64_S100000x64_0_1 (iotaInDim S1x64 32 1)))

/-- The number of nodes of each graph as the column sums of the 0/1 table. -/
def cnt (gid : IVec S100000 32) : FVec F S64 .f32 :=
  Host.reduceAdd (onehot gid) (constant S_ .f32 0x00000000#32) reducesTo_S100000x64_S64_d0 h_S_

end Cert.KSpec

end
-- ==== Proof.KHostNorm.lean ====
/-
  The kernel program's first host stretch, read operation by operation: the edge degrees by scatter-add of ones, their
  clip below at 1, the reciprocal square root, and the reshape of each normaliser into a column. At the first region's
  entry the two columns are the reshaped normalisers of the source and of the destination ids.

  Each stretch is read back by itself, with the contents it is entered with kept as a variable, so that every equation
  closed by computation is between two short terms: the degree is the scattered sum, the clip is a maximum with the
  broadcast constant 1 (which the stretch before wrote), the column is the reshape of the reciprocal root. The
  statements are these steps rewritten into one another.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import Idealize.ShloMosaic.PureOps.Ideal
import Idealize.ShloMosaic.Lib.StableHlo.Run

set_option maxRecDepth 16384
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The source side: degree, clip, reciprocal root, column -/

/-- After the first stretch the first scattered sum is the degree of the source ids. -/
private theorem W1_v3 (c : Dev nD) : W1 m ρ c (Proc.devRef .tc main_v3) = Cert.RefSpec.degree (F := Ideal) (m ((c : Thread nD τ).loc main_arg1)) := by
  dsimp only [W1, hostOps0]
  after_results
  rfl

/-- The first stretch ends by writing the constant 1 that the first clip reads. -/
private theorem W1_cst_2 (c : Dev nD) : W1 m ρ c (Proc.devRef .tc main_cst_2) = constant (F := Ideal) S_ .f32 0x3F800000#32 := by
  dsimp only [W1, hostOps0]
  after_results

/-- The second stretch clips the source degree below at 1; what the stretch is entered with stays a variable. -/
private theorem W2_v7 (c : Dev nD) : W2 m ρ c (Proc.devRef .tc main_v7) = Cert.RefSpec.clipOne (F := Ideal) (W1 m ρ c (Proc.devRef .tc main_v3)) := by
  have hc := W1_cst_2 m ρ c
  dsimp only [W2, hostOps0_1]
  generalize W1 m ρ c = V at hc ⊢
  after_results
  rw [hc]
  rfl

/-- The third stretch takes the reciprocal root and reshapes it into a column; the next two stretches leave that column alone. -/
private theorem W5_v9_of_W2 (c : Dev nD) : W5 m ρ c (Proc.devRef .tc main_v9) = Cert.KSpec.colOf (F := Ideal) (Host.rsqrt (W2 m ρ c (Proc.devRef .tc main_v7))) := by
  dsimp only [W5, W4, W3, hostOps0_4, hostOps0_3, hostOps0_2]
  generalize W2 m ρ c = V
  after_results
  rfl

/-- At the first region's entry the source normaliser's column is the reshaped normaliser of the source ids. -/
theorem W5_v9 (c : Dev nD) : (W5 m ρ c (Proc.devRef .tc main_v9)) = Cert.KSpec.colOf (Cert.RefSpec.norm (F := Ideal) (m ((c : Thread nD τ).loc main_arg1))) := by
  rw [W5_v9_of_W2, W2_v7, W1_v3]
  rfl

/-! ## The destination side: the same four steps, two stretches later -/

/-- After the first stretch the second scattered sum is the degree of the destination ids. -/
private theorem W1_v6 (c : Dev nD) : W1 m ρ c (Proc.devRef .tc main_v6) = Cert.RefSpec.degree (F := Ideal) (m ((c : Thread nD τ).loc main_arg2)) := by
  dsimp only [W1, hostOps0]
  after_results
  rfl

/-- The second and third stretches do not write the destination degree. -/
private theorem W3_v6 (c : Dev nD) : W3 m ρ c (Proc.devRef .tc main_v6) = W1 m ρ c (Proc.devRef .tc main_v6) := by
  dsimp only [W3, W2, hostOps0_2, hostOps0_1]
  generalize W1 m ρ c = V
  after_results

/-- The third stretch ends by writing the constant 1 that the second clip reads. -/
private theorem W3_cst_3 (c : Dev nD) : W3 m ρ c (Proc.devRef .tc main_cst_3) = constant (F := Ideal) S_ .f32 0x3F800000#32 := by
  dsimp only [W3, hostOps0_2]
  generalize W2 m ρ c = V
  after_results

/-- The fourth stretch clips the destination degree below at 1. -/
private theorem W4_v10 (c : Dev nD) : W4 m ρ c (Proc.devRef .tc main_v10) = Cert.RefSpec.clipOne (F := Ideal) (W3 m ρ c (Proc.devRef .tc main_v6)) := by
  have hc := W3_cst_3 m ρ c
  dsimp only [W4, hostOps0_3]
  generalize W3 m ρ c = V at hc ⊢
  after_results
  rw [hc]
  rfl

/-- The fifth stretch takes the reciprocal root and reshapes it into a column. -/
private theorem W5_v12_of_W4 (c : Dev nD) : W5 m ρ c (Proc.devRef .tc main_v12) = Cert.KSpec.colOf (F := Ideal) (Host.rsqrt (W4 m ρ c (Proc.devRef .tc main_v10))) := by
  dsimp only [W5, hostOps0_4]
  generalize W4 m ρ c = V
  after_results
  rfl

/-- At the first region's entry the destination normaliser's column is the reshaped normaliser of the destination ids. -/
theorem W5_v12 (c : Dev nD) : (W5 m ρ c (Proc.devRef .tc main_v12)) = Cert.KSpec.colOf (Cert.RefSpec.norm (F := Ideal) (m ((c : Thread nD τ).loc main_arg2))) := by
  rw [W5_v12_of_W4, W4_v10, W3_v6, W1_v6]
  rfl

end Cert.KernelIdeal.Val

end
-- ==== Proof.TakeL1.lean ====
/-
  The first layer's edge rows as the kernel's program takes them, and that this is the reference's gather when every
  source id is a node id.

  The kernel's program reads the projected row of an edge's source node through a range test: where the start index
  (the source id, a negative one counted from the end) lies in [0, 99999] it keeps the gathered row, elsewhere it puts
  a fill value. When every source id s satisfies 0 ≤ s < 100000 the start index is s itself, the test holds on every
  edge, and the fill is never used: the result is the plain gather of the reference.
-/
import proofs.«430338_j52458730553357_1_alg».proof.Proof.KSpec
import Idealize.ShloMosaic.Lib.StableHlo.Predicate
import Idealize.ShloMosaic.Lib.ReduceAll

noncomputable section

namespace Cert.KSpec

open Idealize.ShloMosaic Cert.KernelIdeal

variable {F : FTy → Type} [FloatOps F] [Cert.KernelIdeal.Facts] [Cert.ReferenceIdeal.Facts]
open Cert.KernelIdeal.Facts₀ Cert.KernelIdeal.Facts

/-- A broadcast reads, at each result index, one fixed index of its operand, whatever the operand's entries are. -/
private theorem bcast_reads {s t : Shape} {dims : Fin s.rank → Fin t.rank} (h : s.BroadcastsInDim t dims) (j : t.Idx) :
    ∃ k : s.Idx, ∀ {α : Type} (x : s.Idx → α), broadcastInDim t dims h x j = x k :=
  ⟨_, fun _ => rfl⟩

/-- A select keeps its first operand's entry wherever the mask is 1. -/
private theorem select_of_one {s : Shape} {α : Type} (c : IVec s 1) (a b : s.Idx → α) (i : s.Idx) (h : c i = 1#1) :
    select c a b i = a i := by
  show Scalar.select (c i) (a i) (b i) = a i
  rw [h]; rfl

/-- A word that is not negative fails the signed test "below zero". -/
private theorem slt_zero_of_nonneg {a : BitVec 32} (h : 0 ≤ a.toInt) : IntOp.cmpi .slt a 0#32 = 0#1 := by
  have hz : (0#32 : BitVec 32).toInt = 0 := by decide
  have hb : a.slt 0#32 = false := by
    simp only [BitVec.slt, hz, decide_eq_false_iff_not]; omega
  show BitVec.ofBool (a.slt 0#32) = 0#1
  rw [hb]; rfl

/-- A word that is not negative passes the signed test "at least zero". -/
private theorem sge_zero_of_nonneg {a : BitVec 32} (h : 0 ≤ a.toInt) : IntOp.cmpi .sge a 0#32 = 1#1 := by
  have hz : (0#32 : BitVec 32).toInt = 0 := by decide
  have hb : (0#32 : BitVec 32).sle a = true := by
    simp only [BitVec.sle, hz, decide_eq_true_eq]; exact h
  show BitVec.ofBool ((0#32 : BitVec 32).sle a) = 1#1
  rw [hb]; rfl

/-- A word below 100000 passes the signed test "at most 99999". -/
private theorem sle_last_of_lt {a : BitVec 32} (h : a.toInt < 100000) : IntOp.cmpi .sle a 99999#32 = 1#1 := by
  have hz : (99999#32 : BitVec 32).toInt = 99999 := by decide
  have hb : a.sle 99999#32 = true := by
    simp only [BitVec.sle, hz, decide_eq_true_eq]; omega
  show BitVec.ofBool (a.sle 99999#32) = 1#1
  rw [hb]; rfl

/-- An "and"-reduction, from the initial value 1, of a mask that is 1 everywhere is 1 at every result index: the fold
    meets only 1s. -/
private theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-- With no source id negative, the start index at every position of the column is the source id of some edge: the
    test "below zero" fails there, so the id is kept as it is. -/
private theorem wrap_reads (src : IVec S1600000 32) (hs : ∀ e : S1600000.Idx, 0 ≤ (src e).toInt) (i : S1600000x1.Idx) :
    ∃ e : S1600000.Idx, Cert.RefSpec.wrap src i = src e := by
  obtain ⟨e, he⟩ := bcast_reads bcast_S1600000_S1600000x1_0 i
  refine ⟨e, ?_⟩
  unfold Cert.RefSpec.wrap Cert.RefSpec.colIdx
  rw [he]
  show Scalar.select (IntOp.cmpi .slt (src e) 0#32) (IntOp.addi (src e) 100000#32) (src e) = src e
  rw [slt_zero_of_nonneg (hs e)]
  rfl

/-- With every source id a node id, the range test holds on every edge: both compares are 1 at the one position of
    the edge's row, so is their "and", and so is its "and"-reduction along the axis of extent 1. -/
private theorem inRange_wrap (src : IVec S1600000 32) (hs : ∀ e : S1600000.Idx, 0 ≤ (src e).toInt ∧ (src e).toInt < 100000)
    (j : S1600000.Idx) : inRange (Cert.RefSpec.wrap src) j = 1#1 := by
  unfold inRange
  refine reduce_andi_of_all_one _ _ _ _ rfl (fun i => ?_) j
  obtain ⟨e, he⟩ := wrap_reads src (fun e => (hs e).1) i
  show IntOp.andi (IntOp.cmpi .sge (Cert.RefSpec.wrap src i) 0#32) (IntOp.cmpi .sle (Cert.RefSpec.wrap src i) 99999#32) = 1#1
  rw [he, sge_zero_of_nonneg (hs e).1, sle_last_of_lt (hs e).2]
  decide

/-- The edge rows as the kernel's program takes them: the source node's projected row where the start index is in
    range, the fill value elsewhere. -/
def take1 (p : FVec F S100000x128 .f32) (src : IVec S1600000 32) : FVec F S1600000x128 .f32 :=
  select (broadcastInDim S1600000x128 ![0] bcast_S1600000_S1600000x128_0 (inRange (Cert.RefSpec.wrap src)))
    (Cert.RefSpec.gath1 p src) (broadcastInDim S1600000x128 ![] bcast_S_S1600000x128 (constant S_ .f32 0x7FC00000#32))

/-- With every source id a node id, the take with its range test and fill is the reference's gather. -/
theorem take1_eq (p : FVec F S100000x128 .f32) (src : IVec S1600000 32)
    (hs : ∀ e : S1600000.Idx, 0 ≤ (src e).toInt ∧ (src e).toInt < 100000) :
    take1 (F := F) p src = Cert.RefSpec.gath1 p src := by
  funext i
  -- the mask at i is the range test of i's edge, which holds, so the select keeps the gathered entry
  unfold take1
  refine select_of_one _ _ _ i ?_
  obtain ⟨e, he⟩ := bcast_reads bcast_S1600000_S1600000x128_0 i
  rw [he]
  exact inRange_wrap src hs e

end Cert.KSpec

end
-- ==== Proof.KHostAgg1.lean ====
/-
  The kernel program's host stretch between the first projection and the first post-processing kernel, read operation
  by operation: the take of the edges' source rows (with its range test and fill) and the scatter-add of the taken rows
  over the destination ids.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.TakeL1
import Idealize.ShloMosaic.PureOps.Ideal
import Idealize.ShloMosaic.Lib.StableHlo.Run

set_option maxRecDepth 16384
-- one declaration at a time: each reads a whole stretch of host operations back, which holds its memory while it runs
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Contents carried to a typed reference's buffer and back are the contents. -/
private theorem ofBuf_toBuf {Val : EltTy → Type} {T : BufTy} (x : StableHlo.TRef sig T) (v : T.Contents Val) :
    x.ofBuf (x.toBuf v) = v := by
  obtain ⟨r, h, _, _⟩ := x
  subst h
  rfl

/-- Layer 1's aggregated rows: the scatter-add over the destination ids of the taken edge rows. -/
theorem W8_v17 (c : Dev nD) : (W8 m ρ c (Proc.devRef .tc main_v17))
    = Cert.RefSpec.agg1 (F := Ideal) (Cert.KSpec.take1 (W6 m ρ c (Proc.devRef .tc main_v13)) (W6 m ρ c (Proc.devRef .tc main_arg1))) (W6 m ρ c (Proc.devRef .tc main_arg2)) := by
  dsimp only [W8, W7, hostOps1_1, hostOps1]
  -- the contents at the stretch's entry enter only as the operations' inputs: one name for them, so that the closing
  -- comparison never opens how they were computed
  generalize W6 m ρ c = V
  after_results_simp
  -- a typed reference's contents are its buffer's along an equation of types that holds by computation: first the
  -- pairs there-and-back, then the few single ones at the inputs and at the taken rows
  simp only [ofBuf_toBuf]
  simp only [TRef.ofBuf, TRef.toBuf, cast_eq]
  rfl

end Cert.KernelIdeal.Val

end
-- ==== Proof.TakeL2.lean ====
/-
  The second layer's edge rows as the kernel's program takes them, and that this is the reference's gather when every
  source id is a node id.

  The kernel's program reads the projected row of an edge's source node through a range test: where the start index
  (the source id, a negative one counted from the end) lies in [0, 99999] it keeps the gathered row, elsewhere it puts
  a fill value. When every source id s satisfies 0 ≤ s < 100000 the start index is s itself, the test holds on every
  edge, and the fill is never used: the result is the plain gather of the reference.
-/
import proofs.«430338_j52458730553357_1_alg».proof.Proof.KSpec
import Idealize.ShloMosaic.Lib.StableHlo.Predicate
import Idealize.ShloMosaic.Lib.ReduceAll

noncomputable section

namespace Cert.KSpec

open Idealize.ShloMosaic Cert.KernelIdeal

variable {F : FTy → Type} [FloatOps F] [Cert.KernelIdeal.Facts] [Cert.ReferenceIdeal.Facts]
open Cert.KernelIdeal.Facts₀ Cert.KernelIdeal.Facts

/-- A broadcast reads, at each result index, one fixed index of its operand, whatever the operand's entries are. -/
private theorem bcast_reads {s t : Shape} {dims : Fin s.rank → Fin t.rank} (h : s.BroadcastsInDim t dims) (j : t.Idx) :
    ∃ k : s.Idx, ∀ {α : Type} (x : s.Idx → α), broadcastInDim t dims h x j = x k :=
  ⟨_, fun _ => rfl⟩

/-- A select keeps its first operand's entry wherever the mask is 1. -/
private theorem select_of_one {s : Shape} {α : Type} (c : IVec s 1) (a b : s.Idx → α) (i : s.Idx) (h : c i = 1#1) :
    select c a b i = a i := by
  show Scalar.select (c i) (a i) (b i) = a i
  rw [h]; rfl

/-- A word that is not negative fails the signed test "below zero". -/
private theorem slt_zero_of_nonneg {a : BitVec 32} (h : 0 ≤ a.toInt) : IntOp.cmpi .slt a 0#32 = 0#1 := by
  have hz : (0#32 : BitVec 32).toInt = 0 := by decide
  have hb : a.slt 0#32 = false := by
    simp only [BitVec.slt, hz, decide_eq_false_iff_not]; omega
  show BitVec.ofBool (a.slt 0#32) = 0#1
  rw [hb]; rfl

/-- A word that is not negative passes the signed test "at least zero". -/
private theorem sge_zero_of_nonneg {a : BitVec 32} (h : 0 ≤ a.toInt) : IntOp.cmpi .sge a 0#32 = 1#1 := by
  have hz : (0#32 : BitVec 32).toInt = 0 := by decide
  have hb : (0#32 : BitVec 32).sle a = true := by
    simp only [BitVec.sle, hz, decide_eq_true_eq]; exact h
  show BitVec.ofBool ((0#32 : BitVec 32).sle a) = 1#1
  rw [hb]; rfl

/-- A word below 100000 passes the signed test "at most 99999". -/
private theorem sle_last_of_lt {a : BitVec 32} (h : a.toInt < 100000) : IntOp.cmpi .sle a 99999#32 = 1#1 := by
  have hz : (99999#32 : BitVec 32).toInt = 99999 := by decide
  have hb : a.sle 99999#32 = true := by
    simp only [BitVec.sle, hz, decide_eq_true_eq]; omega
  show BitVec.ofBool (a.sle 99999#32) = 1#1
  rw [hb]; rfl

/-- An "and"-reduction, from the initial value 1, of a mask that is 1 everywhere is 1 at every result index: the fold
    meets only 1s. -/
private theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-- With no source id negative, the start index at every position of the column is the source id of some edge: the
    test "below zero" fails there, so the id is kept as it is. -/
private theorem wrap_reads (src : IVec S1600000 32) (hs : ∀ e : S1600000.Idx, 0 ≤ (src e).toInt) (i : S1600000x1.Idx) :
    ∃ e : S1600000.Idx, Cert.RefSpec.wrap src i = src e := by
  obtain ⟨e, he⟩ := bcast_reads bcast_S1600000_S1600000x1_0 i
  refine ⟨e, ?_⟩
  unfold Cert.RefSpec.wrap Cert.RefSpec.colIdx
  rw [he]
  show Scalar.select (IntOp.cmpi .slt (src e) 0#32) (IntOp.addi (src e) 100000#32) (src e) = src e
  rw [slt_zero_of_nonneg (hs e)]
  rfl

/-- With every source id a node id, the range test holds on every edge: both compares are 1 at the one position of
    the edge's row, so is their "and", and so is its "and"-reduction along the axis of extent 1. -/
private theorem inRange_wrap (src : IVec S1600000 32) (hs : ∀ e : S1600000.Idx, 0 ≤ (src e).toInt ∧ (src e).toInt < 100000)
    (j : S1600000.Idx) : inRange (Cert.RefSpec.wrap src) j = 1#1 := by
  unfold inRange
  refine reduce_andi_of_all_one _ _ _ _ rfl (fun i => ?_) j
  obtain ⟨e, he⟩ := wrap_reads src (fun e => (hs e).1) i
  show IntOp.andi (IntOp.cmpi .sge (Cert.RefSpec.wrap src i) 0#32) (IntOp.cmpi .sle (Cert.RefSpec.wrap src i) 99999#32) = 1#1
  rw [he, sge_zero_of_nonneg (hs e).1, sle_last_of_lt (hs e).2]
  decide

/-- The edge rows as the kernel's program takes them: the source node's projected row where the start index is in
    range, the fill value elsewhere. -/
def take2 (p : FVec F S100000x64 .f32) (src : IVec S1600000 32) : FVec F S1600000x64 .f32 :=
  select (broadcastInDim S1600000x64 ![0] bcast_S1600000_S1600000x64_0 (inRange (Cert.RefSpec.wrap src)))
    (Cert.RefSpec.gath2 p src) (broadcastInDim S1600000x64 ![] bcast_S_S1600000x64 (constant S_ .f32 0x7FC00000#32))

/-- With every source id a node id, the take with its range test and fill is the reference's gather. -/
theorem take2_eq (p : FVec F S100000x64 .f32) (src : IVec S1600000 32)
    (hs : ∀ e : S1600000.Idx, 0 ≤ (src e).toInt ∧ (src e).toInt < 100000) :
    take2 (F := F) p src = Cert.RefSpec.gath2 p src := by
  funext i
  -- the mask at i is the range test of i's edge, which holds, so the select keeps the gathered entry
  unfold take2
  refine select_of_one _ _ _ i ?_
  obtain ⟨e, he⟩ := bcast_reads bcast_S1600000_S1600000x64_0 i
  rw [he]
  exact inRange_wrap src hs e

end Cert.KSpec

end
-- ==== Proof.KHostAgg2.lean ====
/-
  The kernel program's host stretch between the second projection and the second post-processing kernel, read operation
  by operation: the take of the edges' source rows (with its range test and fill) and the scatter-add of the taken rows
  over the destination ids.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.TakeL2
import Idealize.ShloMosaic.PureOps.Ideal
import Idealize.ShloMosaic.Lib.StableHlo.Run

set_option maxRecDepth 16384
-- one declaration at a time: each reads a whole stretch of host operations back, which holds its memory while it runs
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Contents carried to a typed reference's buffer and back are the contents. -/
private theorem ofBuf_toBuf {Val : EltTy → Type} {T : BufTy} (x : StableHlo.TRef sig T) (v : T.Contents Val) :
    x.ofBuf (x.toBuf v) = v := by
  obtain ⟨r, h, _, _⟩ := x
  subst h
  rfl

/-- Layer 2's aggregated rows: the scatter-add over the destination ids of the taken edge rows. -/
theorem W12_v23 (c : Dev nD) : (W12 m ρ c (Proc.devRef .tc main_v23))
    = Cert.RefSpec.agg2 (F := Ideal) (Cert.KSpec.take2 (W10 m ρ c (Proc.devRef .tc main_v19)) (W10 m ρ c (Proc.devRef .tc main_arg1))) (W10 m ρ c (Proc.devRef .tc main_arg2)) := by
  dsimp only [W12, W11, hostOps3_1, hostOps3]
  -- the contents at the stretch's entry enter only as the operations' inputs: one name for them, so that the closing
  -- comparison never opens how they were computed
  generalize W10 m ρ c = V
  after_results_simp
  -- a typed reference's contents are its buffer's along an equation of types that holds by computation: first the
  -- pairs there-and-back, then the few single ones at the inputs and at the taken rows
  simp only [ofBuf_toBuf]
  simp only [TRef.ofBuf, TRef.toBuf, cast_eq]
  rfl

end Cert.KernelIdeal.Val

end
-- ==== Proof.TakeL3.lean ====
/-
  The third layer's edge rows as the kernel's program takes them, and that this is the reference's gather when every
  source id is a node id.

  The kernel's program reads the projected row of an edge's source node through a range test: where the start index
  (the source id, a negative one counted from the end) lies in [0, 99999] it keeps the gathered row, elsewhere it puts
  a fill value. When every source id s satisfies 0 ≤ s < 100000 the start index is s itself, the test holds on every
  edge, and the fill is never used: the result is the plain gather of the reference.
-/
import proofs.«430338_j52458730553357_1_alg».proof.Proof.KSpec
import Idealize.ShloMosaic.Lib.StableHlo.Predicate
import Idealize.ShloMosaic.Lib.ReduceAll

noncomputable section

namespace Cert.KSpec

open Idealize.ShloMosaic Cert.KernelIdeal

variable {F : FTy → Type} [FloatOps F] [Cert.KernelIdeal.Facts] [Cert.ReferenceIdeal.Facts]
open Cert.KernelIdeal.Facts₀ Cert.KernelIdeal.Facts

/-- A broadcast reads, at each result index, one fixed index of its operand, whatever the operand's entries are. -/
private theorem bcast_reads {s t : Shape} {dims : Fin s.rank → Fin t.rank} (h : s.BroadcastsInDim t dims) (j : t.Idx) :
    ∃ k : s.Idx, ∀ {α : Type} (x : s.Idx → α), broadcastInDim t dims h x j = x k :=
  ⟨_, fun _ => rfl⟩

/-- A select keeps its first operand's entry wherever the mask is 1. -/
private theorem select_of_one {s : Shape} {α : Type} (c : IVec s 1) (a b : s.Idx → α) (i : s.Idx) (h : c i = 1#1) :
    select c a b i = a i := by
  show Scalar.select (c i) (a i) (b i) = a i
  rw [h]; rfl

/-- A word that is not negative fails the signed test "below zero". -/
private theorem slt_zero_of_nonneg {a : BitVec 32} (h : 0 ≤ a.toInt) : IntOp.cmpi .slt a 0#32 = 0#1 := by
  have hz : (0#32 : BitVec 32).toInt = 0 := by decide
  have hb : a.slt 0#32 = false := by
    simp only [BitVec.slt, hz, decide_eq_false_iff_not]; omega
  show BitVec.ofBool (a.slt 0#32) = 0#1
  rw [hb]; rfl

/-- A word that is not negative passes the signed test "at least zero". -/
private theorem sge_zero_of_nonneg {a : BitVec 32} (h : 0 ≤ a.toInt) : IntOp.cmpi .sge a 0#32 = 1#1 := by
  have hz : (0#32 : BitVec 32).toInt = 0 := by decide
  have hb : (0#32 : BitVec 32).sle a = true := by
    simp only [BitVec.sle, hz, decide_eq_true_eq]; exact h
  show BitVec.ofBool ((0#32 : BitVec 32).sle a) = 1#1
  rw [hb]; rfl

/-- A word below 100000 passes the signed test "at most 99999". -/
private theorem sle_last_of_lt {a : BitVec 32} (h : a.toInt < 100000) : IntOp.cmpi .sle a 99999#32 = 1#1 := by
  have hz : (99999#32 : BitVec 32).toInt = 99999 := by decide
  have hb : a.sle 99999#32 = true := by
    simp only [BitVec.sle, hz, decide_eq_true_eq]; omega
  show BitVec.ofBool (a.sle 99999#32) = 1#1
  rw [hb]; rfl

/-- An "and"-reduction, from the initial value 1, of a mask that is 1 everywhere is 1 at every result index: the fold
    meets only 1s. -/
private theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih =>
    rw [List.foldl_cons, hx a, show IntOp.andi (1#1 : BitVec 1) 1#1 = 1#1 from by decide]
    exact ih

/-- With no source id negative, the start index at every position of the column is the source id of some edge: the
    test "below zero" fails there, so the id is kept as it is. -/
private theorem wrap_reads (src : IVec S1600000 32) (hs : ∀ e : S1600000.Idx, 0 ≤ (src e).toInt) (i : S1600000x1.Idx) :
    ∃ e : S1600000.Idx, Cert.RefSpec.wrap src i = src e := by
  obtain ⟨e, he⟩ := bcast_reads bcast_S1600000_S1600000x1_0 i
  refine ⟨e, ?_⟩
  unfold Cert.RefSpec.wrap Cert.RefSpec.colIdx
  rw [he]
  show Scalar.select (IntOp.cmpi .slt (src e) 0#32) (IntOp.addi (src e) 100000#32) (src e) = src e
  rw [slt_zero_of_nonneg (hs e)]
  rfl

/-- With every source id a node id, the range test holds on every edge: both compares are 1 at the one position of
    the edge's row, so is their "and", and so is its "and"-reduction along the axis of extent 1. -/
private theorem inRange_wrap (src : IVec S1600000 32) (hs : ∀ e : S1600000.Idx, 0 ≤ (src e).toInt ∧ (src e).toInt < 100000)
    (j : S1600000.Idx) : inRange (Cert.RefSpec.wrap src) j = 1#1 := by
  unfold inRange
  refine reduce_andi_of_all_one _ _ _ _ rfl (fun i => ?_) j
  obtain ⟨e, he⟩ := wrap_reads src (fun e => (hs e).1) i
  show IntOp.andi (IntOp.cmpi .sge (Cert.RefSpec.wrap src i) 0#32) (IntOp.cmpi .sle (Cert.RefSpec.wrap src i) 99999#32) = 1#1
  rw [he, sge_zero_of_nonneg (hs e).1, sle_last_of_lt (hs e).2]
  decide

/-- The edge rows as the kernel's program takes them: the source node's projected row where the start index is in
    range, the fill value elsewhere. -/
def take3 (p : FVec F S100000x32 .f32) (src : IVec S1600000 32) : FVec F S1600000x32 .f32 :=
  select (broadcastInDim S1600000x32 ![0] bcast_S1600000_S1600000x32_0 (inRange (Cert.RefSpec.wrap src)))
    (Cert.RefSpec.gath3 p src) (broadcastInDim S1600000x32 ![] bcast_S_S1600000x32 (constant S_ .f32 0x7FC00000#32))

/-- With every source id a node id, the take with its range test and fill is the reference's gather. -/
theorem take3_eq (p : FVec F S100000x32 .f32) (src : IVec S1600000 32)
    (hs : ∀ e : S1600000.Idx, 0 ≤ (src e).toInt ∧ (src e).toInt < 100000) :
    take3 (F := F) p src = Cert.RefSpec.gath3 p src := by
  funext i
  -- the mask at i is the range test of i's edge, which holds, so the select keeps the gathered entry
  unfold take3
  refine select_of_one _ _ _ i ?_
  obtain ⟨e, he⟩ := bcast_reads bcast_S1600000_S1600000x32_0 i
  rw [he]
  exact inRange_wrap src hs e

end Cert.KSpec

end
-- ==== Proof.KHostAgg3.lean ====
/-
  The kernel program's host stretch between the third projection and the third post-processing kernel, read operation
  by operation: the take of the edges' source rows (with its range test and fill) and the scatter-add of the taken rows
  over the destination ids.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.TakeL3
import Idealize.ShloMosaic.PureOps.Ideal
import Idealize.ShloMosaic.Lib.StableHlo.Run

set_option maxRecDepth 16384
-- one declaration at a time: each reads a whole stretch of host operations back, which holds its memory while it runs
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Contents carried to a typed reference's buffer and back are the contents. -/
private theorem ofBuf_toBuf {Val : EltTy → Type} {T : BufTy} (x : StableHlo.TRef sig T) (v : T.Contents Val) :
    x.ofBuf (x.toBuf v) = v := by
  obtain ⟨r, h, _, _⟩ := x
  subst h
  rfl

/-- Layer 3's aggregated rows: the scatter-add over the destination ids of the taken edge rows. -/
theorem W16_v29 (c : Dev nD) : (W16 m ρ c (Proc.devRef .tc main_v29))
    = Cert.RefSpec.agg3 (F := Ideal) (Cert.KSpec.take3 (W14 m ρ c (Proc.devRef .tc main_v25)) (W14 m ρ c (Proc.devRef .tc main_arg1))) (W14 m ρ c (Proc.devRef .tc main_arg2)) := by
  dsimp only [W16, W15, hostOps5_1, hostOps5]
  -- the contents at the stretch's entry enter only as the operations' inputs: one name for them, so that the closing
  -- comparison never opens how they were computed
  generalize W14 m ρ c = V
  after_results_simp
  -- a typed reference's contents are its buffer's along an equation of types that holds by computation: first the
  -- pairs there-and-back, then the few single ones at the inputs and at the taken rows
  simp only [ofBuf_toBuf]
  simp only [TRef.ofBuf, TRef.toBuf, cast_eq]
  rfl

end Cert.KernelIdeal.Val

end
-- ==== Proof.KHostPool.lean ====
/-
  The kernel program's host stretch before the pooling kernel, read operation by operation: the 0/1 table of the
  graph ids (an id compared with the column number) and the table's column sums.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import Idealize.ShloMosaic.PureOps.Ideal
import Idealize.ShloMosaic.Lib.StableHlo.Run

set_option maxRecDepth 16384
-- one declaration at a time: each reads a whole stretch of host operations back, which holds its memory while it runs
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The 0/1 table of the graph ids at the pooling region's entry. -/
theorem W19_v31 (c : Dev nD) : (W19 m ρ c (Proc.devRef .tc main_v31)) = Cert.KSpec.onehot (F := Ideal) (W17 m ρ c (Proc.devRef .tc main_arg3)) := by
  dsimp only [W19, W18, hostOps6_1, hostOps6]
  after_results
  rfl

/-- The table's column sums at the pooling region's entry. -/
theorem W19_v32 (c : Dev nD) : (W19 m ρ c (Proc.devRef .tc main_v32)) = Cert.KSpec.cnt (F := Ideal) (W17 m ρ c (Proc.devRef .tc main_arg3)) := by
  dsimp only [W19, W18, hostOps6_1, hostOps6]
  after_results
  rfl

end Cert.KernelIdeal.Val

end
-- ==== Proof.KHostTail.lean ====
/-
  The kernel program's last host stretch, read operation by operation: the counts clipped below at 1, the pooled rows
  divided by them, the product with the 32 × 5 matrix and the bias — the reference's head of the pooled rows and counts.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import Idealize.ShloMosaic.PureOps.Ideal
import Idealize.ShloMosaic.Lib.StableHlo.Run

set_option maxRecDepth 16384
-- one declaration at a time: each reads a whole stretch of host operations back, which holds its memory while it runs
set_option Elab.async false

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The result is the head of the pooled rows and the counts as the pooling region leaves them. -/
theorem W23_v41 (c : Dev nD) : (W23 m ρ c (Proc.devRef .tc main_v41))
    = Cert.RefSpec.head (F := Ideal) (W20 m ρ c (Proc.devRef .tc main_v33)) (W20 m ρ c (Proc.devRef .tc main_v32)) (W20 m ρ c (Proc.devRef .tc main_arg7)) (W20 m ρ c (Proc.devRef .tc main_arg8)) := by
  dsimp only [W23, W22, W21, hostOps7_2, hostOps7_1, hostOps7]
  after_results
  rfl

end Cert.KernelIdeal.Val

end
-- ==== Proof.KWalk.lean ====
/-
  Buffers that a stretch of the program does not write keep their contents: each input array, the two normaliser
  columns, the count vector and the last layer's rows, read at the boundary where a later stage uses them, hold what
  they held where they were made (an input array: what the launch memory holds).

  The program's memory is a fold over its stretches.  A host stretch writes only the result buffers of its own
  operations, so any other reference reads the same before and after it.  A pipelined region changes only its
  arrays: a reference that is none of them is untouched, and an array the region only reads through an input window
  is left, after the last grid step, as it was at entry.  Each statement below is a chain of such steps from the
  later boundary back to the earlier one.
-/
import proofs.«430338_j52458730553357_1_alg».proof.Proof.Gen.KernelIdeal.Frame
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Cert.KernelIdeal Cert.KernelIdeal.Gen

/-- One host stretch leaves the reference `b` alone: the stretch is a list of operations, each writing exactly its
    result buffer, and `b` is different from every one of them (references are compared by decision; distinct
    references are distinct device buffers). -/
macro "host_keeps " b:term : tactic => `(tactic|
  exact StableHlo.after_of_forall_not_mem (b := Proc.devRef .tc $b) _ _ (List.forall_iff_forall_mem.mp (by
    simp only [hostOps0, hostOps0_1, hostOps0_2, hostOps0_3, hostOps0_4, hostOps1, hostOps1_1, hostOps3, hostOps3_1,
      hostOps5, hostOps5_1, hostOps6, hostOps6_1, hostOps7, hostOps7_1, hostOps7_2,
      List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-! ## From the first region's entry back to the launch: five host stretches, none of which writes an argument -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by host_keeps main_arg0
    _ = W3 m ρ c (Proc.devRef .tc main_arg0) := by host_keeps main_arg0
    _ = W2 m ρ c (Proc.devRef .tc main_arg0) := by host_keeps main_arg0
    _ = W1 m ρ c (Proc.devRef .tc main_arg0) := by host_keeps main_arg0
    _ = W0 m ρ c (Proc.devRef .tc main_arg0) := by host_keeps main_arg0
    _ = m ((c : Thread nD τ).loc main_arg0) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := by host_keeps main_arg4
    _ = W3 m ρ c (Proc.devRef .tc main_arg4) := by host_keeps main_arg4
    _ = W2 m ρ c (Proc.devRef .tc main_arg4) := by host_keeps main_arg4
    _ = W1 m ρ c (Proc.devRef .tc main_arg4) := by host_keeps main_arg4
    _ = W0 m ρ c (Proc.devRef .tc main_arg4) := by host_keeps main_arg4
    _ = m ((c : Thread nD τ).loc main_arg4) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by host_keeps main_arg1
    _ = W3 m ρ c (Proc.devRef .tc main_arg1) := by host_keeps main_arg1
    _ = W2 m ρ c (Proc.devRef .tc main_arg1) := by host_keeps main_arg1
    _ = W1 m ρ c (Proc.devRef .tc main_arg1) := by host_keeps main_arg1
    _ = W0 m ρ c (Proc.devRef .tc main_arg1) := by host_keeps main_arg1
    _ = m ((c : Thread nD τ).loc main_arg1) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by host_keeps main_arg2
    _ = W3 m ρ c (Proc.devRef .tc main_arg2) := by host_keeps main_arg2
    _ = W2 m ρ c (Proc.devRef .tc main_arg2) := by host_keeps main_arg2
    _ = W1 m ρ c (Proc.devRef .tc main_arg2) := by host_keeps main_arg2
    _ = W0 m ρ c (Proc.devRef .tc main_arg2) := by host_keeps main_arg2
    _ = m ((c : Thread nD τ).loc main_arg2) := rfl

private theorem entry0_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by host_keeps main_arg3
    _ = W3 m ρ c (Proc.devRef .tc main_arg3) := by host_keeps main_arg3
    _ = W2 m ρ c (Proc.devRef .tc main_arg3) := by host_keeps main_arg3
    _ = W1 m ρ c (Proc.devRef .tc main_arg3) := by host_keeps main_arg3
    _ = W0 m ρ c (Proc.devRef .tc main_arg3) := by host_keeps main_arg3
    _ = m ((c : Thread nD τ).loc main_arg3) := rfl

private theorem entry0_arg5 (c : Dev nD) : W5 m ρ c (Proc.devRef .tc main_arg5) = m ((c : Thread nD τ).loc main_arg5) :=
  calc W5 m ρ c (Proc.devRef .tc main_arg5)
    _ = W4 m ρ c (Proc.devRef .tc main_arg5) := by host_keeps main_arg5
    _ = W3 m ρ c (Proc.devRef .tc main_arg5) := by host_keeps main_arg5
    _ = W2 m ρ c (Proc.devRef .tc main_arg5) := by host_keeps main_arg5
    _ = W1 m ρ c (Proc.devRef .tc main_arg5) := by host_keeps main_arg5
    _ = W0 m ρ c (Proc.devRef .tc main_arg5) := by host_keeps main_arg5
    _ = m ((c : Thread nD τ).loc main_arg5) := rfl

private theorem entry0_arg6 (c : Dev nD) : W5 m ρ c (Proc.devRef .tc main_arg6) = m ((c : Thread nD τ).loc main_arg6) :=
  calc W5 m ρ c (Proc.devRef .tc main_arg6)
    _ = W4 m ρ c (Proc.devRef .tc main_arg6) := by host_keeps main_arg6
    _ = W3 m ρ c (Proc.devRef .tc main_arg6) := by host_keeps main_arg6
    _ = W2 m ρ c (Proc.devRef .tc main_arg6) := by host_keeps main_arg6
    _ = W1 m ρ c (Proc.devRef .tc main_arg6) := by host_keeps main_arg6
    _ = W0 m ρ c (Proc.devRef .tc main_arg6) := by host_keeps main_arg6
    _ = m ((c : Thread nD τ).loc main_arg6) := rfl

private theorem entry0_arg7 (c : Dev nD) : W5 m ρ c (Proc.devRef .tc main_arg7) = m ((c : Thread nD τ).loc main_arg7) :=
  calc W5 m ρ c (Proc.devRef .tc main_arg7)
    _ = W4 m ρ c (Proc.devRef .tc main_arg7) := by host_keeps main_arg7
    _ = W3 m ρ c (Proc.devRef .tc main_arg7) := by host_keeps main_arg7
    _ = W2 m ρ c (Proc.devRef .tc main_arg7) := by host_keeps main_arg7
    _ = W1 m ρ c (Proc.devRef .tc main_arg7) := by host_keeps main_arg7
    _ = W0 m ρ c (Proc.devRef .tc main_arg7) := by host_keeps main_arg7
    _ = m ((c : Thread nD τ).loc main_arg7) := rfl

private theorem entry0_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by host_keeps main_arg8
    _ = W3 m ρ c (Proc.devRef .tc main_arg8) := by host_keeps main_arg8
    _ = W2 m ρ c (Proc.devRef .tc main_arg8) := by host_keeps main_arg8
    _ = W1 m ρ c (Proc.devRef .tc main_arg8) := by host_keeps main_arg8
    _ = W0 m ρ c (Proc.devRef .tc main_arg8) := by host_keeps main_arg8
    _ = m ((c : Thread nD τ).loc main_arg8) := rfl

/-! ## The first region: the edge arrays are none of its arrays -/

theorem W6_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = m ((c : Thread nD τ).loc main_arg1) := W5_arg1 m ρ c

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = m ((c : Thread nD τ).loc main_arg2) := W5_arg2 m ρ c

/-! ## To the second region's entry: the second normaliser's column is no array of the first region -/

theorem W8_v12 (c : Dev nD) : W8 m ρ c (Proc.devRef .tc main_v12) = W5 m ρ c (Proc.devRef .tc main_v12) :=
  calc W8 m ρ c (Proc.devRef .tc main_v12)
    _ = W7 m ρ c (Proc.devRef .tc main_v12) := by host_keeps main_v12
    _ = W6 m ρ c (Proc.devRef .tc main_v12) := by host_keeps main_v12
    _ = W5 m ρ c (Proc.devRef .tc main_v12) := W6_of_ne m ρ c main_v12 (by decide)

/-! ## To the third region's entry: the second region bypasses the next layer's weights and the first normaliser's
    column (which the first region only read, through its third window) -/

theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := by host_keeps main_arg5
    _ = W6 m ρ c (Proc.devRef .tc main_arg5) := by host_keeps main_arg5
    _ = W5 m ρ c (Proc.devRef .tc main_arg5) := W6_of_ne m ρ c main_arg5 (by decide)
    _ = m ((c : Thread nD τ).loc main_arg5) := entry0_arg5 m ρ c

theorem W9_v9 (c : Dev nD) : W9 m ρ c (Proc.devRef .tc main_v9) = W5 m ρ c (Proc.devRef .tc main_v9) :=
  calc W9 m ρ c (Proc.devRef .tc main_v9)
    _ = W8 m ρ c (Proc.devRef .tc main_v9) := W9_of_ne m ρ c main_v9 (by decide)
    _ = W7 m ρ c (Proc.devRef .tc main_v9) := by host_keeps main_v9
    _ = W6 m ρ c (Proc.devRef .tc main_v9) := by host_keeps main_v9
    _ = W5 m ρ c (Proc.devRef .tc main_v9) := (W6_arr m ρ c 2).trans (((dat0 (V5 m ρ) c).arrAt_in 2 rfl _).trans (A_eq0 (V5 m ρ) c 2))

/-! ## The third region's exit -/

theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := by host_keeps main_arg1
    _ = W6 m ρ c (Proc.devRef .tc main_arg1) := by host_keeps main_arg1
    _ = m ((c : Thread nD τ).loc main_arg1) := W6_arg1 m ρ c

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := by host_keeps main_arg2
    _ = W6 m ρ c (Proc.devRef .tc main_arg2) := by host_keeps main_arg2
    _ = m ((c : Thread nD τ).loc main_arg2) := W6_arg2 m ρ c

/-! ## To the fourth region's entry: the second region only read the second normaliser's column -/

theorem W12_v12 (c : Dev nD) : W12 m ρ c (Proc.devRef .tc main_v12) = W5 m ρ c (Proc.devRef .tc main_v12) :=
  calc W12 m ρ c (Proc.devRef .tc main_v12)
    _ = W11 m ρ c (Proc.devRef .tc main_v12) := by host_keeps main_v12
    _ = W10 m ρ c (Proc.devRef .tc main_v12) := by host_keeps main_v12
    _ = W9 m ρ c (Proc.devRef .tc main_v12) := W10_of_ne m ρ c main_v12 (by decide)
    _ = W8 m ρ c (Proc.devRef .tc main_v12) := (W9_arr m ρ c 1).trans (((dat1 (V8 m ρ) c).arrAt_in 1 rfl _).trans (A_eq1 (V8 m ρ) c 1))
    _ = W5 m ρ c (Proc.devRef .tc main_v12) := W8_v12 m ρ c

/-! ## To the fifth region's entry -/

theorem W13_arg6 (c : Dev nD) : W13 m ρ c (Proc.devRef .tc main_arg6) = m ((c : Thread nD τ).loc main_arg6) :=
  calc W13 m ρ c (Proc.devRef .tc main_arg6)
    _ = W12 m ρ c (Proc.devRef .tc main_arg6) := W13_of_ne m ρ c main_arg6 (by decide)
    _ = W11 m ρ c (Proc.devRef .tc main_arg6) := by host_keeps main_arg6
    _ = W10 m ρ c (Proc.devRef .tc main_arg6) := by host_keeps main_arg6
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := by host_keeps main_arg6
    _ = W6 m ρ c (Proc.devRef .tc main_arg6) := by host_keeps main_arg6
    _ = W5 m ρ c (Proc.devRef .tc main_arg6) := W6_of_ne m ρ c main_arg6 (by decide)
    _ = m ((c : Thread nD τ).loc main_arg6) := entry0_arg6 m ρ c

theorem W13_v9 (c : Dev nD) : W13 m ρ c (Proc.devRef .tc main_v9) = W5 m ρ c (Proc.devRef .tc main_v9) :=
  calc W13 m ρ c (Proc.devRef .tc main_v9)
    _ = W12 m ρ c (Proc.devRef .tc main_v9) := W13_of_ne m ρ c main_v9 (by decide)
    _ = W11 m ρ c (Proc.devRef .tc main_v9) := by host_keeps main_v9
    _ = W10 m ρ c (Proc.devRef .tc main_v9) := by host_keeps main_v9
    _ = W9 m ρ c (Proc.devRef .tc main_v9) := (W10_arr m ρ c 2).trans (((dat2 (V9 m ρ) c).arrAt_in 2 rfl _).trans (A_eq2 (V9 m ρ) c 2))
    _ = W5 m ρ c (Proc.devRef .tc main_v9) := W9_v9 m ρ c

/-! ## The fifth region's exit -/

theorem W14_arg1 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := W13_of_ne m ρ c main_arg1 (by decide)
    _ = W11 m ρ c (Proc.devRef .tc main_arg1) := by host_keeps main_arg1
    _ = W10 m ρ c (Proc.devRef .tc main_arg1) := by host_keeps main_arg1
    _ = m ((c : Thread nD τ).loc main_arg1) := W10_arg1 m ρ c

theorem W14_arg2 (c : Dev nD) : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := by host_keeps main_arg2
    _ = W10 m ρ c (Proc.devRef .tc main_arg2) := by host_keeps main_arg2
    _ = m ((c : Thread nD τ).loc main_arg2) := W10_arg2 m ρ c

/-! ## To the sixth region's entry: the fourth region only read the second normaliser's column -/

theorem W16_v12 (c : Dev nD) : W16 m ρ c (Proc.devRef .tc main_v12) = W5 m ρ c (Proc.devRef .tc main_v12) :=
  calc W16 m ρ c (Proc.devRef .tc main_v12)
    _ = W15 m ρ c (Proc.devRef .tc main_v12) := by host_keeps main_v12
    _ = W14 m ρ c (Proc.devRef .tc main_v12) := by host_keeps main_v12
    _ = W13 m ρ c (Proc.devRef .tc main_v12) := W14_of_ne m ρ c main_v12 (by decide)
    _ = W12 m ρ c (Proc.devRef .tc main_v12) := (W13_arr m ρ c 1).trans (((dat3 (V12 m ρ) c).arrAt_in 1 rfl _).trans (A_eq3 (V12 m ρ) c 1))
    _ = W5 m ρ c (Proc.devRef .tc main_v12) := W12_v12 m ρ c

/-! ## The sixth region's exit: the graph-assignment vector is an array of no region -/

theorem W17_arg3 (c : Dev nD) : W17 m ρ c (Proc.devRef .tc main_arg3) = m ((c : Thread nD τ).loc main_arg3) :=
  calc W17 m ρ c (Proc.devRef .tc main_arg3)
    _ = W16 m ρ c (Proc.devRef .tc main_arg3) := W17_of_ne m ρ c main_arg3 (by decide)
    _ = W15 m ρ c (Proc.devRef .tc main_arg3) := by host_keeps main_arg3
    _ = W14 m ρ c (Proc.devRef .tc main_arg3) := by host_keeps main_arg3
    _ = W13 m ρ c (Proc.devRef .tc main_arg3) := W14_of_ne m ρ c main_arg3 (by decide)
    _ = W12 m ρ c (Proc.devRef .tc main_arg3) := W13_of_ne m ρ c main_arg3 (by decide)
    _ = W11 m ρ c (Proc.devRef .tc main_arg3) := by host_keeps main_arg3
    _ = W10 m ρ c (Proc.devRef .tc main_arg3) := by host_keeps main_arg3
    _ = W9 m ρ c (Proc.devRef .tc main_arg3) := W10_of_ne m ρ c main_arg3 (by decide)
    _ = W8 m ρ c (Proc.devRef .tc main_arg3) := W9_of_ne m ρ c main_arg3 (by decide)
    _ = W7 m ρ c (Proc.devRef .tc main_arg3) := by host_keeps main_arg3
    _ = W6 m ρ c (Proc.devRef .tc main_arg3) := by host_keeps main_arg3
    _ = W5 m ρ c (Proc.devRef .tc main_arg3) := W6_of_ne m ρ c main_arg3 (by decide)
    _ = m ((c : Thread nD τ).loc main_arg3) := entry0_arg3 m ρ c

/-! ## To the last region's entry, and across it -/

theorem W19_v30 (c : Dev nD) : W19 m ρ c (Proc.devRef .tc main_v30) = W17 m ρ c (Proc.devRef .tc main_v30) :=
  calc W19 m ρ c (Proc.devRef .tc main_v30)
    _ = W18 m ρ c (Proc.devRef .tc main_v30) := by host_keeps main_v30
    _ = W17 m ρ c (Proc.devRef .tc main_v30) := by host_keeps main_v30

theorem W20_v32 (c : Dev nD) : W20 m ρ c (Proc.devRef .tc main_v32) = W19 m ρ c (Proc.devRef .tc main_v32) :=
  calc W20 m ρ c (Proc.devRef .tc main_v32)
    _ = W19 m ρ c (Proc.devRef .tc main_v32) := W20_of_ne m ρ c main_v32 (by decide)

theorem W20_arg7 (c : Dev nD) : W20 m ρ c (Proc.devRef .tc main_arg7) = m ((c : Thread nD τ).loc main_arg7) :=
  calc W20 m ρ c (Proc.devRef .tc main_arg7)
    _ = W19 m ρ c (Proc.devRef .tc main_arg7) := W20_of_ne m ρ c main_arg7 (by decide)
    _ = W18 m ρ c (Proc.devRef .tc main_arg7) := by host_keeps main_arg7
    _ = W17 m ρ c (Proc.devRef .tc main_arg7) := by host_keeps main_arg7
    _ = W16 m ρ c (Proc.devRef .tc main_arg7) := W17_of_ne m ρ c main_arg7 (by decide)
    _ = W15 m ρ c (Proc.devRef .tc main_arg7) := by host_keeps main_arg7
    _ = W14 m ρ c (Proc.devRef .tc main_arg7) := by host_keeps main_arg7
    _ = W13 m ρ c (Proc.devRef .tc main_arg7) := W14_of_ne m ρ c main_arg7 (by decide)
    _ = W12 m ρ c (Proc.devRef .tc main_arg7) := W13_of_ne m ρ c main_arg7 (by decide)
    _ = W11 m ρ c (Proc.devRef .tc main_arg7) := by host_keeps main_arg7
    _ = W10 m ρ c (Proc.devRef .tc main_arg7) := by host_keeps main_arg7
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by host_keeps main_arg7
    _ = W6 m ρ c (Proc.devRef .tc main_arg7) := by host_keeps main_arg7
    _ = W5 m ρ c (Proc.devRef .tc main_arg7) := W6_of_ne m ρ c main_arg7 (by decide)
    _ = m ((c : Thread nD τ).loc main_arg7) := entry0_arg7 m ρ c

theorem W20_arg8 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := by host_keeps main_arg8
    _ = W17 m ρ c (Proc.devRef .tc main_arg8) := by host_keeps main_arg8
    _ = W16 m ρ c (Proc.devRef .tc main_arg8) := W17_of_ne m ρ c main_arg8 (by decide)
    _ = W15 m ρ c (Proc.devRef .tc main_arg8) := by host_keeps main_arg8
    _ = W14 m ρ c (Proc.devRef .tc main_arg8) := by host_keeps main_arg8
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := by host_keeps main_arg8
    _ = W10 m ρ c (Proc.devRef .tc main_arg8) := by host_keeps main_arg8
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by host_keeps main_arg8
    _ = W6 m ρ c (Proc.devRef .tc main_arg8) := by host_keeps main_arg8
    _ = W5 m ρ c (Proc.devRef .tc main_arg8) := W6_of_ne m ρ c main_arg8 (by decide)
    _ = m ((c : Thread nD τ).loc main_arg8) := entry0_arg8 m ρ c

end Cert.KernelIdeal.Val

end
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.ProjRegion0.lean ====
/-
  What the first projection kernel leaves in its output array: the reference's projection.

  The kernel runs over 50 blocks of 2000 node rows. At a block it multiplies each feature row by the node's normaliser
  (a column entry), and multiplies the scaled block by the whole weight matrix into a zero accumulator; a change of
  float format is the identity on the extended reals. So entry (i, j) of the output array is
  Σ_κ (x(i, κ) · n(i)) · W(κ, j), which is entry (i, j) of the reference's product of the row-scaled features with W.

  In order: the block's product and the reference's product read at an index, each as that sum; the two sums joined
  entry by entry when the block's rows are the array's rows; the place of each window's block in its array (block row
  t for the features, the normaliser column and the output, the whole array for the weights), which makes what point t
  writes back block t of the reference's projection; and the 50 blocks of 2000 rows filling the 100000 rows, so that
  the array after the last point is the projection.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region0

/-- The block's product read at (p, q): the sum over κ of the scaled feature entry times the weight entry. The
    normaliser column, recast to its own shape and broadcast along the row, is its entry in row p; a change of float
    format is the identity; the accumulator is zero. -/
theorem blockProduct_apply (x : Vec Ideal S2000x512 .f32) (nrm : Vec Ideal S2000x1 .f32) (w : Vec Ideal S512x128 .f32)
    (p : Fin 2000) (q : Fin 128) :
    k0_pay1 x nrm w (ix2 p q) = ∑ κ : Fin 512, (x (ix2 p κ) * nrm (ix2 p (0 : Fin 1))) * w (ix2 κ q) := by
  unfold k0_pay1
  simp only [matmul]
  rw [Cert.LibDot.matmul_rows_apply (N := 2000) (K := 512) (M := 128) dot_S2000x512_S512x128_S2000x128_1_0_0_1_n_n rfl rfl rfl rfl rfl rfl]
  rw [constant_apply, Ideal.ofBits_zero_f32, zero_add]
  refine Finset.sum_congr rfl fun κ _ => ?_
  rw [truncf_apply, truncf_apply, mulf_apply]
  have hb : broadcastTo S2000x512 (shapeCast S2000x1 nrm shapeCasts_S2000x1_S2000x1) broadcasts_S2000x1_S2000x512 (ix2 p κ)
      = nrm (ix2 p (0 : Fin 1)) := by
    rw [shapeCast_self]
    refine broadcastTo_apply _ _ _ _ fun a => ?_
    match a with
    | ⟨0, _⟩ => rfl
    | ⟨1, _⟩ => rfl
  rw [hb]
  -- where the block is recast to its own shape before the product, the recast is the identity
  try rw [shapeCast_self]

/-- The reference's projection read at (i, j): the same sum over the whole arrays, the normaliser laid as a column and
    broadcast along the row being its entry at node i. -/
theorem proj_apply (h : FVec Ideal S100000x512 .f32) (W : FVec Ideal S512x128 .f32) (n : FVec Ideal S100000 .f32)
    (i : Fin 100000) (j : Fin 128) :
    Cert.RefSpec.proj1 (F := Ideal) h W n (ix2 i j) = ∑ κ : Fin 512, (h (ix2 i κ) * n (ix1 i)) * W (ix2 κ j) := by
  unfold Cert.RefSpec.proj1
  rw [Cert.LibDot.dot_rows_apply (N := 100000) (K := 512) (M := 128) _ rfl rfl rfl rfl rfl rfl]
  refine Finset.sum_congr rfl fun κ _ => ?_
  rw [mulf_apply]
  have hb : broadcastInDim Cert.ReferenceIdeal.S100000x512 ![0, 1] Cert.ReferenceIdeal.Facts₀.bcast_S100000x1_S100000x512_0_1 (Cert.RefSpec.col (F := Ideal) n) (ix2 i κ)
      = n (ix1 i) := by
    unfold Cert.RefSpec.col
    rw [broadcastInDim_apply _ _ _ (ix2 i κ) (ix2 i (0 : Fin 1)) (fun a => by
      match a with
      | ⟨0, _⟩ => rfl
      | ⟨1, _⟩ => rfl)]
    exact broadcastInDim_apply _ _ _ (ix2 i (0 : Fin 1)) (ix1 i) (fun a => by
      match a with
      | ⟨0, _⟩ => rfl)
  rw [hb]

/-- The zero offsets of a whole-buffer access, as the constant function. -/
theorem zeroOffsets : (![0, 0] : Fin 2 → Nat) = fun _ => 0 := funext fun a => by fin_cases a <;> rfl

/-- The printed index maps over the grid: at point t the feature, normaliser and output windows sit at block row t and
    block column 0, and the weight window at block (0, 0). -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- One entry of a block against one entry of the whole arrays: when row (j 0) of the feature block is row (k 0) of the
    feature array, the block's normaliser entry in that row is n at node (k 0), and column (j 1) of the weight block is
    column (k 1) of the weight array, entry j of the block's product is entry k of the reference's projection. -/
theorem blockProduct_eq_proj (x : Vec Ideal S2000x512 .f32) (nrm : Vec Ideal S2000x1 .f32) (w : Vec Ideal S512x128 .f32)
    (h : FVec Ideal S100000x512 .f32) (W : FVec Ideal S512x128 .f32) (n : FVec Ideal S100000 .f32)
    (j : S2000x128.Idx) (k : S100000x128.Idx)
    (hx : ∀ κ : Fin 512, x (ix2 (j 0) κ) = h (ix2 (k 0) κ)) (hnrm : nrm (ix2 (j 0) (0 : Fin 1)) = n (ix1 (k 0)))
    (hw : ∀ κ : Fin 512, w (ix2 κ (j 1)) = W (ix2 κ (k 1))) :
    k0_pay1 x nrm w j = Cert.RefSpec.proj1 (F := Ideal) h W n k := by
  have e1 : k0_pay1 x nrm w j = _ :=
    (congrArg (k0_pay1 x nrm w) (eq_ix2 j)).trans (blockProduct_apply x nrm w (j 0) (j 1))
  have e2 : Cert.RefSpec.proj1 (F := Ideal) h W n k = _ :=
    (congrArg (Cert.RefSpec.proj1 (F := Ideal) h W n) (eq_ix2 k)).trans (proj_apply h W n (k 0) (k 1))
  rw [e1, e2]
  refine Finset.sum_congr rfl fun κ _ => ?_
  rw [hx κ, hnrm, hw κ]

/-- What point t writes back is block t of the reference's projection of the region's input arrays. -/
theorem flushed_eq_proj (c : Dev nD) (n : FVec Ideal S100000 .f32) (hn : V c main_v9 = Cert.KSpec.colOf n) (t : Fin cfg0.N) :
    (dat0 V c).flushed 3 t
      = ((cfg0.win 3).blk t).view.read (Elt Ideal) (Cert.RefSpec.proj1 (F := Ideal) (V c main_arg0) (V c main_arg4) n) := by
  show (cfg0.win 3).cut (grid0.coords t) ((dat0 V c).after 3 t) = _
  rw [after0_3]
  unfold out0_3
  rw [View.canon_unit_zero zeroOffsets]
  simp only [View.ld_unit_zero (S := S2000x512) zeroOffsets, View.ld_unit_zero (S := S2000x1) zeroOffsets,
    View.ld_unit_zero (S := S512x128) zeroOffsets]
  obtain ⟨e00, e01, e10, e11, e20, e21, e30, e31⟩ := blockIndex_facts t
  funext j
  show k0_pay1 (iblk0 V c 0 t) (iblk0 V c 2 t) (iblk0 V c 1 t) j
    = Cert.RefSpec.proj1 (F := Ideal) (V c main_arg0) (V c main_arg4) n (((cfg0.win 3).blk t).view.emb j)
  refine blockProduct_eq_proj (iblk0 V c 0 t) (iblk0 V c 2 t) (iblk0 V c 1 t) (V c main_arg0) (V c main_arg4) n j
    (((cfg0.win 3).blk t).view.emb j) (fun κ => ?_) ?_ (fun κ => ?_)
  · -- the feature block's row is the array's row t · 2000 + (j 0)
    unfold iblk0
    rw [View.read_apply]
    show V c main_arg0 _ = V c main_arg0 _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 512 + 1 * κ.val = κ.val; omega
  · -- the normaliser block's entry in that row is the column's entry there, which is n at the node
    unfold iblk0
    rw [View.read_apply]
    show V c main_v9 _ = _
    rw [hn]
    unfold Cert.KSpec.colOf
    refine shapeCast_apply _ _ _ _ ((Shape.rowMajor_val_one _).trans (Eq.trans ?_ (Shape.rowMajor_val_two _).symm))
    show win0_3.index t (0 : Fin 2) * 2000 + 1 * (j 0).val
      = (win0_2.index t (0 : Fin 2) * 2000 + 1 * (j 0).val) * 1 + (win0_2.index t (1 : Fin 2) * 1 + 1 * 0)
    omega
  · -- the weight block is the whole weight array
    unfold iblk0
    rw [View.read_apply]
    show V c main_arg4 _ = V c main_arg4 _
    refine congrArg _ (funext fun a => Fin.ext ?_)
    match a with
    | ⟨0, _⟩ => show win0_1.index t (0 : Fin 2) * 512 + 1 * κ.val = κ.val; omega
    | ⟨1, _⟩ => show win0_1.index t (1 : Fin 2) * 128 + 1 * (j 1).val = win0_3.index t (1 : Fin 2) * 128 + 1 * (j 1).val; omega

/-- An index of the output array is in point t's block iff each coordinate is in the block's range on its axis. -/
theorem mem_outBlock (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v13).slice (win0_3.rect t)).set ↔ _
  rw [View.set_slice_whole, Rect.mem_set_unit]
  exact Iff.rfl

/-- Every index of the output array is in the block of the point its row falls in: row r is in block r / 2000, and
    the 50 blocks of 2000 rows are the 100000 rows. -/
theorem outBlocks_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨e00, e01, e10, e11, e20, e21, e30, e31⟩ := blockIndex_facts t
  refine ⟨t, flush0_3 t, ?_⟩
  rw [mem_outBlock]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

end Region0

open Region0

/-- Region 0's output array after the run is the reference's first projection of the region's input arrays, the
    normaliser column being the reshaped vector n. -/
theorem region0_value (c : Dev nD) (n : FVec Ideal S100000 .f32) (hn : V c main_v9 = Cert.KSpec.colOf n) :
    (dat0 V c).arrAt 3 cfg0.N = Cert.RefSpec.proj1 (F := Ideal) (V c main_arg0) (V c main_arg4) n := by
  exact (dat0 V c).arrAt_eq_of_cover 3 (Cert.RefSpec.proj1 (F := Ideal) (V c main_arg0) (V c main_arg4) n)
    (fun t _ => flushed_eq_proj V c n hn t) outBlocks_cover

end Cert.KernelIdeal.Val

end
-- ==== Proof.PostRegion1.lean ====
/-
  What the first post-processing kernel leaves in its output array: the reference's scaled and rectified rows.

  The kernel runs over 50 blocks of 2000 node rows. At a block it multiplies each aggregated row by the node's
  normaliser (a column entry) and applies v ↦ v where v ≥ 0, else 0.01 · v, entry by entry. So entry (i, j) of the
  output array is leaky(mm(i, j) · n(i)), the reference's entry.

  The proof reads both sides at one entry. The body's arithmetic at entry (p, q) of a block is
  leak(x0(p, q) · x1(p, 0)), and the reference's array at entry (r, q) is leak(mm(r, q) · n(r)), where leak is the
  rectifier with the slope's word left as it is printed on both sides: a scalar broadcast over a block and a rank-0
  constant broadcast over the array read the same word at every index, and a column broadcast along its rows
  reads the column's entry of the row. Block t of each window starts at row 2000 · t, so entry (p, q) of the blocks
  at point t is entry (2000 · t + p, q) of the arrays, and the column's block holds the same rows; hence point t writes
  back block t of the reference's array. Row r lies in block r / 2000, so the 50 blocks cover the array, which
  therefore ends holding the reference's array.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region1

/-! ## One entry of each side -/

/-- The rectifier on one entry: v where v ≥ 0, else the slope times v. -/
def leak (v : Ideal .f32) : Ideal .f32 :=
  Scalar.select (FloatOps.cmpf .oge v (FloatOps.ofBits .f32 0x00000000#32)) v
    (FloatOps.mulf (FloatOps.ofBits .f32 0x3C23D70A#32) v)

/-- A column broadcast along its rows reads, at (p, q), the column's entry p. -/
theorem broadcastTo_col_apply {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry of its block: the rectifier of the aggregated entry times the row's normaliser. -/
theorem pay_apply (x0 : Vec Ideal S2000x128 .f32) (x1 : Vec Ideal S2000x1 .f32) (p : Fin 2000) (q : Fin 128) :
    k1_pay1 x0 x1 (ix2 p q) = leak (x0 (ix2 p q) * x1 (ix2 p (0 : Fin 1))) := by
  unfold k1_pay1
  simp only [shapeCast_self]
  simp only [select_apply, cmpf_apply, mulf_apply, broadcast_apply, broadcastTo_col_apply]
  rfl

/-- A vector laid as a column by a reshape reads, at (r, 0), the vector's entry r. -/
theorem colOf_apply (n : FVec Ideal S100000 .f32) (r : Fin 100000) :
    Cert.KSpec.colOf n (ix2 r (0 : Fin 1)) = n (ix1 r) := by
  unfold Cert.KSpec.colOf
  refine shapeCast_apply n _ (ix2 r (0 : Fin 1)) (ix1 r) ?_
  rw [Shape.rowMajor_val_one, Shape.rowMajor_val_two]
  show r.val = r.val * 1 + 0
  omega

/-- A vector laid as a column by a broadcast reads, at (p, z), the vector's entry p. -/
theorem bcast_vec_col_apply {a : ℕ} {α : Type} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A column broadcast along its rows by the host reads, at (p, q), the column's entry p. -/
theorem bcast_col_apply {a b : ℕ} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The reference's rectified scaled aggregation at an entry: the rectifier of the aggregated entry times the
    row's normaliser. -/
theorem ref_apply (mm : FVec Ideal Cert.ReferenceIdeal.S100000x128 .f32) (n : FVec Ideal Cert.ReferenceIdeal.S100000 .f32) (r : Fin 100000) (q : Fin 128) :
    Cert.RefSpec.leaky1 (F := Ideal) (Cert.RefSpec.scaled1 mm n) (ix2 r q) = leak (mm (ix2 r q) * n (ix1 r)) := by
  have e : broadcastInDim Cert.ReferenceIdeal.S100000x128 ![0, 1] Cert.ReferenceIdeal.Facts₀.bcast_S100000x1_S100000x128_0_1 (Cert.RefSpec.col n) (ix2 r q) = n (ix1 r) :=
    (bcast_col_apply _ _ r q).trans (bcast_vec_col_apply _ _ r 0)
  unfold Cert.RefSpec.leaky1 Cert.RefSpec.scaled1
  simp only [select_apply, cmpf_apply, mulf_apply, e]
  rfl

/-- The body's result at a block entry is the reference's entry, when the block of the aggregation holds the
    aggregation's entry there and the block of the column holds the row's normaliser. -/
theorem block_entry (x0 : Vec Ideal S2000x128 .f32) (x1 : Vec Ideal S2000x1 .f32)
    (mm : FVec Ideal S100000x128 .f32) (n : FVec Ideal S100000 .f32) (j : S2000x128.Idx) (i : S100000x128.Idx)
    (p : Fin 2000) (q : Fin 128) (r : Fin 100000) (s : Fin 128) (hj : j = ix2 p q) (hi : i = ix2 r s)
    (h0 : x0 j = mm i) (h1 : x1 (ix2 p (0 : Fin 1)) = n (ix1 r)) :
    k1_pay1 x0 x1 j = Cert.RefSpec.leaky1 (F := Ideal) (Cert.RefSpec.scaled1 mm n) i := by
  subst hj hi
  rw [pay_apply, ref_apply, h0, h1]

/-! ## What a grid point writes back -/

/-- The body's one store covers its buffer from the origin. -/
theorem zero_offsets : (![0, 0] : Fin 2 → Nat) = fun _ => 0 := funext fun a => by fin_cases a <;> rfl

/-- The printed index maps, decided over the grid: on the row axis each input window's block index is the output's,
    which is the grid point; on the column axis every block index is 0. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What a grid point writes back is its block of the reference's rectified scaled aggregation. -/
theorem flushed_eq (c : Dev nD) (n : FVec Ideal S100000 .f32) (hn : V c main_v12 = Cert.KSpec.colOf n) (t : Fin cfg1.N) :
    (dat1 V c).flushed 2 t = ((cfg1.win 2).blk t).view.read (Elt Ideal)
      (Cert.RefSpec.leaky1 (F := Ideal) (Cert.RefSpec.scaled1 (V c main_v17) n)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S2000x1) zero_offsets]
  obtain ⟨e0, e1, e2, e3, e4, e5⟩ := index_facts t
  funext j
  show k1_pay1 (iblk1 V c 0 t) (iblk1 V c 1 t) j
    = Cert.RefSpec.leaky1 (F := Ideal) (Cert.RefSpec.scaled1 (V c main_v17) n) (((cfg1.win 2).blk t).view.emb j)
  refine block_entry (iblk1 V c 0 t) (iblk1 V c 1 t) (V c main_v17) n j (((cfg1.win 2).blk t).view.emb j)
    (j 0) (j 1) ((((cfg1.win 2).blk t).view.emb j) 0) ((((cfg1.win 2).blk t).view.emb j) 1) (eq_ix2 j) (eq_ix2 _) ?_ ?_
  · -- the aggregation's block sits where the output's does
    show V c main_v17 (((cfg1.win 0).blk t).view.emb j) = V c main_v17 (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · -- the column's block holds the rows of the output's block
    show V c main_v12 (((cfg1.win 1).blk t).view.emb (ix2 (j 0) (0 : Fin 1))) = _
    rw [hn]
    have hk : ((cfg1.win 1).blk t).view.emb (ix2 (j 0) (0 : Fin 1)) = ix2 ((((cfg1.win 2).blk t).view.emb j) 0) (0 : Fin 1) := by
      refine funext fun a => Fin.ext ?_
      match a with
      | ⟨0, _⟩ => show win1_1.index t (0 : Fin 2) * 2000 + 1 * (j 0).val = win1_2.index t (0 : Fin 2) * 2000 + 1 * (j 0).val; omega
      | ⟨1, _⟩ => show win1_1.index t (1 : Fin 2) * 1 + 1 * 0 = 0; omega
    rw [hk]
    exact colOf_apply n _

/-! ## The blocks cover the array -/

/-- An index of the array is in a point's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v18).slice (win1_2.rect t)).set ↔ _
  rw [View.set_slice_whole, Rect.mem_set_unit]
  exact Iff.rfl

/-- Every entry of the array is in some point's block: row r falls in the block of point r / 2000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, e4, e5⟩ := index_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

end Region1

/-- Region 1's output array after the run is the reference's rectified scaled aggregation of the region's input array,
    the normaliser column being the reshaped vector n. -/
theorem region1_value (c : Dev nD) (n : FVec Ideal S100000 .f32) (hn : V c main_v12 = Cert.KSpec.colOf n) :
    (dat1 V c).arrAt 2 cfg1.N = Cert.RefSpec.leaky1 (F := Ideal) (Cert.RefSpec.scaled1 (V c main_v17) n) :=
  (dat1 V c).arrAt_eq_of_cover 2 _ (fun t _ => Region1.flushed_eq V c n hn t) Region1.covered

end Cert.KernelIdeal.Val

end
-- ==== Proof.ProjRegion2.lean ====
/-
  What the second projection kernel leaves in its output array: the reference's projection.

  The kernel runs over 50 blocks of 2000 node rows. At a block it multiplies each feature row by the node's normaliser
  (a column entry), and multiplies the scaled block by the whole weight matrix into a zero accumulator; a change of
  float format is the identity on the extended reals. So entry (i, j) of the output array is
  Σ_κ (x(i, κ) · n(i)) · W(κ, j), which is entry (i, j) of the reference's product of the row-scaled features with W.

  In order: the block's product and the reference's product read at an index, each as that sum; the two sums joined
  entry by entry when the block's rows are the array's rows; the place of each window's block in its array (block row
  t for the features, the normaliser column and the output, the whole array for the weights), which makes what point t
  writes back block t of the reference's projection; and the 50 blocks of 2000 rows filling the 100000 rows, so that
  the array after the last point is the projection.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region2

/-- The block's product read at (p, q): the sum over κ of the scaled feature entry times the weight entry. The
    normaliser column, recast to its own shape and broadcast along the row, is its entry in row p; a change of float
    format is the identity; the accumulator is zero. -/
theorem blockProduct_apply (x : Vec Ideal S2000x128 .f32) (nrm : Vec Ideal S2000x1 .f32) (w : Vec Ideal S128x64 .f32)
    (p : Fin 2000) (q : Fin 64) :
    k2_pay1 x nrm w (ix2 p q) = ∑ κ : Fin 128, (x (ix2 p κ) * nrm (ix2 p (0 : Fin 1))) * w (ix2 κ q) := by
  unfold k2_pay1
  simp only [matmul]
  rw [Cert.LibDot.matmul_rows_apply (N := 2000) (K := 128) (M := 64) dot_S2000x128_S128x64_S2000x64_1_0_0_1_n_n rfl rfl rfl rfl rfl rfl]
  rw [constant_apply, Ideal.ofBits_zero_f32, zero_add]
  refine Finset.sum_congr rfl fun κ _ => ?_
  rw [truncf_apply, truncf_apply, mulf_apply]
  have hb : broadcastTo S2000x128 (shapeCast S2000x1 nrm shapeCasts_S2000x1_S2000x1) broadcasts_S2000x1_S2000x128 (ix2 p κ)
      = nrm (ix2 p (0 : Fin 1)) := by
    rw [shapeCast_self]
    refine broadcastTo_apply _ _ _ _ fun a => ?_
    match a with
    | ⟨0, _⟩ => rfl
    | ⟨1, _⟩ => rfl
  rw [hb]
  -- where the block is recast to its own shape before the product, the recast is the identity
  try rw [shapeCast_self]

/-- The reference's projection read at (i, j): the same sum over the whole arrays, the normaliser laid as a column and
    broadcast along the row being its entry at node i. -/
theorem proj_apply (h : FVec Ideal S100000x128 .f32) (W : FVec Ideal S128x64 .f32) (n : FVec Ideal S100000 .f32)
    (i : Fin 100000) (j : Fin 64) :
    Cert.RefSpec.proj2 (F := Ideal) h W n (ix2 i j) = ∑ κ : Fin 128, (h (ix2 i κ) * n (ix1 i)) * W (ix2 κ j) := by
  unfold Cert.RefSpec.proj2
  rw [Cert.LibDot.dot_rows_apply (N := 100000) (K := 128) (M := 64) _ rfl rfl rfl rfl rfl rfl]
  refine Finset.sum_congr rfl fun κ _ => ?_
  rw [mulf_apply]
  have hb : broadcastInDim Cert.ReferenceIdeal.S100000x128 ![0, 1] Cert.ReferenceIdeal.Facts₀.bcast_S100000x1_S100000x128_0_1 (Cert.RefSpec.col (F := Ideal) n) (ix2 i κ)
      = n (ix1 i) := by
    unfold Cert.RefSpec.col
    rw [broadcastInDim_apply _ _ _ (ix2 i κ) (ix2 i (0 : Fin 1)) (fun a => by
      match a with
      | ⟨0, _⟩ => rfl
      | ⟨1, _⟩ => rfl)]
    exact broadcastInDim_apply _ _ _ (ix2 i (0 : Fin 1)) (ix1 i) (fun a => by
      match a with
      | ⟨0, _⟩ => rfl)
  rw [hb]

/-- The zero offsets of a whole-buffer access, as the constant function. -/
theorem zeroOffsets : (![0, 0] : Fin 2 → Nat) = fun _ => 0 := funext fun a => by fin_cases a <;> rfl

/-- The printed index maps over the grid: at point t the feature, normaliser and output windows sit at block row t and
    block column 0, and the weight window at block (0, 0). -/
theorem blockIndex_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- One entry of a block against one entry of the whole arrays: when row (j 0) of the feature block is row (k 0) of the
    feature array, the block's normaliser entry in that row is n at node (k 0), and column (j 1) of the weight block is
    column (k 1) of the weight array, entry j of the block's product is entry k of the reference's projection. -/
theorem blockProduct_eq_proj (x : Vec Ideal S2000x128 .f32) (nrm : Vec Ideal S2000x1 .f32) (w : Vec Ideal S128x64 .f32)
    (h : FVec Ideal S100000x128 .f32) (W : FVec Ideal S128x64 .f32) (n : FVec Ideal S100000 .f32)
    (j : S2000x64.Idx) (k : S100000x64.Idx)
    (hx : ∀ κ : Fin 128, x (ix2 (j 0) κ) = h (ix2 (k 0) κ)) (hnrm : nrm (ix2 (j 0) (0 : Fin 1)) = n (ix1 (k 0)))
    (hw : ∀ κ : Fin 128, w (ix2 κ (j 1)) = W (ix2 κ (k 1))) :
    k2_pay1 x nrm w j = Cert.RefSpec.proj2 (F := Ideal) h W n k := by
  have e1 : k2_pay1 x nrm w j = _ :=
    (congrArg (k2_pay1 x nrm w) (eq_ix2 j)).trans (blockProduct_apply x nrm w (j 0) (j 1))
  have e2 : Cert.RefSpec.proj2 (F := Ideal) h W n k = _ :=
    (congrArg (Cert.RefSpec.proj2 (F := Ideal) h W n) (eq_ix2 k)).trans (proj_apply h W n (k 0) (k 1))
  rw [e1, e2]
  refine Finset.sum_congr rfl fun κ _ => ?_
  rw [hx κ, hnrm, hw κ]

/-- What point t writes back is block t of the reference's projection of the region's input arrays. -/
theorem flushed_eq_proj (c : Dev nD) (n : FVec Ideal S100000 .f32) (hn : V c main_v9 = Cert.KSpec.colOf n) (t : Fin cfg2.N) :
    (dat2 V c).flushed 3 t
      = ((cfg2.win 3).blk t).view.read (Elt Ideal) (Cert.RefSpec.proj2 (F := Ideal) (V c main_v18) (V c main_arg5) n) := by
  show (cfg2.win 3).cut (grid2.coords t) ((dat2 V c).after 3 t) = _
  rw [after2_3]
  unfold out2_3
  rw [View.canon_unit_zero zeroOffsets]
  simp only [View.ld_unit_zero (S := S2000x128) zeroOffsets, View.ld_unit_zero (S := S2000x1) zeroOffsets,
    View.ld_unit_zero (S := S128x64) zeroOffsets]
  obtain ⟨e00, e01, e10, e11, e20, e21, e30, e31⟩ := blockIndex_facts t
  funext j
  show k2_pay1 (iblk2 V c 0 t) (iblk2 V c 2 t) (iblk2 V c 1 t) j
    = Cert.RefSpec.proj2 (F := Ideal) (V c main_v18) (V c main_arg5) n (((cfg2.win 3).blk t).view.emb j)
  refine blockProduct_eq_proj (iblk2 V c 0 t) (iblk2 V c 2 t) (iblk2 V c 1 t) (V c main_v18) (V c main_arg5) n j
    (((cfg2.win 3).blk t).view.emb j) (fun κ => ?_) ?_ (fun κ => ?_)
  · -- the feature block's row is the array's row t · 2000 + (j 0)
    unfold iblk2
    rw [View.read_apply]
    show V c main_v18 _ = V c main_v18 _
    refine congrArg _ (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * κ.val = κ.val; omega
  · -- the normaliser block's entry in that row is the column's entry there, which is n at the node
    unfold iblk2
    rw [View.read_apply]
    show V c main_v9 _ = _
    rw [hn]
    unfold Cert.KSpec.colOf
    refine shapeCast_apply _ _ _ _ ((Shape.rowMajor_val_one _).trans (Eq.trans ?_ (Shape.rowMajor_val_two _).symm))
    show win2_3.index t (0 : Fin 2) * 2000 + 1 * (j 0).val
      = (win2_2.index t (0 : Fin 2) * 2000 + 1 * (j 0).val) * 1 + (win2_2.index t (1 : Fin 2) * 1 + 1 * 0)
    omega
  · -- the weight block is the whole weight array
    unfold iblk2
    rw [View.read_apply]
    show V c main_arg5 _ = V c main_arg5 _
    refine congrArg _ (funext fun a => Fin.ext ?_)
    match a with
    | ⟨0, _⟩ => show win2_1.index t (0 : Fin 2) * 128 + 1 * κ.val = κ.val; omega
    | ⟨1, _⟩ => show win2_1.index t (1 : Fin 2) * 64 + 1 * (j 1).val = win2_3.index t (1 : Fin 2) * 64 + 1 * (j 1).val; omega

/-- An index of the output array is in point t's block iff each coordinate is in the block's range on its axis. -/
theorem mem_outBlock (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v19).slice (win2_3.rect t)).set ↔ _
  rw [View.set_slice_whole, Rect.mem_set_unit]
  exact Iff.rfl

/-- Every index of the output array is in the block of the point its row falls in: row r is in block r / 2000, and
    the 50 blocks of 2000 rows are the 100000 rows. -/
theorem outBlocks_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  obtain ⟨t, ht⟩ : ∃ t : Fin cfg2.N, t.val = (i 0).val / 2000 := ⟨⟨(i 0).val / 2000, by omega⟩, rfl⟩
  obtain ⟨e00, e01, e10, e11, e20, e21, e30, e31⟩ := blockIndex_facts t
  refine ⟨t, flush2_3 t, ?_⟩
  rw [mem_outBlock]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

end Region2

open Region2

/-- Region 2's output array after the run is the reference's second projection of the region's input arrays, the
    normaliser column being the reshaped vector n. -/
theorem region2_value (c : Dev nD) (n : FVec Ideal S100000 .f32) (hn : V c main_v9 = Cert.KSpec.colOf n) :
    (dat2 V c).arrAt 3 cfg2.N = Cert.RefSpec.proj2 (F := Ideal) (V c main_v18) (V c main_arg5) n := by
  exact (dat2 V c).arrAt_eq_of_cover 3 (Cert.RefSpec.proj2 (F := Ideal) (V c main_v18) (V c main_arg5) n)
    (fun t _ => flushed_eq_proj V c n hn t) outBlocks_cover

end Cert.KernelIdeal.Val

end
-- ==== Proof.PostRegion3.lean ====
/-
  What the second post-processing kernel leaves in its output array: the reference's scaled and rectified rows.

  The kernel runs over 50 blocks of 2000 node rows. At a block it multiplies each aggregated row by the node's
  normaliser (a column entry) and applies v ↦ v where v ≥ 0, else 0.01 · v, entry by entry. So entry (i, j) of the
  output array is leaky(mm(i, j) · n(i)), the reference's entry.

  The proof reads both sides at one entry. The body's arithmetic at entry (p, q) of a block is
  leak(x0(p, q) · x1(p, 0)), and the reference's array at entry (r, q) is leak(mm(r, q) · n(r)), where leak is the
  rectifier with the slope's word left as it is printed on both sides: a scalar broadcast over a block and a rank-0
  constant broadcast over the array read the same word at every index, and a column broadcast along its rows
  reads the column's entry of the row. Block t of each window starts at row 2000 · t, so entry (p, q) of the blocks
  at point t is entry (2000 · t + p, q) of the arrays, and the column's block holds the same rows; hence point t writes
  back block t of the reference's array. Row r lies in block r / 2000, so the 50 blocks cover the array, which
  therefore ends holding the reference's array.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region3

/-! ## One entry of each side -/

/-- The rectifier on one entry: v where v ≥ 0, else the slope times v. -/
def leak (v : Ideal .f32) : Ideal .f32 :=
  Scalar.select (FloatOps.cmpf .oge v (FloatOps.ofBits .f32 0x00000000#32)) v
    (FloatOps.mulf (FloatOps.ofBits .f32 0x3C23D70A#32) v)

/-- A column broadcast along its rows reads, at (p, q), the column's entry p. -/
theorem broadcastTo_col_apply {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry of its block: the rectifier of the aggregated entry times the row's normaliser. -/
theorem pay_apply (x0 : Vec Ideal S2000x64 .f32) (x1 : Vec Ideal S2000x1 .f32) (p : Fin 2000) (q : Fin 64) :
    k3_pay1 x0 x1 (ix2 p q) = leak (x0 (ix2 p q) * x1 (ix2 p (0 : Fin 1))) := by
  unfold k3_pay1
  simp only [shapeCast_self]
  simp only [select_apply, cmpf_apply, mulf_apply, broadcast_apply, broadcastTo_col_apply]
  rfl

/-- A vector laid as a column by a reshape reads, at (r, 0), the vector's entry r. -/
theorem colOf_apply (n : FVec Ideal S100000 .f32) (r : Fin 100000) :
    Cert.KSpec.colOf n (ix2 r (0 : Fin 1)) = n (ix1 r) := by
  unfold Cert.KSpec.colOf
  refine shapeCast_apply n _ (ix2 r (0 : Fin 1)) (ix1 r) ?_
  rw [Shape.rowMajor_val_one, Shape.rowMajor_val_two]
  show r.val = r.val * 1 + 0
  omega

/-- A vector laid as a column by a broadcast reads, at (p, z), the vector's entry p. -/
theorem bcast_vec_col_apply {a : ℕ} {α : Type} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A column broadcast along its rows by the host reads, at (p, q), the column's entry p. -/
theorem bcast_col_apply {a b : ℕ} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The reference's rectified scaled aggregation at an entry: the rectifier of the aggregated entry times the
    row's normaliser. -/
theorem ref_apply (mm : FVec Ideal Cert.ReferenceIdeal.S100000x64 .f32) (n : FVec Ideal Cert.ReferenceIdeal.S100000 .f32) (r : Fin 100000) (q : Fin 64) :
    Cert.RefSpec.leaky2 (F := Ideal) (Cert.RefSpec.scaled2 mm n) (ix2 r q) = leak (mm (ix2 r q) * n (ix1 r)) := by
  have e : broadcastInDim Cert.ReferenceIdeal.S100000x64 ![0, 1] Cert.ReferenceIdeal.Facts₀.bcast_S100000x1_S100000x64_0_1 (Cert.RefSpec.col n) (ix2 r q) = n (ix1 r) :=
    (bcast_col_apply _ _ r q).trans (bcast_vec_col_apply _ _ r 0)
  unfold Cert.RefSpec.leaky2 Cert.RefSpec.scaled2
  simp only [select_apply, cmpf_apply, mulf_apply, e]
  rfl

/-- The body's result at a block entry is the reference's entry, when the block of the aggregation holds the
    aggregation's entry there and the block of the column holds the row's normaliser. -/
theorem block_entry (x0 : Vec Ideal S2000x64 .f32) (x1 : Vec Ideal S2000x1 .f32)
    (mm : FVec Ideal S100000x64 .f32) (n : FVec Ideal S100000 .f32) (j : S2000x64.Idx) (i : S100000x64.Idx)
    (p : Fin 2000) (q : Fin 64) (r : Fin 100000) (s : Fin 64) (hj : j = ix2 p q) (hi : i = ix2 r s)
    (h0 : x0 j = mm i) (h1 : x1 (ix2 p (0 : Fin 1)) = n (ix1 r)) :
    k3_pay1 x0 x1 j = Cert.RefSpec.leaky2 (F := Ideal) (Cert.RefSpec.scaled2 mm n) i := by
  subst hj hi
  rw [pay_apply, ref_apply, h0, h1]

/-! ## What a grid point writes back -/

/-- The body's one store covers its buffer from the origin. -/
theorem zero_offsets : (![0, 0] : Fin 2 → Nat) = fun _ => 0 := funext fun a => by fin_cases a <;> rfl

/-- The printed index maps, decided over the grid: on the row axis each input window's block index is the output's,
    which is the grid point; on the column axis every block index is 0. -/
theorem index_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = 0
    ∧ win3_2.index t (0 : Fin 2) = t.val
    ∧ win3_2.index t (1 : Fin 2) = 0 :=
  (by decide +kernel : ∀ t : Fin grid3.N, _)

/-- What a grid point writes back is its block of the reference's rectified scaled aggregation. -/
theorem flushed_eq (c : Dev nD) (n : FVec Ideal S100000 .f32) (hn : V c main_v12 = Cert.KSpec.colOf n) (t : Fin cfg3.N) :
    (dat3 V c).flushed 2 t = ((cfg3.win 2).blk t).view.read (Elt Ideal)
      (Cert.RefSpec.leaky2 (F := Ideal) (Cert.RefSpec.scaled2 (V c main_v23) n)) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S2000x1) zero_offsets]
  obtain ⟨e0, e1, e2, e3, e4, e5⟩ := index_facts t
  funext j
  show k3_pay1 (iblk3 V c 0 t) (iblk3 V c 1 t) j
    = Cert.RefSpec.leaky2 (F := Ideal) (Cert.RefSpec.scaled2 (V c main_v23) n) (((cfg3.win 2).blk t).view.emb j)
  refine block_entry (iblk3 V c 0 t) (iblk3 V c 1 t) (V c main_v23) n j (((cfg3.win 2).blk t).view.emb j)
    (j 0) (j 1) ((((cfg3.win 2).blk t).view.emb j) 0) ((((cfg3.win 2).blk t).view.emb j) 1) (eq_ix2 j) (eq_ix2 _) ?_ ?_
  · -- the aggregation's block sits where the output's does
    show V c main_v23 (((cfg3.win 0).blk t).view.emb j) = V c main_v23 (((cfg3.win 2).blk t).view.emb j)
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  · -- the column's block holds the rows of the output's block
    show V c main_v12 (((cfg3.win 1).blk t).view.emb (ix2 (j 0) (0 : Fin 1))) = _
    rw [hn]
    have hk : ((cfg3.win 1).blk t).view.emb (ix2 (j 0) (0 : Fin 1)) = ix2 ((((cfg3.win 2).blk t).view.emb j) 0) (0 : Fin 1) := by
      refine funext fun a => Fin.ext ?_
      match a with
      | ⟨0, _⟩ => show win3_1.index t (0 : Fin 2) * 2000 + 1 * (j 0).val = win3_2.index t (0 : Fin 2) * 2000 + 1 * (j 0).val; omega
      | ⟨1, _⟩ => show win3_1.index t (1 : Fin 2) * 1 + 1 * 0 = 0; omega
    rw [hk]
    exact colOf_apply n _

/-! ## The blocks cover the array -/

/-- An index of the array is in a point's block iff each coordinate is in the block's range on its axis. -/
theorem mem_blk (t : Fin cfg3.N) (i : S100000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v24).slice (win3_2.rect t)).set ↔ _
  rw [View.set_slice_whole, Rect.mem_set_unit]
  exact Iff.rfl

/-- Every entry of the array is in some point's block: row r falls in the block of point r / 2000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  obtain ⟨t, ht⟩ : ∃ t : Fin cfg3.N, t.val = (i 0).val / 2000 := ⟨⟨(i 0).val / 2000, by rw [hN]; omega⟩, rfl⟩
  obtain ⟨-, -, -, -, e4, e5⟩ := index_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 64 ≤ (i 1).val ∧ (i 1).val < win3_2.index t (1 : Fin 2) * 64 + 64
    omega

end Region3

/-- Region 3's output array after the run is the reference's rectified scaled aggregation of the region's input array,
    the normaliser column being the reshaped vector n. -/
theorem region3_value (c : Dev nD) (n : FVec Ideal S100000 .f32) (hn : V c main_v12 = Cert.KSpec.colOf n) :
    (dat3 V c).arrAt 2 cfg3.N = Cert.RefSpec.leaky2 (F := Ideal) (Cert.RefSpec.scaled2 (V c main_v23) n) :=
  (dat3 V c).arrAt_eq_of_cover 2 _ (fun t _ => Region3.flushed_eq V c n hn t) Region3.covered

end Cert.KernelIdeal.Val

end
-- ==== Proof.ProjRegion4.lean ====
/-
  What the third projection kernel leaves in its output array: the reference's projection.

  The kernel runs over 50 blocks of 2000 node rows. At a block it multiplies each feature row by the node's normaliser
  (a column entry), and multiplies the scaled block by the whole weight matrix into a zero accumulator; a change of
  float format is the identity on the extended reals. So entry (i, j) of the output array is
  Σ_κ (x(i, κ) · n(i)) · W(κ, j), which is entry (i, j) of the reference's product of the row-scaled features with W.

  In order: the block's product and the reference's product read at an index, each as that sum; the two sums joined
  entry by entry when the block's rows are the array's rows; the place of each window's block in its array (block row
  t for the features, the normaliser column and the output, the whole array for the weights), which makes what point t
  writes back block t of the reference's projection; and the 50 blocks of 2000 rows filling the 100000 rows, so that
  the array after the last point is the projection.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region4

/-- The block's product read at (p, q): the sum over κ of the scaled feature entry times the weight entry. The
    normaliser column, recast to its own shape and broadcast along the row, is its entry in row p; a change of float
    format is the identity; the accumulator is zero. -/
theorem blockProduct_apply (x : Vec Ideal S2000x64 .f32) (nrm : Vec Ideal S2000x1 .f32) (w : Vec Ideal S64x32 .f32)
    (p : Fin 2000) (q : Fin 32) :
    k4_pay1 x nrm w (ix2 p q) = ∑ κ : Fin 64, (x (ix2 p κ) * nrm (ix2 p (0 : Fin 1))) * w (ix2 κ q) := by
  unfold k4_pay1
  simp only [matmul]
  rw [Cert.LibDot.matmul_rows_apply (N := 2000) (K := 64) (M := 32) dot_S2000x64_S64x32_S2000x32_1_0_0_1_n_n rfl rfl rfl rfl rfl rfl]
  rw [constant_apply, Ideal.ofBits_zero_f32, zero_add]
  refine Finset.sum_congr rfl fun κ _ => ?_
  rw [truncf_apply, truncf_apply, mulf_apply]
  have hb : broadcastTo S2000x64 (shapeCast S2000x1 nrm shapeCasts_S2000x1_S2000x1) broadcasts_S2000x1_S2000x64 (ix2 p κ)
      = nrm (ix2 p (0 : Fin 1)) := by
    rw [shapeCast_self]
    refine broadcastTo_apply _ _ _ _ fun a => ?_
    match a with
    | ⟨0, _⟩ => rfl
    | ⟨1, _⟩ => rfl
  rw [hb]
  -- where the block is recast to its own shape before the product, the recast is the identity
  try rw [shapeCast_self]

/-- The reference's projection read at (i, j): the same sum over the whole arrays, the normaliser laid as a column and
    broadcast along the row being its entry at node i. -/
theorem proj_apply (h : FVec Ideal S100000x64 .f32) (W : FVec Ideal S64x32 .f32) (n : FVec Ideal S100000 .f32)
    (i : Fin 100000) (j : Fin 32) :
    Cert.RefSpec.proj3 (F := Ideal) h W n (ix2 i j) = ∑ κ : Fin 64, (h (ix2 i κ) * n (ix1 i)) * W (ix2 κ j) := by
  unfold Cert.RefSpec.proj3
  rw [Cert.LibDot.dot_rows_apply (N := 100000) (K := 64) (M := 32) _ rfl rfl rfl rfl rfl rfl]
  refine Finset.sum_congr rfl fun κ _ => ?_
  rw [mulf_apply]
  have hb : broadcastInDim Cert.ReferenceIdeal.S100000x64 ![0, 1] Cert.ReferenceIdeal.Facts₀.bcast_S100000x1_S100000x64_0_1 (Cert.RefSpec.col (F := Ideal) n) (ix2 i κ)
      = n (ix1 i) := by
    unfold Cert.RefSpec.col
    rw [broadcastInDim_apply _ _ _ (ix2 i κ) (ix2 i (0 : Fin 1)) (fun a => by
      match a with
      | ⟨0, _⟩ => rfl
      | ⟨1, _⟩ => rfl)]
    exact broadcastInDim_apply _ _ _ (ix2 i (0 : Fin 1)) (ix1 i) (fun a => by
      match a with
      | ⟨0, _⟩ => rfl)
  rw [hb]

/-- The zero offsets of a whole-buffer access, as the constant function. -/
theorem zeroOffsets : (![0, 0] : Fin 2 → Nat) = fun _ => 0 := funext fun a => by fin_cases a <;> rfl

/-- The printed index maps over the grid: at point t the feature, normaliser and output windows sit at block row t and
    block column 0, and the weight window at block (0, 0). -/
theorem blockIndex_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- One entry of a block against one entry of the whole arrays: when row (j 0) of the feature block is row (k 0) of the
    feature array, the block's normaliser entry in that row is n at node (k 0), and column (j 1) of the weight block is
    column (k 1) of the weight array, entry j of the block's product is entry k of the reference's projection. -/
theorem blockProduct_eq_proj (x : Vec Ideal S2000x64 .f32) (nrm : Vec Ideal S2000x1 .f32) (w : Vec Ideal S64x32 .f32)
    (h : FVec Ideal S100000x64 .f32) (W : FVec Ideal S64x32 .f32) (n : FVec Ideal S100000 .f32)
    (j : S2000x32.Idx) (k : S100000x32.Idx)
    (hx : ∀ κ : Fin 64, x (ix2 (j 0) κ) = h (ix2 (k 0) κ)) (hnrm : nrm (ix2 (j 0) (0 : Fin 1)) = n (ix1 (k 0)))
    (hw : ∀ κ : Fin 64, w (ix2 κ (j 1)) = W (ix2 κ (k 1))) :
    k4_pay1 x nrm w j = Cert.RefSpec.proj3 (F := Ideal) h W n k := by
  have e1 : k4_pay1 x nrm w j = _ :=
    (congrArg (k4_pay1 x nrm w) (eq_ix2 j)).trans (blockProduct_apply x nrm w (j 0) (j 1))
  have e2 : Cert.RefSpec.proj3 (F := Ideal) h W n k = _ :=
    (congrArg (Cert.RefSpec.proj3 (F := Ideal) h W n) (eq_ix2 k)).trans (proj_apply h W n (k 0) (k 1))
  rw [e1, e2]
  refine Finset.sum_congr rfl fun κ _ => ?_
  rw [hx κ, hnrm, hw κ]

/-- What point t writes back is block t of the reference's projection of the region's input arrays. -/
theorem flushed_eq_proj (c : Dev nD) (n : FVec Ideal S100000 .f32) (hn : V c main_v9 = Cert.KSpec.colOf n) (t : Fin cfg4.N) :
    (dat4 V c).flushed 3 t
      = ((cfg4.win 3).blk t).view.read (Elt Ideal) (Cert.RefSpec.proj3 (F := Ideal) (V c main_v24) (V c main_arg6) n) := by
  show (cfg4.win 3).cut (grid4.coords t) ((dat4 V c).after 3 t) = _
  rw [after4_3]
  unfold out4_3
  rw [View.canon_unit_zero zeroOffsets]
  simp only [View.ld_unit_zero (S := S2000x64) zeroOffsets, View.ld_unit_zero (S := S2000x1) zeroOffsets,
    View.ld_unit_zero (S := S64x32) zeroOffsets]
  obtain ⟨e00, e01, e10, e11, e20, e21, e30, e31⟩ := blockIndex_facts t
  funext j
  show k4_pay1 (iblk4 V c 0 t) (iblk4 V c 2 t) (iblk4 V c 1 t) j
    = Cert.RefSpec.proj3 (F := Ideal) (V c main_v24) (V c main_arg6) n (((cfg4.win 3).blk t).view.emb j)
  refine blockProduct_eq_proj (iblk4 V c 0 t) (iblk4 V c 2 t) (iblk4 V c 1 t) (V c main_v24) (V c main_arg6) n j
    (((cfg4.win 3).blk t).view.emb j) (fun κ => ?_) ?_ (fun κ => ?_)
  · -- the feature block's row is the array's row t · 2000 + (j 0)
    unfold iblk4
    rw [View.read_apply]
    show V c main_v24 _ = V c main_v24 _
    refine congrArg _ (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 64 + 1 * κ.val = κ.val; omega
  · -- the normaliser block's entry in that row is the column's entry there, which is n at the node
    unfold iblk4
    rw [View.read_apply]
    show V c main_v9 _ = _
    rw [hn]
    unfold Cert.KSpec.colOf
    refine shapeCast_apply _ _ _ _ ((Shape.rowMajor_val_one _).trans (Eq.trans ?_ (Shape.rowMajor_val_two _).symm))
    show win4_3.index t (0 : Fin 2) * 2000 + 1 * (j 0).val
      = (win4_2.index t (0 : Fin 2) * 2000 + 1 * (j 0).val) * 1 + (win4_2.index t (1 : Fin 2) * 1 + 1 * 0)
    omega
  · -- the weight block is the whole weight array
    unfold iblk4
    rw [View.read_apply]
    show V c main_arg6 _ = V c main_arg6 _
    refine congrArg _ (funext fun a => Fin.ext ?_)
    match a with
    | ⟨0, _⟩ => show win4_1.index t (0 : Fin 2) * 64 + 1 * κ.val = κ.val; omega
    | ⟨1, _⟩ => show win4_1.index t (1 : Fin 2) * 32 + 1 * (j 1).val = win4_3.index t (1 : Fin 2) * 32 + 1 * (j 1).val; omega

/-- An index of the output array is in point t's block iff each coordinate is in the block's range on its axis. -/
theorem mem_outBlock (t : Fin cfg4.N) (i : S100000x32.Idx) :
    i ∈ ((cfg4.win 3).blk t).view.set ↔ ∀ a : Fin 2, win4_3.index t a * S2000x32.size a ≤ (i a).val
      ∧ (i a).val < win4_3.index t a * S2000x32.size a + S2000x32.size a := by
  show i ∈ ((View.whole main_v25).slice (win4_3.rect t)).set ↔ _
  rw [View.set_slice_whole, Rect.mem_set_unit]
  exact Iff.rfl

/-- Every index of the output array is in the block of the point its row falls in: row r is in block r / 2000, and
    the 50 blocks of 2000 rows are the 100000 rows. -/
theorem outBlocks_cover (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 50 := N_4
  obtain ⟨t, ht⟩ : ∃ t : Fin cfg4.N, t.val = (i 0).val / 2000 := ⟨⟨(i 0).val / 2000, by omega⟩, rfl⟩
  obtain ⟨e00, e01, e10, e11, e20, e21, e30, e31⟩ := blockIndex_facts t
  refine ⟨t, flush4_3 t, ?_⟩
  rw [mem_outBlock]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 32 ≤ (i 1).val ∧ (i 1).val < win4_3.index t (1 : Fin 2) * 32 + 32; omega

end Region4

open Region4

/-- Region 4's output array after the run is the reference's third projection of the region's input arrays, the
    normaliser column being the reshaped vector n. -/
theorem region4_value (c : Dev nD) (n : FVec Ideal S100000 .f32) (hn : V c main_v9 = Cert.KSpec.colOf n) :
    (dat4 V c).arrAt 3 cfg4.N = Cert.RefSpec.proj3 (F := Ideal) (V c main_v24) (V c main_arg6) n := by
  exact (dat4 V c).arrAt_eq_of_cover 3 (Cert.RefSpec.proj3 (F := Ideal) (V c main_v24) (V c main_arg6) n)
    (fun t _ => flushed_eq_proj V c n hn t) outBlocks_cover

end Cert.KernelIdeal.Val

end
-- ==== Proof.PostRegion5.lean ====
/-
  What the third post-processing kernel leaves in its output array: the reference's scaled and rectified rows.

  The kernel runs over 50 blocks of 2000 node rows. At a block it multiplies each aggregated row by the node's
  normaliser (a column entry) and applies v ↦ v where v ≥ 0, else 0.01 · v, entry by entry. So entry (i, j) of the
  output array is leaky(mm(i, j) · n(i)), the reference's entry.

  The proof reads both sides at one entry. The body's arithmetic at entry (p, q) of a block is
  leak(x0(p, q) · x1(p, 0)), and the reference's array at entry (r, q) is leak(mm(r, q) · n(r)), where leak is the
  rectifier with the slope's word left as it is printed on both sides: a scalar broadcast over a block and a rank-0
  constant broadcast over the array read the same word at every index, and a column broadcast along its rows
  reads the column's entry of the row. Block t of each window starts at row 2000 · t, so entry (p, q) of the blocks
  at point t is entry (2000 · t + p, q) of the arrays, and the column's block holds the same rows; hence point t writes
  back block t of the reference's array. Row r lies in block r / 2000, so the 50 blocks cover the array, which
  therefore ends holding the reference's array.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

namespace Region5

/-! ## One entry of each side -/

/-- The rectifier on one entry: v where v ≥ 0, else the slope times v. -/
def leak (v : Ideal .f32) : Ideal .f32 :=
  Scalar.select (FloatOps.cmpf .oge v (FloatOps.ofBits .f32 0x00000000#32)) v
    (FloatOps.mulf (FloatOps.ofBits .f32 0x3C23D70A#32) v)

/-- A column broadcast along its rows reads, at (p, q), the column's entry p. -/
theorem broadcastTo_col_apply {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at an entry of its block: the rectifier of the aggregated entry times the row's normaliser. -/
theorem pay_apply (x0 : Vec Ideal S2000x32 .f32) (x1 : Vec Ideal S2000x1 .f32) (p : Fin 2000) (q : Fin 32) :
    k5_pay1 x0 x1 (ix2 p q) = leak (x0 (ix2 p q) * x1 (ix2 p (0 : Fin 1))) := by
  unfold k5_pay1
  simp only [shapeCast_self]
  simp only [select_apply, cmpf_apply, mulf_apply, broadcast_apply, broadcastTo_col_apply]
  rfl

/-- A vector laid as a column by a reshape reads, at (r, 0), the vector's entry r. -/
theorem colOf_apply (n : FVec Ideal S100000 .f32) (r : Fin 100000) :
    Cert.KSpec.colOf n (ix2 r (0 : Fin 1)) = n (ix1 r) := by
  unfold Cert.KSpec.colOf
  refine shapeCast_apply n _ (ix2 r (0 : Fin 1)) (ix1 r) ?_
  rw [Shape.rowMajor_val_one, Shape.rowMajor_val_two]
  show r.val = r.val * 1 + 0
  omega

/-- A vector laid as a column by a broadcast reads, at (p, z), the vector's entry p. -/
theorem bcast_vec_col_apply {a : ℕ} {α : Type} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A column broadcast along its rows by the host reads, at (p, q), the column's entry p. -/
theorem bcast_col_apply {a b : ℕ} {α : Type} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- The reference's rectified scaled aggregation at an entry: the rectifier of the aggregated entry times the
    row's normaliser. -/
theorem ref_apply (mm : FVec Ideal Cert.ReferenceIdeal.S100000x32 .f32) (n : FVec Ideal Cert.ReferenceIdeal.S100000 .f32) (r : Fin 100000) (q : Fin 32) :
    Cert.RefSpec.leaky3 (F := Ideal) (Cert.RefSpec.scaled3 mm n) (ix2 r q) = leak (mm (ix2 r q) * n (ix1 r)) := by
  have e : broadcastInDim Cert.ReferenceIdeal.S100000x32 ![0, 1] Cert.ReferenceIdeal.Facts₀.bcast_S100000x1_S100000x32_0_1 (Cert.RefSpec.col n) (ix2 r q) = n (ix1 r) :=
    (bcast_col_apply _ _ r q).trans (bcast_vec_col_apply _ _ r 0)
  unfold Cert.RefSpec.leaky3 Cert.RefSpec.scaled3
  simp only [select_apply, cmpf_apply, mulf_apply, e]
  rfl

/-- The body's result at a block entry is the reference's entry, when the block of the aggregation holds the
    aggregation's entry there and the block of the column holds the row's normaliser. -/
theorem block_entry (x0 : Vec Ideal S2000x32 .f32) (x1 : Vec Ideal S2000x1 .f32)
    (mm : FVec Ideal S100000x32 .f32) (n : FVec Ideal S100000 .f32) (j : S2000x32.Idx) (i : S100000x32.Idx)
    (p : Fin 2000) (q : Fin 32) (r : Fin 100000) (s : Fin 32) (hj : j = ix2 p q) (hi : i = ix2 r s)
    (h0 : x0 j = mm i) (h1 : x1 (ix2 p (0 : Fin 1)) = n (ix1 r)) :
    k5_pay1 x0 x1 j = Cert.RefSpec.leaky3 (F := Ideal) (Cert.RefSpec.scaled3 mm n) i := by
  subst hj hi
  rw [pay_apply, ref_apply, h0, h1]

/-! ## What a grid point writes back -/

/-- The body's one store covers its buffer from the origin. -/
theorem zero_offsets : (![0, 0] : Fin 2 → Nat) = fun _ => 0 := funext fun a => by fin_cases a <;> rfl

/-- The printed index maps, decided over the grid: on the row axis each input window's block index is the output's,
    which is the grid point; on the column axis every block index is 0. -/
theorem index_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = 0
    ∧ win5_2.index t (0 : Fin 2) = t.val
    ∧ win5_2.index t (1 : Fin 2) = 0 :=
  (by decide +kernel : ∀ t : Fin grid5.N, _)

/-- What a grid point writes back is its block of the reference's rectified scaled aggregation. -/
theorem flushed_eq (c : Dev nD) (n : FVec Ideal S100000 .f32) (hn : V c main_v12 = Cert.KSpec.colOf n) (t : Fin cfg5.N) :
    (dat5 V c).flushed 2 t = ((cfg5.win 2).blk t).view.read (Elt Ideal)
      (Cert.RefSpec.leaky3 (F := Ideal) (Cert.RefSpec.scaled3 (V c main_v29) n)) := by
  show (cfg5.win 2).cut (grid5.coords t) ((dat5 V c).after 2 t) = _
  rw [after5_2]
  unfold out5_2
  rw [View.canon_unit_zero zero_offsets]
  simp only [View.ld_unit_zero (S := S2000x32) zero_offsets, View.ld_unit_zero (S := S2000x1) zero_offsets]
  obtain ⟨e0, e1, e2, e3, e4, e5⟩ := index_facts t
  funext j
  show k5_pay1 (iblk5 V c 0 t) (iblk5 V c 1 t) j
    = Cert.RefSpec.leaky3 (F := Ideal) (Cert.RefSpec.scaled3 (V c main_v29) n) (((cfg5.win 2).blk t).view.emb j)
  refine block_entry (iblk5 V c 0 t) (iblk5 V c 1 t) (V c main_v29) n j (((cfg5.win 2).blk t).view.emb j)
    (j 0) (j 1) ((((cfg5.win 2).blk t).view.emb j) 0) ((((cfg5.win 2).blk t).view.emb j) 1) (eq_ix2 j) (eq_ix2 _) ?_ ?_
  · -- the aggregation's block sits where the output's does
    show V c main_v29 (((cfg5.win 0).blk t).view.emb j) = V c main_v29 (((cfg5.win 2).blk t).view.emb j)
    refine congrArg _ (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 32 + 1 * (j 1).val = win5_2.index t (1 : Fin 2) * 32 + 1 * (j 1).val; omega
  · -- the column's block holds the rows of the output's block
    show V c main_v12 (((cfg5.win 1).blk t).view.emb (ix2 (j 0) (0 : Fin 1))) = _
    rw [hn]
    have hk : ((cfg5.win 1).blk t).view.emb (ix2 (j 0) (0 : Fin 1)) = ix2 ((((cfg5.win 2).blk t).view.emb j) 0) (0 : Fin 1) := by
      refine funext fun a => Fin.ext ?_
      match a with
      | ⟨0, _⟩ => show win5_1.index t (0 : Fin 2) * 2000 + 1 * (j 0).val = win5_2.index t (0 : Fin 2) * 2000 + 1 * (j 0).val; omega
      | ⟨1, _⟩ => show win5_1.index t (1 : Fin 2) * 1 + 1 * 0 = 0; omega
    rw [hk]
    exact colOf_apply n _

/-! ## The blocks cover the array -/

/-- An index of the array is in a point's block iff each coordinate is in the block's range on its axis. -/
theorem mem_blk (t : Fin cfg5.N) (i : S100000x32.Idx) :
    i ∈ ((cfg5.win 2).blk t).view.set ↔ ∀ a : Fin 2, win5_2.index t a * S2000x32.size a ≤ (i a).val
      ∧ (i a).val < win5_2.index t a * S2000x32.size a + S2000x32.size a := by
  show i ∈ ((View.whole main_v30).slice (win5_2.rect t)).set ↔ _
  rw [View.set_slice_whole, Rect.mem_set_unit]
  exact Iff.rfl

/-- Every entry of the array is in some point's block: row r falls in the block of point r / 2000. -/
theorem covered (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, e4, e5⟩ := index_facts t
  refine ⟨t, flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 32 ≤ (i 1).val ∧ (i 1).val < win5_2.index t (1 : Fin 2) * 32 + 32
    omega

end Region5

/-- Region 5's output array after the run is the reference's rectified scaled aggregation of the region's input array,
    the normaliser column being the reshaped vector n. -/
theorem region5_value (c : Dev nD) (n : FVec Ideal S100000 .f32) (hn : V c main_v12 = Cert.KSpec.colOf n) :
    (dat5 V c).arrAt 2 cfg5.N = Cert.RefSpec.leaky3 (F := Ideal) (Cert.RefSpec.scaled3 (V c main_v29) n) :=
  (dat5 V c).arrAt_eq_of_cover 2 _ (fun t _ => Region5.flushed_eq V c n hn t) Region5.covered

end Cert.KernelIdeal.Val

end
-- ==== Proof.PoolAlgebra.lean ====
/-
  Pooling by a 0/1 table is pooling by adding at the graph id.

  With T(n, g) = 1 where node n's graph id is g and 0 elsewhere, Σ_n T(n, g) · h(n, d) is the sum of h(n, d) over the
  nodes n whose graph id is g: 1 · x = x and 0 · x = 0 for every extended real x, infinite ones included, so no
  finiteness is needed. That is what adding row n at graph id gid(n), node by node, leaves at (g, d); an id outside
  [0, 64) matches no column of the table and lands on no row of the sum. In the same way the column sums of T count
  the nodes of each graph, as adding a 1 at each node's graph id does.
-/
import proofs.«430338_j52458730553357_1_alg».proof.Proof.Gen.KernelIdeal
import proofs.«430338_j52458730553357_1_alg».proof.Proof.Gen.ReferenceIdeal
import proofs.«430338_j52458730553357_1_alg».proof.Proof.RefSpec
import proofs.«430338_j52458730553357_1_alg».proof.Proof.KSpec
import Idealize.ShloMosaic.PureOps.Ideal
import Idealize.ShloMosaic.PureOps.Ideal.Laws
import Idealize.ShloMosaic.Lib.ValueIdx
import Idealize.ShloMosaic.Lib.StableHlo.Predicate

noncomputable section

namespace Cert.KSpec

open Idealize.ShloMosaic Idealize.ShloMosaic.ValueIdx Cert.KernelIdeal
open scoped BigOperators

namespace PoolAlgebra

/-! ## Indices and words -/

/-- The rank-1 index at a coordinate, in its two spellings. -/
theorem ofFin_eq_ix1 {n : Nat} (p : Fin n) : Shape.Idx.ofFin p = ix1 p := by
  funext a
  match a with
  | ⟨0, _⟩ => rfl

/-- Row p of a one-column rectangle, in its two spellings. -/
theorem ixP_eq_ix2 {n : Nat} (p : Fin n) : StableHlo.Predicate.ixP p = ix2 p (0 : Fin 1) := by
  funext a
  match a with
  | ⟨0, _⟩ => rfl
  | ⟨1, _⟩ => rfl

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A 32-bit word read signed equals a small natural number exactly when it is that number's word: reading signed is
    injective, and a number below 2³¹ reads back as itself. -/
theorem toInt_eq_small_iff (w : BitVec 32) (g : Nat) (hg : g < 2 ^ 31) :
    w.toInt = (g : Int) ↔ w = BitVec.ofNat 32 g := by
  constructor
  · intro e
    apply BitVec.eq_of_toInt_eq
    rw [e, StableHlo.Predicate.toInt_ofNat_small g hg]
  · rintro rfl
    exact StableHlo.Predicate.toInt_ofNat_small g hg

/-- The f32 word of 1.0 is the extended real 1. -/
theorem ofBits_one_f32 : Ideal.ofBits .f32 0x3F800000#32 = 1 := by
  simp [Ideal.ofBits, Ideal.ieee, -EReal.coe_mul]; norm_num

/-- The graph ids laid as a column read, at row n, node n's id. -/
theorem idcol_apply (gid : IVec S100000 32) (n : Fin 100000) :
    broadcastInDim S100000x1 ![0] Cert.ReferenceIdeal.Facts₀.bcast_S100000_S100000x1_0 gid (ix2 n (0 : Fin 1)) = gid (ix1 n) := by
  rw [← ixP_eq_ix2, StableHlo.Predicate.bcast_col1, ofFin_eq_ix1]

/-! ## The 0/1 table at an entry -/

/-- The table at (n, g) is 1 when node n's id is the word of g, else 0: the id column broadcast along the rows is
    compared with the column number broadcast down the columns, and the one-bit answer is read as a number. -/
theorem onehot_apply (gid : IVec S100000 32) (n : Fin 100000) (g : Fin 64) :
    onehot (F := Ideal) gid (ix2 n g) = if gid (ix1 n) = BitVec.ofNat 32 g.val then 1 else 0 := by
  have hA : broadcastInDim S100000x64 ![0, 1] Facts₀.bcast_S100000x1_S100000x64_0_1
      (broadcastInDim S100000x1 ![0] Facts₀.bcast_S100000_S100000x1_0 gid) (ix2 n g) = gid (ix1 n) :=
    (StableHlo.Predicate.bcast_rows _ _ gid n g).trans (congrArg gid (ofFin_eq_ix1 n))
  have hB : broadcastInDim S100000x64 ![0, 1] Facts₀.bcast_S1x64_S100000x64_0_1 (iotaInDim S1x64 32 1) (ix2 n g)
      = BitVec.ofNat 32 g.val :=
    StableHlo.Predicate.bcast_of_row _ _ n g
  show (((IntOp.cmpi .eq
      (broadcastInDim S100000x64 ![0, 1] Facts₀.bcast_S100000x1_S100000x64_0_1
        (broadcastInDim S100000x1 ![0] Facts₀.bcast_S100000_S100000x1_0 gid) (ix2 n g))
      (broadcastInDim S100000x64 ![0, 1] Facts₀.bcast_S1x64_S100000x64_0_1 (iotaInDim S1x64 32 1) (ix2 n g))).toNat : ℝ) : EReal) = _
  rw [hA, hB]
  by_cases hc : gid (ix1 n) = BitVec.ofNat 32 g.val
  · rw [if_pos hc, StableHlo.Predicate.cmpi_eq_iff.mpr hc]; simp
  · rw [if_neg hc, eq_zero_of_ne_one (fun h => hc (StableHlo.Predicate.cmpi_eq_iff.mp h))]; simp

/-! ## Where an added row lands

The scatter of the rows has one scattered axis (the operand's rows, named by the index column) and one window axis
(the 32 row entries). Update (n, d') starts at row idx(n, 0), read signed, and at column 0, and moves d' along the
columns: it lands at (idx(n, 0), d') when 0 ≤ idx(n, 0) < 64 and nowhere otherwise. -/

/-- The dimension numbers of the scatter that adds the node rows. -/
abbrev rowD := Cert.ReferenceIdeal.scatter_S64x32_S100000x1_S100000x32_1_0_0_1

/-- On the row axis an update starts at the signed id of its node. -/
theorem rowD_start0 {w : Nat} (j : S100000x32.Idx) (idx : IVec S100000x1 w) :
    rowD.start j idx (0 : Fin 2) = (idx (ix2 (j 0) (0 : Fin 1))).toInt := by
  show (idx (rowD.siIdx j ⟨0, Nat.one_pos⟩)).toInt = _
  congr 2
  funext b
  match b with
  | ⟨0, _⟩ => rfl
  | ⟨1, _⟩ => rfl

/-- On the column axis an update starts at 0. -/
theorem rowD_start1 {w : Nat} (j : S100000x32.Idx) (idx : IVec S100000x1 w) :
    rowD.start j idx (1 : Fin 2) = 0 := rfl

/-- The row axis is inserted: no window coordinate there. -/
theorem rowD_window0 (j : S100000x32.Idx) : rowD.window j (0 : Fin 2) = 0 := rfl

/-- The window coordinate on the column axis is the update's own column. -/
theorem rowD_window1 (j : S100000x32.Idx) : rowD.window j (1 : Fin 2) = (j 1).val := rfl

/-- Update j lands at i exactly when its node's id, read signed, is i's row and its column is i's column. An id outside
    [0, 64) equals no row number, so such an update lands nowhere. -/
theorem rowD_lands {w : Nat} (idx : IVec S100000x1 w) (j : S100000x32.Idx) (i : S64x32.Idx) :
    rowD.resultIdx? j idx = some i ↔ (idx (ix2 (j 0) (0 : Fin 1))).toInt = ((i 0).val : Int) ∧ j 1 = i 1 := by
  have hs0 := rowD_start0 j idx
  have hs1 := rowD_start1 j idx
  have hw0 := rowD_window0 j
  have hw1 := rowD_window1 j
  have hi0 : (i 0).val < 64 := (i 0).isLt
  have hi1 : (i 1).val < 32 := (i 1).isLt
  have hj1 : (j 1).val < 32 := (j 1).isLt
  unfold ScatterDims.resultIdx?
  split
  · next h =>
    -- in range on both axes: the landing index is (start + window) on each, compared coordinate by coordinate
    constructor
    · intro e
      have e' := Option.some.inj e
      have e0 : (rowD.start j idx 0 + rowD.window j 0).toNat = (i 0).val := congrArg Fin.val (congrFun e' 0)
      have e1 : (rowD.start j idx 1 + rowD.window j 1).toNat = (i 1).val := congrArg Fin.val (congrFun e' 1)
      have h0 := h 0
      rw [hs0, hw0] at e0 h0
      rw [hs1, hw1] at e1
      exact ⟨by omega, Fin.ext (by omega)⟩
    · rintro ⟨e0, e1⟩
      congr 1
      funext a
      match a with
      | ⟨0, _⟩ =>
        apply Fin.ext
        show (rowD.start j idx 0 + rowD.window j 0).toNat = (i 0).val
        rw [hs0, hw0]; omega
      | ⟨1, _⟩ =>
        apply Fin.ext
        show (rowD.start j idx 1 + rowD.window j 1).toNat = (i 1).val
        rw [hs1, hw1, ← e1]; omega
  · next h =>
    -- out of range on some axis: nothing lands, and the right side would put both axes in range
    constructor
    · intro e; exact absurd e (by simp)
    · rintro ⟨e0, e1⟩
      exfalso; apply h
      intro a
      match a with
      | ⟨0, _⟩ =>
        show 0 ≤ rowD.start j idx 0 + rowD.window j 0 ∧ rowD.start j idx 0 + rowD.window j 0 < (64 : Nat)
        rw [hs0, hw0]; omega
      | ⟨1, _⟩ =>
        show 0 ≤ rowD.start j idx 1 + rowD.window j 1 ∧ rowD.start j idx 1 + rowD.window j 1 < (32 : Nat)
        rw [hs1, hw1]; omega

/-! ## Where an added 1 lands

The scatter of the ones has the same scattered axis and no window axis: update n lands at idx(n, 0), read signed, when
that is in [0, 64), and nowhere otherwise. -/

/-- The dimension numbers of the scatter that adds a 1 per node. -/
abbrev cntD := Cert.ReferenceIdeal.scatter_S64_S100000x1_S100000_n_0_0_1

/-- An update starts at the signed id of its node. -/
theorem cntD_start0 {w : Nat} (j : S100000.Idx) (idx : IVec S100000x1 w) :
    cntD.start j idx (0 : Fin 1) = (idx (ix2 (j 0) (0 : Fin 1))).toInt := by
  show (idx (cntD.siIdx j ⟨0, Nat.one_pos⟩)).toInt = _
  congr 2
  funext b
  match b with
  | ⟨0, _⟩ => rfl
  | ⟨1, _⟩ => rfl

/-- The one operand axis is inserted: no window coordinate. -/
theorem cntD_window0 (j : S100000.Idx) : cntD.window j (0 : Fin 1) = 0 := rfl

/-- Update j lands at i exactly when its node's id, read signed, is i's position. -/
theorem cntD_lands {w : Nat} (idx : IVec S100000x1 w) (j : S100000.Idx) (i : S64.Idx) :
    cntD.resultIdx? j idx = some i ↔ (idx (ix2 (j 0) (0 : Fin 1))).toInt = ((i 0).val : Int) := by
  have hs0 := cntD_start0 j idx
  have hw0 := cntD_window0 j
  have hi0 : (i 0).val < 64 := (i 0).isLt
  unfold ScatterDims.resultIdx?
  split
  · next h =>
    constructor
    · intro e
      have e' := Option.some.inj e
      have e0 : (cntD.start j idx 0 + cntD.window j 0).toNat = (i 0).val := congrArg Fin.val (congrFun e' 0)
      have h0 := h 0
      rw [hs0, hw0] at e0 h0
      omega
    · intro e0
      congr 1
      funext a
      match a with
      | ⟨0, _⟩ =>
        apply Fin.ext
        show (cntD.start j idx 0 + cntD.window j 0).toNat = (i 0).val
        rw [hs0, hw0]; omega
  · next h =>
    constructor
    · intro e; exact absurd e (by simp)
    · intro e0
      exfalso; apply h
      intro a
      match a with
      | ⟨0, _⟩ =>
        show 0 ≤ cntD.start j idx 0 + cntD.window j 0 ∧ cntD.start j idx 0 + cntD.window j 0 < (64 : Nat)
        rw [hs0, hw0]; omega

end PoolAlgebra

open PoolAlgebra

/-! ## The two statements -/

/-- The pooled value at (g, d) as a plain sum over the nodes of table entry times row entry. -/
def poolAt (h : FVec Ideal S100000x32 .f32) (oh : FVec Ideal S100000x64 .f32) (g : Fin 64) (d : Fin 32) : EReal :=
  ∑ n : Fin 100000, oh (ix2 n g) * h (ix2 n d)

/-- The reference's pooled array at (g, d) is the sum over the nodes of the 0/1 table times the row. -/
theorem pooled_apply (h : FVec Ideal S100000x32 .f32) (gid : IVec S100000 32) (g : Fin 64) (d : Fin 32) :
    Cert.RefSpec.pooled (F := Ideal) h gid (ix2 g d) = poolAt h (onehot (F := Ideal) gid) g d := by
  classical
  unfold Cert.RefSpec.pooled Host.scatterAdd poolAt
  rw [Ideal.hostScatterAdd_def]
  unfold Ideal.hostScatterAdd
  -- the operand is the zero array; the sum over the landing updates is a sum over all (n, d') of an if
  have hz : broadcastInDim S64x32 ![] Cert.ReferenceIdeal.Facts₀.bcast_S_S64x32 (constant (F := Ideal) S_ .f32 0x00000000#32) (ix2 g d) = 0 :=
    Ideal.ofBits_zero_f32
  rw [hz, zero_add, Finset.sum_filter, sum_idx2]
  -- node by node: the inner sum over d' keeps the one term d' = d when the node's id is g, and nothing otherwise
  refine Finset.sum_congr rfl fun n _ => ?_
  rw [onehot_apply]
  have hl : ∀ d' : Fin 32,
      (rowD.resultIdx? (ix2 n d') (broadcastInDim S100000x1 ![0] Cert.ReferenceIdeal.Facts₀.bcast_S100000_S100000x1_0 gid) = some (ix2 g d))
        ↔ (gid (ix1 n) = BitVec.ofNat 32 g.val ∧ d' = d) := by
    intro d'
    rw [rowD_lands]
    show (broadcastInDim S100000x1 ![0] Cert.ReferenceIdeal.Facts₀.bcast_S100000_S100000x1_0 gid (ix2 n (0 : Fin 1))).toInt = (g.val : Int) ∧ d' = d ↔ _
    rw [idcol_apply, toInt_eq_small_iff _ _ (by have := g.isLt; omega)]
  simp only [hl]
  -- 1 · x = x and 0 · x = 0 in the extended reals
  by_cases hc : gid (ix1 n) = BitVec.ofNat 32 g.val
  · simp [hc]
  · simp [hc]

/-- The column sums of the 0/1 table are the reference's node counts. -/
theorem cnt_eq (gid : IVec S100000 32) : cnt (F := Ideal) gid = Cert.RefSpec.counts (F := Ideal) gid := by
  classical
  funext i
  obtain ⟨g, rfl⟩ : ∃ g, i = ix1 g := ⟨i 0, eq_ix1 i⟩
  have hR : Shape.Reduces S100000x64 [0] S64 := by decide
  unfold cnt Cert.RefSpec.counts Host.reduceAdd Host.scatterAdd
  -- left: 0 plus the sum down column g of the table; right: 0 plus the sum of a 1 per update landing at g
  rw [Ideal.hostReduceAdd_def, Ideal.hostScatterAdd_def, Ideal.hostReduceAdd_single _ hR]
  unfold Ideal.hostScatterAdd
  have hz : broadcastInDim S64 ![] Cert.ReferenceIdeal.Facts₀.bcast_S_S64 (constant (F := Ideal) S_ .f32 0x00000000#32) (ix1 g) = 0 :=
    Ideal.ofBits_zero_f32
  have hz' : constant (F := Ideal) S_ .f32 0x00000000#32 (Shape.Idx.first Facts₀.h_S_) = 0 := Ideal.ofBits_zero_f32
  rw [hz, hz', zero_add, zero_add, Finset.sum_filter, sum_idx1]
  show (∑ k : Fin 100000, onehot (F := Ideal) gid (hR.lift (ix1 g) k)) = _
  -- node by node: both sides are 1 when the node's id is g and 0 otherwise
  refine Finset.sum_congr rfl fun n _ => ?_
  have hlift : hR.lift (ix1 g) n = ix2 n g := by
    funext a
    match a with
    | ⟨0, _⟩ => exact Fin.ext rfl
    | ⟨1, _⟩ => exact Fin.ext rfl
  rw [hlift, onehot_apply]
  have hl : (cntD.resultIdx? (ix1 n) (broadcastInDim S100000x1 ![0] Cert.ReferenceIdeal.Facts₀.bcast_S100000_S100000x1_0 gid) = some (ix1 g))
      ↔ gid (ix1 n) = BitVec.ofNat 32 g.val := by
    rw [cntD_lands]
    show (broadcastInDim S100000x1 ![0] Cert.ReferenceIdeal.Facts₀.bcast_S100000_S100000x1_0 gid (ix2 n (0 : Fin 1))).toInt = (g.val : Int) ↔ _
    rw [idcol_apply, toInt_eq_small_iff _ _ (by have := g.isLt; omega)]
  have h1 : broadcastInDim S100000 ![] Cert.ReferenceIdeal.Facts₀.bcast_S_S100000 (constant (F := Ideal) S_ .f32 0x3F800000#32) (ix1 n) = 1 :=
    ofBits_one_f32
  simp only [hl, h1]

end Cert.KSpec

end
-- ==== Proof.PoolRegion.lean ====
/-
  What the pooling kernel leaves in its output array: the reference's pooled rows.

  The kernel runs over 50 blocks of 2000 nodes with ONE output block, kept between the points: at the first point it
  is reset to zero, and at every point the product of the block's 0/1 table, transposed, with the block's node rows
  is added to it. After the last point entry (g, d) is 0 + Σ over the blocks of Σ over the block's nodes of
  T(n, g) · h(n, d), that is Σ over all nodes, which is the reference's pooled entry.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«430338_j52458730553357_1_alg».proof.Proof.PoolAlgebra

set_option maxRecDepth 16384

noncomputable section

namespace Cert.KernelIdeal.Val

open Idealize.ShloMosaic Idealize.ShloMosaic.TcCoe Idealize.SL.Sem Idealize.ShloMosaic.StableHlo
open Idealize.ShloMosaic.Pipeline (Dat Cfg Window)
open Cert.KernelIdeal Cert.KernelIdeal.Gen

open Idealize.ShloMosaic.ValueIdx
open scoped BigOperators

/-- Offsets (0, 0) are the zero offsets. -/
theorem pool_offsets_zero : (![0, 0] : Fin 2 → Nat) = fun _ => 0 := funext fun a => by fin_cases a <;> rfl

/-! ## What one point leaves in the output block, for any values -/

section Pieces
variable {F : FTy → Type} [FloatOps F]

/-- A point other than the first: one store covers the block, the update of what the block held on entry by the
    two input blocks. -/
theorem out6_B_eq (c : Dev nD) (i : grid6.Coords) (a1 : Memref sig .tc .vmem S2000x32 .f32) (h1 : a1.IsWhole)
    (a2 : Memref sig .tc .vmem S2000x64 .f32) (h2 : a2.IsWhole) (a3 : Memref sig .tc .vmem S64x32 .f32) (h3 : a3.IsWhole)
    (hc : ¬cond6_0 i) (x0 : Vec F S2000x32 .f32) (x1 : Vec F S2000x64 .f32) (xo : Vec F S64x32 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero pool_offsets_zero]
  simp only [View.readAt_eq_ld, h1.read_unread, h2.read_unread, h3.read_unread, View.ld_unit_zero (S := S2000x32) pool_offsets_zero,
    View.ld_unit_zero (S := S2000x64) pool_offsets_zero, View.ld_unit_zero (S := S64x32) pool_offsets_zero]

/-- The first point: the zero block is stored, read back whole, and updated by the two input blocks; the later
    store covers the earlier one. -/
theorem out6_A_eq (c : Dev nD) (i : grid6.Coords) (a1 : Memref sig .tc .vmem S2000x32 .f32) (h1 : a1.IsWhole)
    (a2 : Memref sig .tc .vmem S2000x64 .f32) (h2 : a2.IsWhole) (a3 : Memref sig .tc .vmem S64x32 .f32) (h3 : a3.IsWhole)
    (hc : cond6_0 i) (x0 : Vec F S2000x32 .f32) (x1 : Vec F S2000x64 .f32) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x32) pool_offsets_zero, View.readCov_unit_zero (S := S64x32) _ pool_offsets_zero]
  simp only [View.readAt_eq_ld, h1.read_unread, h2.read_unread, View.ld_unit_zero (S := S2000x32) pool_offsets_zero,
    View.ld_unit_zero (S := S2000x64) pool_offsets_zero, View.ld_unit_zero (S := S64x32) pool_offsets_zero]

end Pieces

/-! ## The two payloads at an entry, over the extended reals -/

/-- The reset block is zero at every entry. -/
theorem k6_pay1_apply (j : S64x32.Idx) : k6_pay1 (F := Ideal) j = 0 := by
  unfold k6_pay1
  exact Ideal.ofBits_zero_f32

/-- The update at (g, d): the old entry plus the sum over the block's nodes of table entry times row entry. The
    narrowing of the operands changes no extended real, the transposed table at (g, κ) is the table at (κ, g), and
    the product starts from the zero block. -/
theorem k6_pay2_apply (x0 : Vec Ideal S2000x32 .f32) (x1 : Vec Ideal S2000x64 .f32) (acc : Vec Ideal S64x32 .f32)
    (g : Fin 64) (d : Fin 32) :
    k6_pay2 x0 x1 acc (ix2 g d) = acc (ix2 g d) + ∑ κ : Fin 2000, x1 (ix2 κ g) * x0 (ix2 κ d) := by
  unfold k6_pay2
  simp only [shapeCast_self]
  refine (addf_apply _ _ _).trans (congrArg (acc (ix2 g d) + ·) ?_)
  refine (Cert.LibDot.matmul_rows_apply dot_S64x2000_S2000x32_S64x32_1_0_0_1_n_n rfl rfl rfl rfl rfl rfl none
    _ _ _ g d).trans ?_
  refine (congrArg (· + _) Ideal.ofBits_zero_f32).trans ((zero_add _).trans ?_)
  refine Finset.sum_congr rfl fun κ _ => ?_
  refine congrArg (· * x0 (ix2 κ d)) ?_
  exact transpose_apply [1, 0] _ transposes_S2000x64_p1_0_S64x2000 (ix2 g κ) (ix2 κ g)
    (fun b => by fin_cases b <;> rfl)

/-! ## The input blocks as parts of the two arrays -/

variable (V : (c : Dev nD) → (b : Ref sig .tc) → Buf (Elt Ideal) ((c : Thread nD τ).loc b))

/-- The node rows and the 0/1 table as the region finds them, -/
abbrev poolRows (c : Dev nD) : Vec Ideal S100000x32 .f32 := V c main_v30
abbrev poolTable (c : Dev nD) : Vec Ideal S100000x64 .f32 := V c main_v31
/-- and their blocks at a point. -/
abbrev poolRowsBlk (c : Dev nD) (t : Fin cfg6.N) : Vec Ideal S2000x32 .f32 := iblk6 V c 0 t
abbrev poolTableBlk (c : Dev nD) (t : Fin cfg6.N) : Vec Ideal S2000x64 .f32 := iblk6 V c 1 t

/-- Both inputs' block index at point t is (t, 0). -/
theorem pool_index_in : ∀ t : Fin cfg6.N, (win6_0.index t 0 = t.val ∧ win6_0.index t 1 = 0)
    ∧ (win6_1.index t 0 = t.val ∧ win6_1.index t 1 = 0) :=
  (by decide +kernel : ∀ t : Fin grid6.N, (win6_0.index t 0 = t.val ∧ win6_0.index t 1 = 0)
    ∧ (win6_1.index t 0 = t.val ∧ win6_1.index t 1 = 0))

/-- Row r of the rows' block at point t is row r + 2000 · t of the array. -/
theorem poolRowsBlk_apply (c : Dev nD) (t : Fin cfg6.N) (r : Fin 2000) (d : Fin 32) (n : Fin 100000)
    (hn : n.val = r.val + 2000 * t.val) : poolRowsBlk V c t (ix2 r d) = poolRows V c (ix2 n d) := by
  show iblk6 V c 0 t (ix2 r d) = V c main_v30 (ix2 n d)
  unfold iblk6
  rw [View.read_apply]
  show V c main_v30 _ = V c main_v30 _
  congr 1
  funext a
  apply Fin.ext
  match a with
  | ⟨0, _⟩ =>
    show win6_0.index t 0 * 2000 + 1 * r.val = n.val
    rw [(pool_index_in t).1.1, hn]; omega
  | ⟨1, _⟩ =>
    show win6_0.index t 1 * 32 + 1 * d.val = d.val
    rw [(pool_index_in t).1.2]; omega

/-- Row r of the table's block at point t is row r + 2000 · t of the table. -/
theorem poolTableBlk_apply (c : Dev nD) (t : Fin cfg6.N) (r : Fin 2000) (g : Fin 64) (n : Fin 100000)
    (hn : n.val = r.val + 2000 * t.val) : poolTableBlk V c t (ix2 r g) = poolTable V c (ix2 n g) := by
  show iblk6 V c 1 t (ix2 r g) = V c main_v31 (ix2 n g)
  unfold iblk6
  rw [View.read_apply]
  show V c main_v31 _ = V c main_v31 _
  congr 1
  funext a
  apply Fin.ext
  match a with
  | ⟨0, _⟩ =>
    show win6_1.index t 0 * 2000 + 1 * r.val = n.val
    rw [(pool_index_in t).2.1, hn]; omega
  | ⟨1, _⟩ =>
    show win6_1.index t 1 * 64 + 1 * g.val = g.val
    rw [(pool_index_in t).2.2]; omega

/-! ## The running sum over the points -/

/-- The nodes of block s summed at (g, d); zero past the last block. -/
def poolBlockTerm (c : Dev nD) (g : Fin 64) (d : Fin 32) (s : ℕ) : EReal :=
  if hs : s < 50 then
    ∑ r : Fin 2000, poolTable V c (ix2 (⟨r.val + 2000 * s, by have := r.isLt; omega⟩ : Fin 100000) g)
      * poolRows V c (ix2 (⟨r.val + 2000 * s, by have := r.isLt; omega⟩ : Fin 100000) d)
  else 0

/-- The sum over the rows of the two blocks at point t is the sum over the nodes of block t of the arrays. -/
theorem poolBlockSum_eq (c : Dev nD) (t : Fin cfg6.N) (g : Fin 64) (d : Fin 32) :
    ∑ κ : Fin 2000, poolTableBlk V c t (ix2 κ g) * poolRowsBlk V c t (ix2 κ d) = poolBlockTerm V c g d t.val := by
  have hN : t.val < 50 := lt_of_lt_of_eq t.isLt (show cfg6.N = 50 from N_6)
  unfold poolBlockTerm
  rw [dif_pos hN]
  refine Finset.sum_congr rfl fun κ _ => ?_
  rw [poolTableBlk_apply V c t κ g ⟨κ.val + 2000 * t.val, by have := κ.isLt; omega⟩ rfl,
    poolRowsBlk_apply V c t κ d ⟨κ.val + 2000 * t.val, by have := κ.isLt; omega⟩ rfl]

/-- The first point leaves, at (g, d), zero plus its block's sum. -/
theorem pool_step_first (c : Dev nD) (t : Fin cfg6.N) (h0 : t.val % 50 = 0) (g : Fin 64) (d : Fin 32) :
    outsAt6 V c t.val t.isLt (ix2 g d) = 0 + poolBlockTerm V c g d t.val := by
  rw [outsAt6_A V c t h0]
  refine (congrFun (out6_A_eq (F := Ideal) c (grid6.coords t) (ms6_0 t) (hs6_0 t) (ms6_1 t) (hs6_1 t) (ms6_2 t) (hs6_2 t)
    ((hcond6_0 t).mpr h0) (iblk6 V c 0 t) (iblk6 V c 1 t)) (ix2 g d)).trans ?_
  refine (k6_pay2_apply (poolRowsBlk V c t) (poolTableBlk V c t) (k6_pay1 (F := Ideal)) g d).trans ?_
  rw [k6_pay1_apply, poolBlockSum_eq]

/-- Every other point adds its block's sum to what the point before left. -/
theorem pool_step_next (c : Dev nD) (t : Fin cfg6.N) (h0 : ¬t.val % 50 = 0) (g : Fin 64) (d : Fin 32) :
    outsAt6 V c t.val t.isLt (ix2 g d)
      = outsAt6 V c (t.val - 1) (Nat.lt_of_le_of_lt (Nat.sub_le _ _) t.isLt) (ix2 g d) + poolBlockTerm V c g d t.val := by
  rw [outsAt6_B V c t h0]
  refine (congrFun (out6_B_eq (F := Ideal) c (grid6.coords t) (ms6_0 t) (hs6_0 t) (ms6_1 t) (hs6_1 t) (ms6_2 t) (hs6_2 t)
    (fun h => h0 ((hcond6_0 t).mp h)) (iblk6 V c 0 t) (iblk6 V c 1 t)
    (outsAt6 V c (t.val - 1) (Nat.lt_of_le_of_lt (Nat.sub_le _ _) t.isLt))) (ix2 g d)).trans ?_
  refine (k6_pay2_apply (poolRowsBlk V c t) (poolTableBlk V c t) (outsAt6 V c (t.val - 1) (Nat.lt_of_le_of_lt (Nat.sub_le _ _) t.isLt)) g d).trans ?_
  rw [poolBlockSum_eq]

/-- After point n the block holds, at (g, d), the sum of the first n + 1 blocks' sums: by induction on the point. -/
theorem outsAt6_apply (c : Dev nD) (g : Fin 64) (d : Fin 32) : ∀ (n : ℕ) (hn : n < cfg6.N),
    outsAt6 V c n hn (ix2 g d) = ∑ s ∈ Finset.range (n + 1), poolBlockTerm V c g d s
  | 0, hn => by
    refine (pool_step_first V c ⟨0, hn⟩ rfl g d).trans ?_
    rw [zero_add]
    exact (Finset.sum_range_one _).symm
  | n + 1, hn => by
    have hN : cfg6.N = 50 := N_6
    have hB : ¬(⟨n + 1, hn⟩ : Fin cfg6.N).val % 50 = 0 := by dsimp only; omega
    rw [Finset.sum_range_succ, ← outsAt6_apply c g d n (Nat.lt_of_succ_lt hn)]
    exact pool_step_next V c ⟨n + 1, hn⟩ hB g d

/-- A sum over the 100000 nodes is the sum over the 50 blocks of the sums over each block's 2000 nodes. -/
theorem pool_sum_nodes (f : Fin 100000 → EReal) :
    ∑ n, f n = ∑ s : Fin 50, ∑ r : Fin 2000, f ⟨r.val + 2000 * s.val, by have := r.isLt; have := s.isLt; omega⟩ := by
  have e := Equiv.sum_comp (finProdFinEquiv (m := 50) (n := 2000)) (f : Fin (50 * 2000) → EReal)
  rw [Fintype.sum_prod_type] at e
  exact e.symm

/-- After the last point the block holds the pooled value. -/
theorem pool_last_apply (c : Dev nD) (g : Fin 64) (d : Fin 32) (h49 : 49 < cfg6.N) :
    outsAt6 V c 49 h49 (ix2 g d) = Cert.KSpec.poolAt (V c main_v30) (V c main_v31) g d := by
  refine (outsAt6_apply V c g d 49 h49).trans ?_
  unfold Cert.KSpec.poolAt
  show ∑ s ∈ Finset.range 50, poolBlockTerm V c g d s = _
  rw [pool_sum_nodes, ← Fin.sum_univ_eq_sum_range (poolBlockTerm V c g d) 50]
  refine Finset.sum_congr rfl fun s _ => ?_
  unfold poolBlockTerm
  rw [dif_pos s.isLt]

/-! ## The output array after the run -/

/-- The last point. -/
abbrev pool_tLast : Fin cfg6.N := ⟨49, by rw [show cfg6.N = 50 from N_6]; decide⟩

/-- The output's block index is (0, 0) at every point. -/
theorem pool_index_out : ∀ (t : Fin cfg6.N) (a : Fin win6_2.shape.rank), win6_2.index t a = 0 :=
  (by decide +kernel : ∀ (t : Fin grid6.N) (a : Fin win6_2.shape.rank), win6_2.index t a = 0)

/-- What the block holds after the last point, as contents of the output array (the one block is the array). -/
abbrev poolResult (c : Dev nD) : Buf (Elt Ideal) ((c : Thread nD τ).loc main_v33) := outsAt6 V c 49 pool_tLast.isLt

/-- The one write-back, at the last point, writes it: block (0, 0) of the 64 × 32 array read at zero offsets is the
    array. -/
theorem pool_flushed_eq (c : Dev nD) (t : Fin cfg6.N) (hf : (cfg6.win 2).flush t = true) :
    (dat6 V c).flushed 2 t = ((cfg6.win 2).blk t).view.read (Elt Ideal) (poolResult V c) := by
  have hN : cfg6.N = 50 := N_6
  have h49 : t.val = 49 := by have := (flush6_2 t).mp hf; have := t.isLt; omega
  obtain rfl : t = pool_tLast := Fin.ext h49
  show (cfg6.win 2).cut (grid6.coords pool_tLast) ((dat6 V c).after 2 pool_tLast) = _
  rw [after6_2]
  have hz' : (fun a => win6_2.index pool_tLast a * main_v33.ty.shape.size a) = fun _ => 0 :=
    funext fun a => by rw [pool_index_out pool_tLast a]; exact Nat.zero_mul _
  exact (Memref.read_access_unit_zero (Elt Ideal) main_v33 hz' (fun a => by rw [congrFun hz' a]; simp) (poolResult V c)).symm

/-- So the output array ends holding it: the last point's block covers the array. -/
theorem pool_final (c : Dev nD) : (dat6 V c).arrAt 2 cfg6.N = poolResult V c :=
  (dat6 V c).arrAt_eq_of_cover 2 (poolResult V c) (pool_flushed_eq V c) fun i =>
    ⟨pool_tLast, (flush6_2 pool_tLast).mpr rfl, by
      show i ∈ ((View.whole main_v33).slice (win6_2.rect pool_tLast)).set
      rw [View.set_slice_whole, Rect.mem_set_unit]
      intro a
      have h0 : (i 0 : Nat) < 64 := (i 0).isLt
      have h1 : (i 1 : Nat) < 32 := (i 1).isLt
      match a with
      | ⟨0, _⟩ =>
        show win6_2.index pool_tLast 0 * win6_2.size 0 ≤ (i 0 : Nat)
          ∧ (i 0 : Nat) < win6_2.index pool_tLast 0 * win6_2.size 0 + win6_2.xsize (grid6.coords pool_tLast) 0
        rw [pool_index_out pool_tLast 0, show win6_2.xsize (grid6.coords pool_tLast) 0 = 64 from by decide +kernel]; omega
      | ⟨1, _⟩ =>
        show win6_2.index pool_tLast 1 * win6_2.size 1 ≤ (i 1 : Nat)
          ∧ (i 1 : Nat) < win6_2.index pool_tLast 1 * win6_2.size 1 + win6_2.xsize (grid6.coords pool_tLast) 1
        rw [pool_index_out pool_tLast 1, show win6_2.xsize (grid6.coords pool_tLast) 1 = 32 from by decide +kernel]; omega⟩

/-- Region 6's output array after the run is the reference's pooled array of the region's node rows, the 0/1 table
    being the one of the graph ids gid. -/
theorem region6_value (c : Dev nD) (gid : IVec S100000 32) (hoh : V c main_v31 = Cert.KSpec.onehot (F := Ideal) gid) :
    (dat6 V c).arrAt 2 cfg6.N = Cert.RefSpec.pooled (F := Ideal) (V c main_v30) gid := by
  refine (pool_final V c).trans (funext fun (j : S64x32.Idx) => ?_)
  obtain ⟨g, d, rfl⟩ : ∃ (g : Fin 64) (d : Fin 32), j = ix2 g d := ⟨j 0, j 1, eq_ix2 j⟩
  refine (pool_last_apply V c g d pool_tLast.isLt).trans ?_
  rw [Cert.KSpec.pooled_apply, hoh]

end Cert.KernelIdeal.Val

end
-- ==== Proof.KVal.lean ====
/-
  The kernel program's result as the network function of its inputs, stage by stage.

  The program's buffers are followed from the launch to the return. The host stretches are read in their own modules
  (the degrees and normalisers, each layer's take and scatter-add, the 0/1 table of the graph ids with its column sums,
  the head). Each kernel region's output array is the reference's stage of the region's input arrays (the region
  modules). With every source id a node id the take is the reference's gather, so each layer's rows, the pooled rows
  and the result are the reference's, stage for stage.
-/
import proofs.«430338_j52458730553357_1_alg».proof.Proof.Gen.KernelIdeal.Frame
import proofs.«430338_j52458730553357_1_alg».proof.Proof.Gen.ReferenceIdeal
import proofs.«430338_j52458730553357_1_alg».proof.Proof.RefSpec
import proofs.«430338_j52458730553357_1_alg».proof.Proof.KSpec
import proofs.«430338_j52458730553357_1_alg».proof.Proof.KHostNorm
import proofs.«430338_j52458730553357_1_alg».proof.Proof.KHostAgg1
import proofs.«430338_j52458730553357_1_alg».proof.Proof.KHostAgg2
import proofs.«430338_j52458730553357_1_alg».proof.Proof.KHostAgg3
import proofs.«430338_j52458730553357_1_alg».proof.Proof.KHostPool
import proofs.«430338_j52458730553357_1_alg».proof.Proof.KHostTail
import proofs.«430338_j52458730553357_1_alg».proof.Proof.KWalk
import proofs.«430338_j52458730553357_1_alg».proof.Proof.ProjRegion0
import proofs.«430338_j52458730553357_1_alg».proof.Proof.PostRegion1
import proofs.«430338_j52458730553357_1_alg».proof.Proof.ProjRegion2
import proofs.«430338_j52458730553357_1_alg».proof.Proof.PostRegion3
import proofs.«430338_j52458730553357_1_alg».proof.Proof.ProjRegion4
import proofs.«430338_j52458730553357_1_alg».proof.Proof.PostRegion5
import proofs.«430338_j52458730553357_1_alg».proof.Proof.PoolRegion
import proofs.«430338_j52458730553357_1_alg».proof.Proof.PoolAlgebra
import Idealize.ShloMosaic.PureOps.Ideal
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The stages -/

/-- Every source id is a node id. -/
def SrcOk : Prop := ∀ (c : Dev nD) (e : S1600000.Idx),
  0 ≤ (m ((c : Thread nD τ).loc main_arg1) e).toInt ∧ (m ((c : Thread nD τ).loc main_arg1) e).toInt < 100000

theorem stage_p1 (c : Dev nD) : (W6 m ρ c (Proc.devRef .tc main_v13))
    = Cert.RefSpec.proj1 (F := Ideal) (m ((c : Thread nD τ).loc main_arg0)) (m ((c : Thread nD τ).loc main_arg4)) (Cert.RefSpec.norm (m ((c : Thread nD τ).loc main_arg1))) := by
  refine (W6_arr m ρ c 3).trans ?_
  rw [region0_value (V5 m ρ) c _ (W5_v9 m ρ c)]
  exact congrArg₂ (fun a b => Cert.RefSpec.proj1 (F := Ideal) a b _) (W5_arg0 m ρ c) (W5_arg4 m ρ c)

theorem stage_m1 (hs : SrcOk m) (c : Dev nD) : (W8 m ρ c (Proc.devRef .tc main_v17))
    = Cert.RefSpec.agg1 (F := Ideal) (Cert.RefSpec.gath1 (W6 m ρ c (Proc.devRef .tc main_v13)) (m ((c : Thread nD τ).loc main_arg1))) (m ((c : Thread nD τ).loc main_arg2)) := by
  rw [W8_v17, W6_arg1, W6_arg2, Cert.KSpec.take1_eq _ _ (hs c)]

theorem stage_h1 (c : Dev nD) : (W9 m ρ c (Proc.devRef .tc main_v18))
    = Cert.RefSpec.leaky1 (F := Ideal) (Cert.RefSpec.scaled1 (W8 m ρ c (Proc.devRef .tc main_v17)) (Cert.RefSpec.norm (m ((c : Thread nD τ).loc main_arg2)))) := by
  refine (W9_arr m ρ c 2).trans ?_
  exact region1_value (V8 m ρ) c _ ((W8_v12 m ρ c).trans (W5_v12 m ρ c))

theorem stage_p2 (c : Dev nD) : (W10 m ρ c (Proc.devRef .tc main_v19))
    = Cert.RefSpec.proj2 (F := Ideal) (W9 m ρ c (Proc.devRef .tc main_v18)) (m ((c : Thread nD τ).loc main_arg5)) (Cert.RefSpec.norm (m ((c : Thread nD τ).loc main_arg1))) := by
  refine (W10_arr m ρ c 3).trans ?_
  rw [region2_value (V9 m ρ) c _ ((W9_v9 m ρ c).trans (W5_v9 m ρ c))]
  exact congrArg (fun b => Cert.RefSpec.proj2 (F := Ideal) _ b _) (W9_arg5 m ρ c)

theorem stage_m2 (hs : SrcOk m) (c : Dev nD) : (W12 m ρ c (Proc.devRef .tc main_v23))
    = Cert.RefSpec.agg2 (F := Ideal) (Cert.RefSpec.gath2 (W10 m ρ c (Proc.devRef .tc main_v19)) (m ((c : Thread nD τ).loc main_arg1))) (m ((c : Thread nD τ).loc main_arg2)) := by
  rw [W12_v23, W10_arg1, W10_arg2, Cert.KSpec.take2_eq _ _ (hs c)]

theorem stage_h2 (c : Dev nD) : (W13 m ρ c (Proc.devRef .tc main_v24))
    = Cert.RefSpec.leaky2 (F := Ideal) (Cert.RefSpec.scaled2 (W12 m ρ c (Proc.devRef .tc main_v23)) (Cert.RefSpec.norm (m ((c : Thread nD τ).loc main_arg2)))) := by
  refine (W13_arr m ρ c 2).trans ?_
  exact region3_value (V12 m ρ) c _ ((W12_v12 m ρ c).trans (W5_v12 m ρ c))

theorem stage_p3 (c : Dev nD) : (W14 m ρ c (Proc.devRef .tc main_v25))
    = Cert.RefSpec.proj3 (F := Ideal) (W13 m ρ c (Proc.devRef .tc main_v24)) (m ((c : Thread nD τ).loc main_arg6)) (Cert.RefSpec.norm (m ((c : Thread nD τ).loc main_arg1))) := by
  refine (W14_arr m ρ c 3).trans ?_
  rw [region4_value (V13 m ρ) c _ ((W13_v9 m ρ c).trans (W5_v9 m ρ c))]
  exact congrArg (fun b => Cert.RefSpec.proj3 (F := Ideal) _ b _) (W13_arg6 m ρ c)

theorem stage_m3 (hs : SrcOk m) (c : Dev nD) : (W16 m ρ c (Proc.devRef .tc main_v29))
    = Cert.RefSpec.agg3 (F := Ideal) (Cert.RefSpec.gath3 (W14 m ρ c (Proc.devRef .tc main_v25)) (m ((c : Thread nD τ).loc main_arg1))) (m ((c : Thread nD τ).loc main_arg2)) := by
  rw [W16_v29, W14_arg1, W14_arg2, Cert.KSpec.take3_eq _ _ (hs c)]

theorem stage_h3 (c : Dev nD) : (W17 m ρ c (Proc.devRef .tc main_v30))
    = Cert.RefSpec.leaky3 (F := Ideal) (Cert.RefSpec.scaled3 (W16 m ρ c (Proc.devRef .tc main_v29)) (Cert.RefSpec.norm (m ((c : Thread nD τ).loc main_arg2)))) := by
  refine (W17_arr m ρ c 2).trans ?_
  exact region5_value (V16 m ρ) c _ ((W16_v12 m ρ c).trans (W5_v12 m ρ c))

theorem stage_pool (c : Dev nD) : (W20 m ρ c (Proc.devRef .tc main_v33))
    = Cert.RefSpec.pooled (F := Ideal) (W17 m ρ c (Proc.devRef .tc main_v30)) (m ((c : Thread nD τ).loc main_arg3)) := by
  refine (W20_arr m ρ c 2).trans ?_
  rw [region6_value (V19 m ρ) c (m ((c : Thread nD τ).loc main_arg3)) ((W19_v31 m ρ c).trans (congrArg _ (W17_arg3 m ρ c)))]
  exact congrArg (fun a => Cert.RefSpec.pooled (F := Ideal) a _) (W19_v30 m ρ c)

theorem stage_cnt (c : Dev nD) : (W20 m ρ c (Proc.devRef .tc main_v32)) = Cert.RefSpec.counts (F := Ideal) (m ((c : Thread nD τ).loc main_arg3)) := by
  rw [W20_v32, W19_v32, W17_arg3, Cert.KSpec.cnt_eq]

/-- THE RESULT: with every source id a node id, the kernel program's result buffer at the last boundary holds the
    network function of the argument arrays. -/
theorem result (hs : SrcOk m) (c : Dev nD) : (W23 m ρ c (Proc.devRef .tc main_v41))
    = Cert.RefSpec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W23_v41, stage_pool, stage_cnt, W20_arg7, W20_arg8, stage_h3, stage_m3 m ρ hs, stage_p3, stage_h2, stage_m2 m ρ hs,
    stage_p2, stage_h1, stage_m1 m ρ hs, stage_p1]
  rfl

end Cert.KernelIdeal.Val

end
-- ==== Proof.PreDecode.lean ====
/-
  What the precondition says about the source ids: every one of them is a node id, 0 ≤ s < 100000.

  The predicate is a conjunction of scalars; its last conjunct is the "all" (a reduction by "and" over the one axis)
  of the pointwise conjunction  (s ≥ 0) ∧ (s < 100000)  of two signed compares of the source ids against broadcast
  scalars. A conjunction of one-bit words is one exactly when both are; a reduction by "and" into a single cell is one
  only when every operand entry is one; a broadcast scalar reads the scalar everywhere; and a signed compare of words
  is the compare of their integer values. Reading the chain backwards at an edge e gives 0 ≤ s e < 100000.
-/
import proofs.«430338_j52458730553357_1_alg».proof.Defs
import proofs.«430338_j52458730553357_1_alg».proof.Proof.Gen.Pre_finite_inputs
import proofs.«430338_j52458730553357_1_alg».proof.Proof.Gen.KernelIdeal
import Idealize.ShloMosaic.PureOps.Ideal
import Idealize.ShloMosaic.Lib.StableHlo.Predicate
import Idealize.ShloMosaic.Lib.ReduceAll

noncomputable section

namespace Cert.PreDecode

open Idealize.ShloMosaic Idealize.SL.Sem

/-- A shape of rank zero has one index: two indices agree at every axis because there is no axis. -/
instance scalarIdxSubsingleton : Subsingleton Cert.Pre_finite_inputs.S_.Idx :=
  ⟨fun a b => funext fun d => d.elim0⟩

/-- The one index of the scalar shape. -/
def scalarIdx : Cert.Pre_finite_inputs.S_.Idx := fun a => a.elim0

/-- A word that is ≥ 0 and < 100000 as signed compares say so has its integer value in [0, 100000):
    a signed compare of two words is the compare of their integer values, and the two literals read 0 and 100000. -/
theorem word_in_range (w : BitVec 32) (h0 : IntOp.cmpi .sge w 0#32 = 1#1) (h1 : IntOp.cmpi .slt w 100000#32 = 1#1) :
    0 ≤ w.toInt ∧ w.toInt < 100000 := by
  rw [IntOp.cmpi_sge] at h0
  unfold IntOp.cmpi at h1
  rw [StableHlo.Predicate.ofBool_eq_one_iff, BitVec.slt_iff_toInt_lt] at h1
  have z : (0#32 : BitVec 32).toInt = 0 := by decide
  have k : (100000#32 : BitVec 32).toInt = 100000 := by decide
  rw [z] at h0
  rw [k] at h1
  exact ⟨h0, h1⟩

/-- The tail of the predicate, (earlier conjuncts) ∧ all(t), is one only if every entry of t is one:
    the conjunction gives all(t) = 1, and an "and"-reduction into one cell that is one had a one everywhere. -/
theorem tail_all_one {F : FTy → Type} [FloatOps F] (p : IVec Cert.Pre_finite_inputs.S_ 1)
    (t : IVec Cert.Pre_finite_inputs.S1600000 1) (j : Cert.Pre_finite_inputs.S_.Idx)
    (h : Cert.Pre_finite_inputs.fn_part2 (F := F) p t j = 1#1) (e : Cert.Pre_finite_inputs.S1600000.Idx) : t e = 1#1 := by
  unfold Cert.Pre_finite_inputs.fn_part2 at h
  dsimp only at h
  change IntOp.andi _ _ = 1#1 at h
  exact Host.reduce_andi_all _ _ _ _ j (IntOp.andi_eq_one.mp h).2 e

/-- Under the precondition every source id lies in [0, 100000), on every device. -/
theorem src_in_range (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S1600000.Idx) :
    0 ≤ (m ((c.tc : Thread Cert.KernelIdeal.nD Cert.KernelIdeal.τ).loc Cert.KernelIdeal.main_arg1) e).toInt
      ∧ (m ((c.tc : Thread Cert.KernelIdeal.nD Cert.KernelIdeal.τ).loc Cert.KernelIdeal.main_arg1) e).toInt < 100000 := by
  -- the predicate's one cell is one on device c
  have h1 := congrFun (h c) scalarIdx
  -- open the printed chain down to its tail: (earlier conjuncts) ∧ all((s ≥ 0) ∧ (s < 100000))
  unfold Cert.Pre_finite_inputs.fn at h1
  dsimp only at h1
  unfold Cert.Pre_finite_inputs.fn_part1 at h1
  dsimp only at h1
  -- so the pointwise conjunction is one at edge e
  have he := tail_all_one _ _ _ h1 e
  change IntOp.andi (IntOp.cmpi .sge _ (broadcastInDim _ _ _ _ _)) (IntOp.cmpi .slt _ (broadcastInDim _ _ _ _ _)) = 1#1 at he
  rw [IntOp.andi_eq_one, StableHlo.Predicate.bcast_scalar _ Cert.Pre_finite_inputs.Facts.h_S_,
    StableHlo.Predicate.bcast_scalar _ Cert.Pre_finite_inputs.Facts.h_S_] at he
  exact word_in_range _ he.1 he.2

end Cert.PreDecode

end
-- ==== Proof.lean ====
/-
  A three-layer graph convolution with a mean pool and a linear head: the kernel program equals its reference over
  the extended reals, when every source id is a node id.

  Both programs compute, from node features x, an edge list (src, dst), graph ids and weights: the edge degrees of
  the nodes clipped below at 1 and their reciprocal square roots; three times
  h ↦ leaky( D_in^{-1/2} · A · ((D_out^{-1/2} · h) · W) ), A adding the row of an edge's source into the row of its
  destination; the mean of the node rows of each graph; a product with a 32 × 5 matrix plus a bias. The kernel
  program does the projections, the scaling with the rectifier and the pooling in seven tiled kernels, rounding its
  matrix operands to a narrower format (the identity on the extended reals), and it pools by multiplying with a 0/1
  table of the graph ids where the reference adds each row at its graph id: equal sums, since 1 · x = x and
  0 · x = 0 for every extended real. The two differ at a source id outside [0, 100000): the kernel program's take
  puts a fill value there (a not-a-number pattern, which the extended reals read as their bottom element), the
  reference's gather clamps the index; the precondition keeps the
  source ids inside, where the reference's own indexing is in range, and there the take is the gather.
  The frames of the two kernel programs are the generated ones; the reference's is its run with the result dropped;
  no operation was rewritten by the idealization, so that claim is trivial; the two results are one function
  of the arguments (the stage modules).
-/
import proofs.«430338_j52458730553357_1_alg».proof.Defs
import proofs.«430338_j52458730553357_1_alg».proof.Proof.Gen.Kernel
import proofs.«430338_j52458730553357_1_alg».proof.Proof.Gen.Kernel.Frame
import proofs.«430338_j52458730553357_1_alg».proof.Proof.Gen.KernelIdeal
import proofs.«430338_j52458730553357_1_alg».proof.Proof.Gen.KernelIdeal.Frame
import proofs.«430338_j52458730553357_1_alg».proof.Proof.Gen.ReferenceIdeal
import proofs.«430338_j52458730553357_1_alg».proof.Proof.Gen.Pre_finite_inputs
import proofs.«430338_j52458730553357_1_alg».proof.Proof.RefSpec
import proofs.«430338_j52458730553357_1_alg».proof.Proof.RefRun
import proofs.«430338_j52458730553357_1_alg».proof.Proof.KRun
import proofs.«430338_j52458730553357_1_alg».proof.Proof.KVal
import proofs.«430338_j52458730553357_1_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Both programs end with the network function of the arguments in their result buffers: the kernel program's by its
    stages (under the decoded range of the source ids), the reference's by its run, at arguments that agree. -/
theorem algebraic : Cert.algebraic_KernelIdeal_ReferenceIdeal := by
  intro m ρ m' ρ' hpre hagree
  have hs : Cert.KernelIdeal.Val.SrcOk m := fun c e => Cert.PreDecode.src_in_range m hpre c e
  refine ⟨fun c => Cert.RefSpec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result m ρ hs c), (h c).2⟩)
      (Cert.KernelIdeal.ValRun.run (F := Ideal) m ρ)
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
